-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x16 : S_.BroadcastsInDim S64x16 (![] : Fin 0 → Fin S64x16.rank)
  reducesTo_S64x16_S_d0_1 : S64x16.ReducesTo [0, 1] S_
  bcast_S_S16 : S_.BroadcastsInDim S16 (![] : Fin 0 → Fin S16.rank)
  reducesTo_S16_S_d0 : S16.ReducesTo [0] S_
  bcast_S_S2x1600000 : S_.BroadcastsInDim S2x1600000 (![] : Fin 0 → Fin S2x1600000.rank)
  reducesTo_S2x1600000_S_d0_1 : S2x1600000.ReducesTo [0, 1] S_

variable [Facts]

def fn_part1 {F : FTy → Type} [FloatOps F] (main_arg1 : IVec S2x1600000 32) (main_arg5 : FVec F S16 .f32) (main_v13 : IVec S_ 1) (main_v16 : IVec S64x16 1) : IVec S_ 1 :=
  let main_c_5 : IVec S_ 1 := constantI S_ 1 1#1
  let main_v17 : IVec S_ 1 := (fun x v => Host.reduce IntOp.andi x v reducesTo_S64x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_c_8 : IVec S_ 32 := constantI S_ 32 0#32
  let main_v24 : IVec S2x1600000 32 := broadcastInDim S2x1600000 ![] bcast_S_S2x1600000 main_c_8
  let main_v25 : IVec S2x1600000 1 := cmpi .sge main_arg1 main_v24
  let main_c_9 : IVec S_ 32 := constantI S_ 32 100000#32
  let main_v26 : IVec S2x1600000 32 := broadcastInDim S2x1600000 ![] bcast_S_S2x1600000 main_c_9
  let main_v27 : IVec S2x1600000 1 := cmpi .slt main_arg1 main_v26
  let main_v28 : IVec S2x1600000 1 := andi main_v25 main_v27
  let main_c_10 : IVec S_ 1 := constantI S_ 1 1#1
  let main_v29 : IVec S_ 1 := (fun x v => Host.reduce IntOp.andi x v reducesTo_S2x1600000_S_d0_1 h_S_) main_v28 main_c_10
  let main_v30 : IVec S_ 1 := andi main_v23 main_v29
  main_v30

def fn {F : FTy → Type} [FloatOps F] (main_arg0 : FVec F S100000x128 .f32) (main_arg1 : IVec S2x1600000 32) (main_arg2 : FVec F S128x64 .f32) (main_arg3 : FVec F S64 .f32) (main_arg4 : FVec F S64x16 .f32) (main_arg5 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x16 .f32 := Host.absf main_arg4
  let main_cst_4 : FVec F S_ .f32 := constant S_ .f32 0x7F800000#32
  let main_v15 : FVec F S64x16 .f32 := broadcastInDim S64x16 ![] bcast_S_S64x16 main_cst_4
  let main_v16 : IVec S64x16 1 := cmpf .olt main_v14 main_v15
  fn_part1 (F := F) main_arg1 main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S100096x128 : Shape := ⟨2, ![100096, 128]⟩
abbrev S100096 : Shape := ⟨1, ![100096]⟩
abbrev S1600000x1 : Shape := ⟨2, ![1600000, 1]⟩
abbrev S100096x1 : Shape := ⟨2, ![100096, 1]⟩
abbrev S100096x64 : Shape := ⟨2, ![100096, 64]⟩
abbrev S2944x128 : Shape := ⟨2, ![2944, 128]⟩
abbrev S2944x64 : Shape := ⟨2, ![2944, 64]⟩
abbrev S1600000x64 : Shape := ⟨2, ![1600000, 64]⟩
abbrev S1x64 : Shape := ⟨2, ![1, 64]⟩
abbrev S2944x1 : Shape := ⟨2, ![2944, 1]⟩
abbrev S100096x16 : Shape := ⟨2, ![100096, 16]⟩
abbrev S2944x16 : Shape := ⟨2, ![2944, 16]⟩
abbrev S1600000x16 : Shape := ⟨2, ![1600000, 16]⟩
abbrev S1x16 : Shape := ⟨2, ![1, 16]⟩
abbrev S2944 : Shape := ⟨1, ![2944]⟩
abbrev S100000x16 : Shape := ⟨2, ![100000, 16]⟩

abbrev nBuf : Space → Nat
  | .hbm => 84
  | .vmem => 32
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x16, .f32⟩
  | .hbm, ⟨5, _⟩ => ⟨S16, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S_, .i32⟩
  | .hbm, ⟨11, _⟩ => ⟨S_, .f32⟩
  | .hbm, ⟨12, _⟩ => ⟨S100096x128, .f32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100096, .f32⟩
  | .hbm, ⟨17, _⟩ => ⟨S1600000x1, .i32⟩
  | .hbm, ⟨18, _⟩ => ⟨S100096, .f32⟩
  | .hbm, ⟨19, _⟩ => ⟨S_, .f32⟩
  | .hbm, ⟨20, _⟩ => ⟨S100096, .f32⟩
  | .hbm, ⟨21, _⟩ => ⟨S100096, .f32⟩
  | .hbm, ⟨22, _⟩ => ⟨S100096, .f32⟩
  | .hbm, ⟨23, _⟩ => ⟨S100096, .f32⟩
  | .hbm, ⟨24, _⟩ => ⟨S100096x1, .f32⟩
  | .hbm, ⟨25, _⟩ => ⟨S_, .i32⟩
  | .hbm, ⟨26, _⟩ => ⟨S1600000, .i32⟩
  | .hbm, ⟨27, _⟩ => ⟨S1600000, .i1⟩
  | .hbm, ⟨28, _⟩ => ⟨S_, .i32⟩
  | .hbm, ⟨29, _⟩ => ⟨S1600000, .i32⟩
  | .hbm, ⟨30, _⟩ => ⟨S1600000, .i32⟩
  | .hbm, ⟨31, _⟩ => ⟨S1600000, .i32⟩
  | .hbm, ⟨32, _⟩ => ⟨S1600000x1, .i32⟩
  | .hbm, ⟨33, _⟩ => ⟨S1600000, .f32⟩
  | .hbm, ⟨34, _⟩ => ⟨S_, .i32⟩
  | .hbm, ⟨35, _⟩ => ⟨S1600000, .i32⟩
  | .hbm, ⟨36, _⟩ => ⟨S1600000, .i1⟩
  | .hbm, ⟨37, _⟩ => ⟨S_, .i32⟩
  | .hbm, ⟨38, _⟩ => ⟨S1600000, .i32⟩
  | .hbm, ⟨39, _⟩ => ⟨S1600000, .i32⟩
  | .hbm, ⟨40, _⟩ => ⟨S1600000, .i32⟩
  | .hbm, ⟨41, _⟩ => ⟨S1600000x1, .i32⟩
  | .hbm, ⟨42, _⟩ => ⟨S1600000, .f32⟩
  | .hbm, ⟨43, _⟩ => ⟨S1600000, .f32⟩
  | .hbm, ⟨44, _⟩ => ⟨S100096x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S1600000x1, .f32⟩
  | .hbm, ⟨55, _⟩ => ⟨S1600000x64, .f32⟩
  | .hbm, ⟨56, _⟩ => ⟨S1600000x64, .f32⟩
  | .hbm, ⟨57, _⟩ => ⟨S_, .f32⟩
  | .hbm, ⟨58, _⟩ => ⟨S100096x64, .f32⟩
  | .hbm, ⟨59, _⟩ => ⟨S1600000x1, .i32⟩
  | .hbm, ⟨60, _⟩ => ⟨S100096x64, .f32⟩
  | .hbm, ⟨61, _⟩ => ⟨S1x64, .f32⟩
  | .hbm, ⟨62, _⟩ => ⟨S100096x64, .f32⟩
  | .hbm, ⟨63, _⟩ => ⟨S100096x16, .f32⟩
  | .hbm, ⟨64, _⟩ => ⟨S_, .i32⟩
  | .hbm, ⟨65, _⟩ => ⟨S1600000, .i32⟩
  | .hbm, ⟨66, _⟩ => ⟨S1600000, .i1⟩
  | .hbm, ⟨67, _⟩ => ⟨S_, .i32⟩
  | .hbm, ⟨68, _⟩ => ⟨S1600000, .i32⟩
  | .hbm, ⟨69, _⟩ => ⟨S1600000, .i32⟩
  | .hbm, ⟨70, _⟩ => ⟨S1600000, .i32⟩
  | .hbm, ⟨71, _⟩ => ⟨S1600000x1, .i32⟩
  | .hbm, ⟨72, _⟩ => ⟨S1600000x16, .f32⟩
  | .hbm, ⟨73, _⟩ => ⟨S1600000x1, .f32⟩
  | .hbm, ⟨74, _⟩ => ⟨S1600000x16, .f32⟩
  | .hbm, ⟨75, _⟩ => ⟨S1600000x16, .f32⟩
  | .hbm, ⟨76, _⟩ => ⟨S_, .f32⟩
  | .hbm, ⟨77, _⟩ => ⟨S100096x16, .f32⟩
  | .hbm, ⟨78, _⟩ => ⟨S1600000x1, .i32⟩
  | .hbm, ⟨79, _⟩ => ⟨S100096x16, .f32⟩
  | .hbm, ⟨80, _⟩ => ⟨S1x16, .f32⟩
  | .hbm, ⟨81, _⟩ => ⟨S100096x16, .f32⟩
  | .hbm, ⟨82, _⟩ => ⟨S100096x16, .f32⟩
  | .hbm, ⟨83, _⟩ => ⟨S100000x16, .f32⟩
  | .local _ .vmem, ⟨0, _⟩ => ⟨S2944x128, .f32⟩
  | .local _ .vmem, ⟨1, _⟩ => ⟨S2944x128, .f32⟩
  | .local _ .vmem, ⟨2, _⟩ => ⟨S128x64, .f32⟩
  | .local _ .vmem, ⟨3, _⟩ => ⟨S2944x64, .f32⟩
  | .local _ .vmem, ⟨4, _⟩ => ⟨S2944x64, .f32⟩
  | .local _ .vmem, ⟨5, _⟩ => ⟨S2944x64, .f32⟩
  | .local _ .vmem, ⟨6, _⟩ => ⟨S2944x64, .f32⟩
  | .local _ .vmem, ⟨7, _⟩ => ⟨S2944x64, .f32⟩
  | .local _ .vmem, ⟨8, _⟩ => ⟨S2944x64, .f32⟩
  | .local _ .vmem, ⟨9, _⟩ => ⟨S2944x1, .f32⟩
  | .local _ .vmem, ⟨10, _⟩ => ⟨S2944x1, .f32⟩
  | .local _ .vmem, ⟨11, _⟩ => ⟨S1x64, .f32⟩
  | .local _ .vmem, ⟨12, _⟩ => ⟨S2944x64, .f32⟩
  | .local _ .vmem, ⟨13, _⟩ => ⟨S2944x64, .f32⟩
  | .local _ .vmem, ⟨14, _⟩ => ⟨S2944x64, .f32⟩
  | .local _ .vmem, ⟨15, _⟩ => ⟨S2944x64, .f32⟩
  | .local _ .vmem, ⟨16, _⟩ => ⟨S64x16, .f32⟩
  | .local _ .vmem, ⟨17, _⟩ => ⟨S2944x16, .f32⟩
  | .local _ .vmem, ⟨18, _⟩ => ⟨S2944x16, .f32⟩
  | .local _ .vmem, ⟨19, _⟩ => ⟨S2944x16, .f32⟩
  | .local _ .vmem, ⟨20, _⟩ => ⟨S2944x16, .f32⟩
  | .local _ .vmem, ⟨21, _⟩ => ⟨S2944x16, .f32⟩
  | .local _ .vmem, ⟨22, _⟩ => ⟨S2944x16, .f32⟩
  | .local _ .vmem, ⟨23, _⟩ => ⟨S2944x1, .f32⟩
  | .local _ .vmem, ⟨24, _⟩ => ⟨S2944x1, .f32⟩
  | .local _ .vmem, ⟨25, _⟩ => ⟨S1x16, .f32⟩
  | .local _ .vmem, ⟨26, _⟩ => ⟨S2944x16, .f32⟩
  | .local _ .vmem, ⟨27, _⟩ => ⟨S2944x16, .f32⟩
  | .local _ .vmem, ⟨28, _⟩ => ⟨S2944x16, .f32⟩
  | .local _ .vmem, ⟨29, _⟩ => ⟨S2944x16, .f32⟩
  | .local _ .vmem, ⟨30, _⟩ => ⟨S2944x16, .f32⟩
  | .local _ .vmem, ⟨31, _⟩ => ⟨S2944x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_call0_v0 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_4 : Ref sig .tc := ⟨.hbm, 34, rfl⟩
abbrev main_v21 : Ref sig .tc := ⟨.hbm, 35, rfl⟩
abbrev main_v22 : Ref sig .tc := ⟨.hbm, 36, rfl⟩
abbrev main_c_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_c_6 : Ref sig .tc := ⟨.hbm, 45, rfl⟩
abbrev main_v30 : Ref sig .tc := ⟨.hbm, 46, rfl⟩
abbrev main_v31 : Ref sig .tc := ⟨.hbm, 47, rfl⟩
abbrev main_c_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_8 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_9 : Ref sig .tc := ⟨.hbm, 64, rfl⟩
abbrev main_v46 : Ref sig .tc := ⟨.hbm, 65, rfl⟩
abbrev main_v47 : Ref sig .tc := ⟨.hbm, 66, rfl⟩
abbrev main_c_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_cst_11 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg1_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27
abbrev cc4_sem0_0 : DmaSem sig := 28
abbrev cc4_sem0_1 : DmaSem sig := 29
abbrev cc4_sem1_0 : DmaSem sig := 30
abbrev cc4_sem1_1 : DmaSem sig := 31

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2944x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2944x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![34], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2944x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2944x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2944x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2944x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![34], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2944x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2944x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![34], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2944x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2944x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2944x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2944x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![34], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2944x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S2944x16 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  pads_S100000x128_S100096x128_0960_000 : S100000x128.Pads (![0, 0] : Fin 2 → Nat) ![96, 0] ![0, 0] S100096x128
  h_S_ : 0 < S_.numel
  bcast_S_S1600000 : S_.BroadcastsInDim S1600000 (![] : Fin 0 → Fin S1600000.rank)
  bcast_S_S100096 : S_.BroadcastsInDim S100096 (![] : Fin 0 → Fin S100096.rank)
  bcast_S1600000_S1600000x1_0 : S1600000.BroadcastsInDim S1600000x1 (![0] : Fin 1 → Fin S1600000x1.rank)
  shapeCasts_S100096_S100096x1 : S100096.ShapeCasts S100096x1
  inb_S2944x128_S2944x128_0_0 : ∀ a, (![0, 0] : Fin 2 → Nat) a + S2944x128.size a ≤ S2944x128.size a
  h_S2944x128 : 0 < S2944x128.numel
  shapeCasts_S2944x128_S2944x128 : S2944x128.ShapeCasts S2944x128
  inb_S128x64_S128x64_0_0 : ∀ a, (![0, 0] : Fin 2 → Nat) a + S128x64.size a ≤ S128x64.size a
  h_S128x64 : 0 < S128x64.numel
  inb_S2944x64_S2944x64_0_0 : ∀ a, (![0, 0] : Fin 2 → Nat) a + S2944x64.size a ≤ S2944x64.size a
  h_S2944x64 : 0 < S2944x64.numel
  bcast_S1600000x1_S1600000x64_0_1 : S1600000x1.BroadcastsInDim S1600000x64 (![0, 1] : Fin 2 → Fin S1600000x64.rank)
  bcast_S_S100096x64 : S_.BroadcastsInDim S100096x64 (![] : Fin 0 → Fin S100096x64.rank)
  shapeCasts_S64_S1x64 : S64.ShapeCasts S1x64
  shapeCasts_S2944x64_S2944x64 : S2944x64.ShapeCasts S2944x64
  inb_S2944x1_S2944x1_0_0 : ∀ a, (![0, 0] : Fin 2 → Nat) a + S2944x1.size a ≤ S2944x1.size a
  h_S2944x1 : 0 < S2944x1.numel
  shapeCasts_S2944x1_S2944x1 : S2944x1.ShapeCasts S2944x1
  broadcasts_S2944x1_S2944x64 : S2944x1.Broadcasts S2944x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2944x64 : S1x64.Broadcasts S2944x64
  inb_S64x16_S64x16_0_0 : ∀ a, (![0, 0] : Fin 2 → Nat) a + S64x16.size a ≤ S64x16.size a
  h_S64x16 : 0 < S64x16.numel
  inb_S2944x16_S2944x16_0_0 : ∀ a, (![0, 0] : Fin 2 → Nat) a + S2944x16.size a ≤ S2944x16.size a
  h_S2944x16 : 0 < S2944x16.numel
  bcast_S1600000x1_S1600000x16_0_1 : S1600000x1.BroadcastsInDim S1600000x16 (![0, 1] : Fin 2 → Fin S1600000x16.rank)
  bcast_S_S100096x16 : S_.BroadcastsInDim S100096x16 (![] : Fin 0 → Fin S100096x16.rank)
  shapeCasts_S16_S1x16 : S16.ShapeCasts S1x16
  shapeCasts_S2944x16_S2944x16 : S2944x16.ShapeCasts S2944x16
  broadcasts_S2944x1_S2944x16 : S2944x1.Broadcasts S2944x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2944x16 : S1x16.Broadcasts S2944x16
  reduces_S2944x16_S2944 : S2944x16.Reduces [1] S2944
  shapeCasts_S2944_S2944x1 : S2944.ShapeCasts S2944x1
  slices_S100096x16_S100000x16_0_0 : S100096x16.Slices ![0, 0] S100000x16
  scatter_S100096_S1600000x1_S1600000_n_0_0_1_wf : ScatterDims.WF S100096 S1600000x1 S1600000 [] [0] [0] 1
  gather_S100096_S1600000x1_S1600000_n_0_n_n_0_1_1_wf : GatherDims.WF S100096 S1600000x1 S1600000 [] [0] [] [0] [] 1 ![1]
  dot_S2944x128_S128x64_S2944x64_1_0_0_1_n_n_wf : DotDims.WF S2944x128 S128x64 S2944x64 [1] [0] [0] [1] [] []
  gather_S100096x64_S1600000x1_S1600000x64_1_0_n_n_0_1_164_wf : GatherDims.WF S100096x64 S1600000x1 S1600000x64 [1] [0] [] [0] [] 1 ![1, 64]
  scatter_S100096x64_S1600000x1_S1600000x64_1_0_0_1_wf : ScatterDims.WF S100096x64 S1600000x1 S1600000x64 [1] [0] [0] 1
  dot_S2944x64_S64x16_S2944x16_1_0_0_1_n_n_wf : DotDims.WF S2944x64 S64x16 S2944x16 [1] [0] [0] [1] [] []
  gather_S100096x16_S1600000x1_S1600000x16_1_0_n_n_0_1_116_wf : GatherDims.WF S100096x16 S1600000x1 S1600000x16 [1] [0] [] [0] [] 1 ![1, 16]
  scatter_S100096x16_S1600000x1_S1600000x16_1_0_0_1_wf : ScatterDims.WF S100096x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2944x128.size a ≤ S100096x128.size a
  hwx0_0 : ∀ i : grid0.Coords, EltTy.bits .f32 = 32 ∨ (Rect.block (s := S100096x128) S2944x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2944x64.size a ≤ S100096x64.size a
  hwx0_2 : ∀ i : grid0.Coords, EltTy.bits .f32 = 32 ∨ (Rect.block (s := S100096x64) S2944x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2944x64.size a ≤ S100096x64.size a
  hwx1_0 : ∀ i : grid1.Coords, EltTy.bits .f32 = 32 ∨ (Rect.block (s := S100096x64) S2944x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2944x64.size a ≤ S100096x64.size a
  hwx1_1 : ∀ i : grid1.Coords, EltTy.bits .f32 = 32 ∨ (Rect.block (s := S100096x64) S2944x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2944x1.size a ≤ S100096x1.size a
  hwx1_2 : ∀ i : grid1.Coords, EltTy.bits .f32 = 32 ∨ (Rect.block (s := S100096x1) S2944x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2944x64.size a ≤ S100096x64.size a
  hwx1_4 : ∀ i : grid1.Coords, EltTy.bits .f32 = 32 ∨ (Rect.block (s := S100096x64) S2944x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2944x64.size a ≤ S100096x64.size a
  hwx2_0 : ∀ i : grid2.Coords, EltTy.bits .f32 = 32 ∨ (Rect.block (s := S100096x64) S2944x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x16.size a ≤ S64x16.size a
  hwx2_1 : ∀ i : grid2.Coords, EltTy.bits .f32 = 32 ∨ (Rect.block (s := S64x16) S64x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2944x16.size a ≤ S100096x16.size a
  hwx2_2 : ∀ i : grid2.Coords, EltTy.bits .f32 = 32 ∨ (Rect.block (s := S100096x16) S2944x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2944x16.size a ≤ S100096x16.size a
  hwx3_0 : ∀ i : grid3.Coords, EltTy.bits .f32 = 32 ∨ (Rect.block (s := S100096x16) S2944x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2944x16.size a ≤ S100096x16.size a
  hwx3_1 : ∀ i : grid3.Coords, EltTy.bits .f32 = 32 ∨ (Rect.block (s := S100096x16) S2944x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2944x1.size a ≤ S100096x1.size a
  hwx3_2 : ∀ i : grid3.Coords, EltTy.bits .f32 = 32 ∨ (Rect.block (s := S100096x1) S2944x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2944x16.size a ≤ S100096x16.size a
  hwx3_4 : ∀ i : grid3.Coords, EltTy.bits .f32 = 32 ∨ (Rect.block (s := S100096x16) S2944x16.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2944x16.size a ≤ S100096x16.size a
  hwx4_0 : ∀ i : grid4.Coords, EltTy.bits .f32 = 32 ∨ (Rect.block (s := S100096x16) S2944x16.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S2944x16.size a ≤ S100096x16.size a
  hwx4_1 : ∀ i : grid4.Coords, EltTy.bits .f32 = 32 ∨ (Rect.block (s := S100096x16) S2944x16.size (cc4_transform_1 i) (hinb4_1 i)).WholeWords (EltTy.packing .f32)

variable [Facts₀]

def scatter_S100096_S1600000x1_S1600000_n_0_0_1 : ScatterDims S100096 S1600000x1 S1600000 where
  updateWindowDims := []
  insertedWindowDims := [0]
  scatterDimsToOperandDims := [0]
  indexVectorDim := 1
  wf := scatter_S100096_S1600000x1_S1600000_n_0_0_1_wf
def gather_S100096_S1600000x1_S1600000_n_0_n_n_0_1_1 : GatherDims S100096 S1600000x1 S1600000 where
  offsetDims := []
  collapsedSliceDims := [0]
  operandBatchingDims := []
  startIndicesBatchingDims := []
  startIndexMap := [0]
  indexVectorDim := 1
  sliceSizes := ![1]
  wf := gather_S100096_S1600000x1_S1600000_n_0_n_n_0_1_1_wf
def dot_S2944x128_S128x64_S2944x64_1_0_0_1_n_n : DotDims S2944x128 S128x64 S2944x64 where
  lhsContracting := [1]
  rhsContracting := [0]
  lhsNonContracting := [0]
  rhsNonContracting := [1]
  lhsBatch := []
  rhsBatch := []
  wf := dot_S2944x128_S128x64_S2944x64_1_0_0_1_n_n_wf
def gather_S100096x64_S1600000x1_S1600000x64_1_0_n_n_0_1_164 : GatherDims S100096x64 S1600000x1 S1600000x64 where
  offsetDims := [1]
  collapsedSliceDims := [0]
  operandBatchingDims := []
  startIndicesBatchingDims := []
  startIndexMap := [0]
  indexVectorDim := 1
  sliceSizes := ![1, 64]
  wf := gather_S100096x64_S1600000x1_S1600000x64_1_0_n_n_0_1_164_wf
def scatter_S100096x64_S1600000x1_S1600000x64_1_0_0_1 : ScatterDims S100096x64 S1600000x1 S1600000x64 where
  updateWindowDims := [1]
  insertedWindowDims := [0]
  scatterDimsToOperandDims := [0]
  indexVectorDim := 1
  wf := scatter_S100096x64_S1600000x1_S1600000x64_1_0_0_1_wf
def dot_S2944x64_S64x16_S2944x16_1_0_0_1_n_n : DotDims S2944x64 S64x16 S2944x16 where
  lhsContracting := [1]
  rhsContracting := [0]
  lhsNonContracting := [0]
  rhsNonContracting := [1]
  lhsBatch := []
  rhsBatch := []
  wf := dot_S2944x64_S64x16_S2944x16_1_0_0_1_n_n_wf
def gather_S100096x16_S1600000x1_S1600000x16_1_0_n_n_0_1_116 : GatherDims S100096x16 S1600000x1 S1600000x16 where
  offsetDims := [1]
  collapsedSliceDims := [0]
  operandBatchingDims := []
  startIndicesBatchingDims := []
  startIndexMap := [0]
  indexVectorDim := 1
  sliceSizes := ![1, 16]
  wf := gather_S100096x16_S1600000x1_S1600000x16_1_0_n_n_0_1_116_wf
def scatter_S100096x16_S1600000x1_S1600000x16_1_0_0_1 : ScatterDims S100096x16 S1600000x1 S1600000x16 where
  updateWindowDims := [1]
  insertedWindowDims := [0]
  scatterDimsToOperandDims := [0]
  indexVectorDim := 1
  wf := scatter_S100096x16_S1600000x1_S1600000x16_1_0_0_1_wf

abbrev win0_0 : Pipeline.Window sig grid0 :=
  Pipeline.Window.ofSpec (Memref.whole main_v4) S2944x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S2944x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S2944x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2944x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S2944x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v43) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S2944x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v44) S2944x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S2944x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S2944x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S2944x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v13) S2944x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v59) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S2944x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v60) S2944x16.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S2944x16.size cc4_transform_1 reads4_1 true false 2 stage4_1 sem4_1
    hrank4 hreads4_1 hinb4_1 nbuf4_1 (Memref.isWhole_whole _) hwx4_1 hstage4_1

abbrev win4 : Fin 2 → Pipeline.Window sig grid4 := fun | 0 => win4_0 | 1 => win4_1 | ⟨_ + 2, h⟩ => absurd h (Nat.not_lt.2 (Nat.le_add_left _ _))
abbrev spec4 : Fin 2 → Pipeline.WinSpec sig grid4.rank := fun w => (win4 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x16 : Shape := ⟨2, ![64, 16]⟩
abbrev S16 : Shape := ⟨1, ![16]⟩
abbrev S1x1600000 : Shape := ⟨2, ![1, 1600000]⟩
abbrev S1600000 : Shape := ⟨1, ![1600000]⟩
abbrev S100000x64 : Shape := ⟨2, ![100000, 64]⟩
abbrev S_ : Shape := ⟨0, ![]⟩
abbrev S100000 : Shape := ⟨1, ![100000]⟩
abbrev S1600000x1 : Shape := ⟨2, ![1600000, 1]⟩
abbrev S1600000x64 : Shape := ⟨2, ![1600000, 64]⟩
abbrev S100000x1 : Shape := ⟨2, ![100000, 1]⟩
abbrev S1x64 : Shape := ⟨2, ![1, 64]⟩
abbrev S100000x16 : Shape := ⟨2, ![100000, 16]⟩
abbrev S1600000x16 : Shape := ⟨2, ![1600000, 16]⟩
abbrev S1x16 : Shape := ⟨2, ![1, 16]⟩

abbrev nBuf : Space → Nat
  | .hbm => 136
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x16, .f32⟩
  | 5 => ⟨S16, .f32⟩
  | 6 => ⟨S1x1600000, .i32⟩
  | 7 => ⟨S1600000, .i32⟩
  | 8 => ⟨S1x1600000, .i32⟩
  | 9 => ⟨S1600000, .i32⟩
  | 10 => ⟨S100000x64, .f32⟩
  | 11 => ⟨S_, .f32⟩
  | 12 => ⟨S1600000, .f32⟩
  | 13 => ⟨S_, .f32⟩
  | 14 => ⟨S100000, .f32⟩
  | 15 => ⟨S1600000x1, .i32⟩
  | 16 => ⟨S100000, .f32⟩
  | 17 => ⟨S_, .f32⟩
  | 18 => ⟨S100000, .f32⟩
  | 19 => ⟨S100000, .f32⟩
  | 20 => ⟨S100000, .f32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000, .f32⟩
  | 30 => ⟨S_, .i32⟩
  | 31 => ⟨S1600000, .i32⟩
  | 32 => ⟨S1600000, .i1⟩
  | 33 => ⟨S_, .i32⟩
  | 34 => ⟨S1600000, .i32⟩
  | 35 => ⟨S1600000, .i32⟩
  | 36 => ⟨S1600000, .i32⟩
  | 37 => ⟨S1600000x1, .i32⟩
  | 38 => ⟨S1600000, .f32⟩
  | 39 => ⟨S1600000, .f32⟩
  | 40 => ⟨S_, .i32⟩
  | 41 => ⟨S1600000, .i32⟩
  | 42 => ⟨S1600000, .i1⟩
  | 43 => ⟨S_, .i32⟩
  | 44 => ⟨S1600000, .i32⟩
  | 45 => ⟨S1600000, .i32⟩
  | 46 => ⟨S1600000, .i32⟩
  | 47 => ⟨S1600000x1, .i32⟩
  | 48 => ⟨S1600000x64, .f32⟩
  | 49 => ⟨S1600000x1, .f32⟩
  | 50 => ⟨S1600000x64, .f32⟩
  | 51 => ⟨S1600000x64, .f32⟩
  | 52 => ⟨S_, .f32⟩
  | 53 => ⟨S100000x64, .f32⟩
  | 54 => ⟨S1600000x1, .i32⟩
  | 55 => ⟨S100000x64, .f32⟩
  | 56 => ⟨S100000, .f32⟩
  | 57 => ⟨S100000x1, .f32⟩
  | 58 => ⟨S100000x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x16, .f32⟩
  | 68 => ⟨S_, .f32⟩
  | 69 => ⟨S1600000, .f32⟩
  | 70 => ⟨S_, .f32⟩
  | 71 => ⟨S100000, .f32⟩
  | 72 => ⟨S1600000x1, .i32⟩
  | 73 => ⟨S100000, .f32⟩
  | 74 => ⟨S_, .f32⟩
  | 75 => ⟨S100000, .f32⟩
  | 76 => ⟨S100000, .f32⟩
  | 77 => ⟨S100000, .f32⟩
  | 78 => ⟨S_, .i32⟩
  | 79 => ⟨S1600000, .i32⟩
  | 80 => ⟨S1600000, .i1⟩
  | 81 => ⟨S_, .i32⟩
  | 82 => ⟨S1600000, .i32⟩
  | 83 => ⟨S1600000, .i32⟩
  | 84 => ⟨S1600000, .i32⟩
  | 85 => ⟨S1600000x1, .i32⟩
  | 86 => ⟨S1600000, .f32⟩
  | 87 => ⟨S_, .i32⟩
  | 88 => ⟨S1600000, .i32⟩
  | 89 => ⟨S1600000, .i1⟩
  | 90 => ⟨S_, .i32⟩
  | 91 => ⟨S1600000, .i32⟩
  | 92 => ⟨S1600000, .i32⟩
  | 93 => ⟨S1600000, .i32⟩
  | 94 => ⟨S1600000x1, .i32⟩
  | 95 => ⟨S1600000, .f32⟩
  | 96 => ⟨S1600000, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x16, .f32⟩
  | 106 => ⟨S1600000x1, .f32⟩
  | 107 => ⟨S1600000x16, .f32⟩
  | 108 => ⟨S1600000x16, .f32⟩
  | 109 => ⟨S_, .f32⟩
  | 110 => ⟨S100000x16, .f32⟩
  | 111 => ⟨S1600000x1, .i32⟩
  | 112 => ⟨S100000x16, .f32⟩
  | 113 => ⟨S100000, .f32⟩
  | 114 => ⟨S100000x1, .f32⟩
  | 115 => ⟨S100000x16, .f32⟩
  | 116 => ⟨S100000x16, .f32⟩
  | 117 => ⟨S100000x16, .f32⟩
  | 118 => ⟨S1x16, .f32⟩
  | 119 => ⟨S100000x16, .f32⟩
  | 120 => ⟨S100000x16, .f32⟩
  | 121 => ⟨S_, .f32⟩
  | 122 => ⟨S100000, .f32⟩
  | 123 => ⟨S_, .f32⟩
  | 124 => ⟨S100000, .f32⟩
  | 125 => ⟨S100000, .f32⟩
  | 126 => ⟨S100000x1, .f32⟩
  | 127 => ⟨S100000x16, .f32⟩
  | _ => ⟨S100000x128, .f32⟩

abbrev hbmTy0_1 (i : Nat) : BufTy := match i % 128 with
  | 0 => ⟨S100000x16, .f32⟩
  | 1 => ⟨S100000x16, .f32⟩
  | 2 => ⟨S_, .f32⟩
  | 3 => ⟨S100000, .f32⟩
  | 4 => ⟨S100000x1, .f32⟩
  | 5 => ⟨S100000x1, .f32⟩
  | 6 => ⟨S100000x16, .f32⟩
  | 7 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_call1_cst : Ref sig .tc := ⟨.hbm, 121, rfl⟩
abbrev main_call1_v0 : Ref sig .tc := ⟨.hbm, 122, rfl⟩
abbrev main_call1_cst_0 : Ref sig .tc := ⟨.hbm, 123, rfl⟩
abbrev main_call1_v1 : Ref sig .tc := ⟨.hbm, 124, rfl⟩
abbrev main_call1_v2 : Ref sig .tc := ⟨.hbm, 125, rfl⟩
abbrev main_call1_v3 : Ref sig .tc := ⟨.hbm, 126, rfl⟩
abbrev main_call1_v4 : Ref sig .tc := ⟨.hbm, 127, rfl⟩
abbrev main_call1_v5 : Ref sig .tc := ⟨.hbm, 128, rfl⟩
abbrev main_call1_v6 : Ref sig .tc := ⟨.hbm, 129, rfl⟩
abbrev main_call1_cst_1 : Ref sig .tc := ⟨.hbm, 130, rfl⟩
abbrev main_call1_v7 : Ref sig .tc := ⟨.hbm, 131, rfl⟩
abbrev main_call1_v8 : Ref sig .tc := ⟨.hbm, 132, rfl⟩
abbrev main_call1_v9 : Ref sig .tc := ⟨.hbm, 133, rfl⟩
abbrev main_call1_v10 : Ref sig .tc := ⟨.hbm, 134, rfl⟩
abbrev main_v93 : Ref sig .tc := ⟨.hbm, 135, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1600000x1_S1600000x16_0_1 : S1600000x1.BroadcastsInDim S1600000x16 (![0, 1] : Fin 2 → Fin S1600000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  dot_S100000x128_S128x64_S100000x64_1_0_0_1_n_n_wf : DotDims.WF S100000x128 S128x64 S100000x64 [1] [0] [0] [1] [] []
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x16_S100000x16_1_0_0_1_n_n_wf : DotDims.WF S100000x64 S64x16 S100000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1

variable [Facts₀]

def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

class Facts : Prop extends Facts₀ where

variable [Facts]
-- ==== Proof.KStages.lean ====
/-
  The kernel program's values, stage by stage, as pure functions of @main's arguments.
  Host stages are the printed host operations composed (any float family); the five kernel launches are
  stated by what they compute over whole arrays at the extended reals: the two linear layers are row-by-row
  sums of products, the two combine steps add the aggregated messages, the self-loop term h·dinv² and the bias
  (the first followed by max with 0), and the last takes log-softmax along each row of sixteen.
  Node arrays have 100096 rows here (the 100000 nodes padded to a multiple of the row tile 2944).
-/
import proofs.«413348_j30863634989386_3_alg».proof.KernelIdeal
import Idealize.ShloMosaic.PureOps.Ideal
import Idealize.ShloMosaic.Lib.ValueIdx

noncomputable section

namespace Cert.KernelIdeal.Stage

open Cert.KernelIdeal Idealize.ShloMosaic Idealize.ShloMosaic.ValueIdx

variable [Facts]
open Facts₀ Facts

section Host
variable {F : FTy → Type} [FloatOps F]

/-- Row 0 of the edge list: each edge's source node. -/
def src (ei : (⟨S2x1600000, .i32⟩ : BufTy).Contents (Elt F)) : (⟨S1600000, .i32⟩ : BufTy).Contents (Elt F) :=
  shapeCast _ (extractStridedSlice S1x1600000 ![0, 0] ei slices_S2x1600000_S1x1600000_0_0) shapeCasts_S1x1600000_S1600000

/-- Row 1 of the edge list: each edge's destination node. -/
def dst (ei : (⟨S2x1600000, .i32⟩ : BufTy).Contents (Elt F)) : (⟨S1600000, .i32⟩ : BufTy).Contents (Elt F) :=
  shapeCast _ (extractStridedSlice S1x1600000 ![1, 0] ei slices_S2x1600000_S1x1600000_1_0) shapeCasts_S1x1600000_S1600000

/-- The node features with 96 zero rows appended. -/
def xpad (x : (⟨S100000x128, .f32⟩ : BufTy).Contents (Elt F)) : (⟨S100096x128, .f32⟩ : BufTy).Contents (Elt F) :=
  pad S100096x128 ![0, 0] ![96, 0] ![0, 0] x (sitofp (F := F) .f32 (constantI S_ 32 0#32)) pads_S100000x128_S100096x128_0960_000 h_S_

/-- A node index as jnp indexing normalises it (a negative one counted from the end), as a column of index vectors. -/
def wrapIdx (v : (⟨S1600000, .i32⟩ : BufTy).Contents (Elt F)) : (⟨S1600000x1, .i32⟩ : BufTy).Contents (Elt F) :=
  broadcastInDim S1600000x1 ![0] bcast_S1600000_S1600000x1_0
    (select (cmpi .slt v (broadcastInDim S1600000 ![] bcast_S_S1600000 (constantI S_ 32 0#32)))
      (addi v (broadcastInDim S1600000 ![] bcast_S_S1600000 (constantI S_ 32 100096#32))) v)

/-- The destinations as a column of scatter index vectors. -/
def dstCol (ei : (⟨S2x1600000, .i32⟩ : BufTy).Contents (Elt F)) : (⟨S1600000x1, .i32⟩ : BufTy).Contents (Elt F) :=
  broadcastInDim S1600000x1 ![0] bcast_S1600000_S1600000x1_0 (dst (F := F) ei)

/-- deg^(-1/2): in-degree counted by a scatter of ones over the destinations, plus one for the self loop. -/
def dinv (ei : (⟨S2x1600000, .i32⟩ : BufTy).Contents (Elt F)) : (⟨S100096, .f32⟩ : BufTy).Contents (Elt F) :=
  Host.rsqrt (addf
    (Host.scatterAdd scatter_S100096_S1600000x1_S1600000_n_0_0_1
      (broadcastInDim S100096 ![] bcast_S_S100096 (constant S_ .f32 0x00000000#32))
      (dstCol (F := F) ei)
      (broadcastInDim S1600000 ![] bcast_S_S1600000 (constant S_ .f32 0x3F800000#32)))
    (broadcastInDim S100096 ![] bcast_S_S100096 (constant S_ .f32 0x3F800000#32)))

/-- dinv² as a column: the self loop's weight. -/
def dinv2 (ei : (⟨S2x1600000, .i32⟩ : BufTy).Contents (Elt F)) : (⟨S100096x1, .f32⟩ : BufTy).Contents (Elt F) :=
  shapeCast _ (mulf (dinv (F := F) ei) (dinv (F := F) ei)) shapeCasts_S100096_S100096x1

/-- An edge's weight dinv[src]·dinv[dst]. -/
def norm (ei : (⟨S2x1600000, .i32⟩ : BufTy).Contents (Elt F)) : (⟨S1600000, .f32⟩ : BufTy).Contents (Elt F) :=
  mulf (Host.gather gather_S100096_S1600000x1_S1600000_n_0_n_n_0_1_1 (dinv (F := F) ei) (wrapIdx (F := F) (src (F := F) ei)))
    (Host.gather gather_S100096_S1600000x1_S1600000_n_0_n_n_0_1_1 (dinv (F := F) ei) (wrapIdx (F := F) (dst (F := F) ei)))

/-- Layer 1's messages h[src]·norm and their sum over each destination. -/
def agg1 (H : (⟨S100096x64, .f32⟩ : BufTy).Contents (Elt F)) (ei : (⟨S2x1600000, .i32⟩ : BufTy).Contents (Elt F)) :
    (⟨S100096x64, .f32⟩ : BufTy).Contents (Elt F) :=
  Host.scatterAdd scatter_S100096x64_S1600000x1_S1600000x64_1_0_0_1
    (broadcastInDim S100096x64 ![] bcast_S_S100096x64 (constant S_ .f32 0x00000000#32))
    (dstCol (F := F) ei)
    (mulf (Host.gather gather_S100096x64_S1600000x1_S1600000x64_1_0_n_n_0_1_164 H (wrapIdx (F := F) (src (F := F) ei)))
      (broadcastInDim S1600000x64 ![0, 1] bcast_S1600000x1_S1600000x64_0_1
        (broadcastInDim S1600000x1 ![0] bcast_S1600000_S1600000x1_0 (norm (F := F) ei))))

/-- Layer 2's messages and their sum over each destination. -/
def agg2 (H : (⟨S100096x16, .f32⟩ : BufTy).Contents (Elt F)) (ei : (⟨S2x1600000, .i32⟩ : BufTy).Contents (Elt F)) :
    (⟨S100096x16, .f32⟩ : BufTy).Contents (Elt F) :=
  Host.scatterAdd scatter_S100096x16_S1600000x1_S1600000x16_1_0_0_1
    (broadcastInDim S100096x16 ![] bcast_S_S100096x16 (constant S_ .f32 0x00000000#32))
    (dstCol (F := F) ei)
    (mulf (Host.gather gather_S100096x16_S1600000x1_S1600000x16_1_0_n_n_0_1_116 H (wrapIdx (F := F) (src (F := F) ei)))
      (broadcastInDim S1600000x16 ![0, 1] bcast_S1600000x1_S1600000x16_0_1
        (broadcastInDim S1600000x1 ![0] bcast_S1600000_S1600000x1_0 (norm (F := F) ei))))

/-- The biases as one-row matrices. -/
def b1row (b1 : (⟨S64, .f32⟩ : BufTy).Contents (Elt F)) : (⟨S1x64, .f32⟩ : BufTy).Contents (Elt F) :=
  shapeCast _ b1 shapeCasts_S64_S1x64
def b2row (b2 : (⟨S16, .f32⟩ : BufTy).Contents (Elt F)) : (⟨S1x16, .f32⟩ : BufTy).Contents (Elt F) :=
  shapeCast _ b2 shapeCasts_S16_S1x16

/-- The first 100000 rows of the padded result. -/
def keep (L : (⟨S100096x16, .f32⟩ : BufTy).Contents (Elt F)) : (⟨S100000x16, .f32⟩ : BufTy).Contents (Elt F) :=
  extractStridedSlice S100000x16 ![0, 0] L slices_S100096x16_S100000x16_0_0

end Host

/-! ## The five launches over whole arrays, at the extended reals -/

/-- x·W1, row by row. -/
def lin1 (X : S100096x128.Idx → EReal) (W : S128x64.Idx → EReal) : S100096x64.Idx → EReal :=
  fun i => ∑ k : Fin 128, X (ix2 (⟨(i 0).val, (i 0).isLt⟩ : Fin 100096) k) * W (ix2 k (⟨(i 1).val, (i 1).isLt⟩ : Fin 64))

/-- relu (agg + h·dinv² + b). -/
def fin1 (A H : S100096x64.Idx → EReal) (D2 : S100096x1.Idx → EReal) (B : S1x64.Idx → EReal) : S100096x64.Idx → EReal :=
  fun i => max ((A i + H i * D2 (ix2 (⟨(i 0).val, (i 0).isLt⟩ : Fin 100096) (0 : Fin 1)))
    + B (ix2 (0 : Fin 1) (⟨(i 1).val, (i 1).isLt⟩ : Fin 64))) 0

/-- h·W2, row by row. -/
def lin2 (X : S100096x64.Idx → EReal) (W : S64x16.Idx → EReal) : S100096x16.Idx → EReal :=
  fun i => ∑ k : Fin 64, X (ix2 (⟨(i 0).val, (i 0).isLt⟩ : Fin 100096) k) * W (ix2 k (⟨(i 1).val, (i 1).isLt⟩ : Fin 16))

/-- agg + h·dinv² + b. -/
def fin2 (A H : S100096x16.Idx → EReal) (D2 : S100096x1.Idx → EReal) (B : S1x16.Idx → EReal) : S100096x16.Idx → EReal :=
  fun i => (A i + H i * D2 (ix2 (⟨(i 0).val, (i 0).isLt⟩ : Fin 100096) (0 : Fin 1)))
    + B (ix2 (0 : Fin 1) (⟨(i 1).val, (i 1).isLt⟩ : Fin 16))

/-- A row's maximum, from −∞. -/
def rowMax (X : S100096x16.Idx → EReal) (r : Fin 100096) : EReal :=
  (Finset.univ : Finset (Fin 16)).fold max (⊥ : EReal) (fun k => X (ix2 r k))

/-- log-softmax along each row: (x − m) − log Σ exp (x − m), m the row's maximum. -/
def lsm (X : S100096x16.Idx → EReal) : S100096x16.Idx → EReal :=
  fun i => (X i - rowMax X ⟨(i 0).val, (i 0).isLt⟩)
    - Ideal.log (∑ k : Fin 16, Ideal.exp (X (ix2 (⟨(i 0).val, (i 0).isLt⟩ : Fin 100096) k) - rowMax X ⟨(i 0).val, (i 0).isLt⟩))

/-- The kernel program's result as one function of @main's arguments. -/
def out (x : S100000x128.Idx → EReal) (ei : IVec S2x1600000 32) (w1 : S128x64.Idx → EReal) (b1 : S64.Idx → EReal)
    (w2 : S64x16.Idx → EReal) (b2 : S16.Idx → EReal) : S100000x16.Idx → EReal :=
  let h1 := lin1 (xpad (F := Ideal) x) w1
  let c1 := fin1 (agg1 (F := Ideal) h1 ei) h1 (dinv2 (F := Ideal) ei) (b1row (F := Ideal) b1)
  let h2 := lin2 c1 w2
  let c2 := fin2 (agg2 (F := Ideal) h2 ei) h2 (dinv2 (F := Ideal) ei) (b2row (F := Ideal) b2)
  keep (F := Ideal) (lsm c2)

end Cert.KernelIdeal.Stage

end
-- ==== Proof.KReg0.lean ====
/-
  Launch 0 (the first linear layer) leaves in its output array the row-by-row product of the padded features and W1.
  Each grid point handles one tile of 2944 rows at full width; the 34 tiles cover the 100096 rows, so the array after
  the launch is one function of the arrays the launch finds, index by index.
-/
import proofs.«413348_j30863634989386_3_alg».proof.Proof.Gen.KernelIdeal.Frame
import proofs.«413348_j30863634989386_3_alg».proof.Proof.KStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## One tile times the weights, at an index -/

/-- The tile's accesses all start at the origin. -/
private theorem origin0 : (![0, 0] : Fin 2 → Nat) = fun _ => 0 := funext fun a => by fin_cases a <;> rfl

/-- The left operand's row is the output's row. -/
private theorem lhs0_0 (i : S2944x64.Idx) (q : dot_S2944x128_S128x64_S2944x64_1_0_0_1_n_n.contr.Idx) :
    (dot_S2944x128_S128x64_S2944x64_1_0_0_1_n_n.lhsIdx i q 0).val = (i 0).val := by
  unfold DotDims.lhsIdx
  rw [dif_neg (show ¬(0 : Fin S2944x128.rank) ∈ dot_S2944x128_S128x64_S2944x64_1_0_0_1_n_n.lhsBatch by decide), dif_pos (show (0 : Fin S2944x128.rank) ∈ dot_S2944x128_S128x64_S2944x64_1_0_0_1_n_n.lhsNonContracting by decide)]
  rfl
/-- The left operand's column is the summation index. -/
private theorem lhs0_1 (i : S2944x64.Idx) (q : dot_S2944x128_S128x64_S2944x64_1_0_0_1_n_n.contr.Idx) :
    (dot_S2944x128_S128x64_S2944x64_1_0_0_1_n_n.lhsIdx i q 1).val = (q ⟨0, by decide⟩).val :=
  dot_S2944x128_S128x64_S2944x64_1_0_0_1_n_n.lhsIdx_val_of_single rfl i q
/-- The right operand's row is the summation index. -/
private theorem rhs0_0 (i : S2944x64.Idx) (q : dot_S2944x128_S128x64_S2944x64_1_0_0_1_n_n.contr.Idx) :
    (dot_S2944x128_S128x64_S2944x64_1_0_0_1_n_n.rhsIdx i q 0).val = (q ⟨0, by decide⟩).val :=
  dot_S2944x128_S128x64_S2944x64_1_0_0_1_n_n.rhsIdx_val_of_single rfl i q
/-- The right operand's column is the output's column. -/
private theorem rhs0_1 (i : S2944x64.Idx) (q : dot_S2944x128_S128x64_S2944x64_1_0_0_1_n_n.contr.Idx) :
    (dot_S2944x128_S128x64_S2944x64_1_0_0_1_n_n.rhsIdx i q 1).val = (i 1).val := by
  unfold DotDims.rhsIdx
  rw [dif_neg (show ¬(1 : Fin S128x64.rank) ∈ dot_S2944x128_S128x64_S2944x64_1_0_0_1_n_n.rhsBatch by decide), dif_pos (show (1 : Fin S128x64.rank) ∈ dot_S2944x128_S128x64_S2944x64_1_0_0_1_n_n.rhsNonContracting by decide)]
  rfl

/-- What the body stores at row `p`, column `q` of a tile: the sum over `k` of the tile's entry (p, k) times the
    weights' entry (k, q). -/
private theorem tileProduct0_apply (x0 : Vec Ideal S2944x128 .f32) (x1 : Vec Ideal S128x64 .f32) (p : Fin 2944) (q : Fin 64) :
    k0_pay1 (F := Ideal) x0 x1 (ix2 p q) = ∑ k : Fin 128, x0 (ix2 p k) * x1 (ix2 k q) := by
  unfold k0_pay1
  rw [shapeCast_self]
  refine (Ideal.matmul_constant_zero_apply dot_S2944x128_S128x64_S2944x64_1_0_0_1_n_n none x0 x1 (ix2 p q)).trans ?_
  rw [← Equiv.sum_comp (contrEquiv1 dot_S2944x128_S128x64_S2944x64_1_0_0_1_n_n 128 rfl rfl).symm]
  refine Finset.sum_congr rfl fun k _ => ?_
  have hk := contrEquiv1_symm_val dot_S2944x128_S128x64_S2944x64_1_0_0_1_n_n 128 rfl rfl k
  have el : dot_S2944x128_S128x64_S2944x64_1_0_0_1_n_n.lhsIdx (ix2 p q) ((contrEquiv1 dot_S2944x128_S128x64_S2944x64_1_0_0_1_n_n 128 rfl rfl).symm k) = ix2 p k := funext fun a => Fin.ext (by
    match a with
    | ⟨0, _⟩ => exact lhs0_0 _ _
    | ⟨1, _⟩ => exact (lhs0_1 _ _).trans hk)
  have er : dot_S2944x128_S128x64_S2944x64_1_0_0_1_n_n.rhsIdx (ix2 p q) ((contrEquiv1 dot_S2944x128_S128x64_S2944x64_1_0_0_1_n_n 128 rfl rfl).symm k) = ix2 k q := funext fun a => Fin.ext (by
    match a with
    | ⟨0, _⟩ => exact (rhs0_0 _ _).trans hk
    | ⟨1, _⟩ => exact rhs0_1 _ _)
  rw [el, er]

/-! ## From tiles to the array -/

/-- The printed index maps, decided over the 34 points: the feature tile moves with the output tile down the rows,
    the weights are one block, and the output tile's row block is the point's number. -/
private theorem tileIndex0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- One entry of one tile: if the tile `x0` is rows `n·2944 …` of `X` and `x1` is `W`, the body's value at `j` is the
    row-by-row product of `X` and `W` at the array index `i` that `j` sits at. -/
private theorem tilePoint0 (X : S100096x128.Idx → EReal) (W : S128x64.Idx → EReal)
    (x0 : Vec Ideal S2944x128 .f32) (x1 : Vec Ideal S128x64 .f32) (n : Nat)
    (h0 : ∀ (p : Fin 2944) (k : Fin 128) (r : Fin 100096), r.val = n * 2944 + p.val → x0 (ix2 p k) = X (ix2 r k))
    (h1 : ∀ (k : Fin 128) (q : Fin 64), x1 (ix2 k q) = W (ix2 k q))
    (j : S2944x64.Idx) (i : S100096x64.Idx) (hi0 : (i 0).val = n * 2944 + (j 0).val) (hi1 : (i 1).val = (j 1).val) :
    k0_pay1 (F := Ideal) x0 x1 j = Stage.lin1 X W i := by
  obtain ⟨p, q, rfl⟩ : ∃ (p : Fin 2944) (q : Fin 64), j = ix2 p q := ⟨j 0, j 1, eq_ix2 j⟩
  rw [tileProduct0_apply]
  show _ = ∑ k : Fin 128, X (ix2 (⟨(i 0).val, (i 0).isLt⟩ : Fin 100096) k) * W (ix2 k (⟨(i 1).val, (i 1).isLt⟩ : Fin 64))
  refine Finset.sum_congr rfl fun k _ => ?_
  have hq : q = (⟨(i 1).val, (i 1).isLt⟩ : Fin 64) := Fin.ext hi1.symm
  rw [h0 p k ⟨(i 0).val, (i 0).isLt⟩ hi0, h1 k q, hq]

/-- WHAT POINT `t` WRITES BACK is tile `t` of the row-by-row product of the arrays the launch finds. -/
private theorem flushed0_eq (c : Dev nD) (t : Fin cfg0.N) :
    (dat0 (F := Ideal) V c).flushed 2 t = ((cfg0.win 2).blk t).view.read (Elt Ideal) (Stage.lin1 (V c main_v4) (V c main_arg2)) := by
  show (cfg0.win 2).cut (grid0.coords t) ((dat0 (F := Ideal) V c).after 2 t) = _
  rw [after0_2]
  unfold out0_2
  rw [View.canon_unit_zero origin0]
  simp only [View.ld_unit_zero (S := S2944x128) origin0, View.ld_unit_zero (S := S128x64) origin0]
  obtain ⟨e0, e1, e2, e3, e4, e5⟩ := tileIndex0 t
  funext j
  refine tilePoint0 (V c main_v4) (V c main_arg2) (iblk0 V c 0 t) (iblk0 V c 1 t) (win0_2.index t (0 : Fin 2)) ?_ ?_ j (((cfg0.win 2).blk t).view.emb j) ?_ ?_
  · intro p k r hr
    show V c main_v4 (((cfg0.win 0).blk t).view.emb (ix2 p k)) = V c main_v4 (ix2 r k)
    refine congrArg (V c main_v4) (funext fun a => Fin.ext ?_)
    match a with
    | ⟨0, _⟩ => show win0_0.index t (0 : Fin 2) * 2944 + 1 * p.val = r.val; omega
    | ⟨1, _⟩ => show win0_0.index t (1 : Fin 2) * 128 + 1 * k.val = k.val; omega
  · intro k q
    show V c main_arg2 (((cfg0.win 1).blk t).view.emb (ix2 k q)) = V c main_arg2 (ix2 k q)
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega
  · show win0_2.index t (0 : Fin 2) * 2944 + 1 * (j 0).val = win0_2.index t (0 : Fin 2) * 2944 + (j 0).val; omega
  · show win0_2.index t (1 : Fin 2) * 64 + 1 * (j 1).val = (j 1).val; omega

/-- An index of the array is in point `t`'s tile iff each coordinate is in the tile's range on its axis. -/
private theorem mem_tile0 (t : Fin cfg0.N) (i : S100096x64.Idx) :
    i ∈ ((cfg0.win 2).blk t).view.set ↔ ∀ a : Fin 2, win0_2.index t a * S2944x64.size a ≤ (i a).val ∧ (i a).val < win0_2.index t a * S2944x64.size a + S2944x64.size a := by
  show i ∈ ((View.whole main_v29).slice (win0_2.rect t)).set ↔ _
  rw [View.set_slice_whole, Rect.mem_set_unit]
  exact Iff.rfl

/-- Row `r` lies in the tile of point `r / 2944`, at every column: the 34 tiles cover the array. -/
private theorem cover0 (i : S100096x64.Idx) :
    ∃ t : Fin cfg0.N, (cfg0.win 2).flush t = true ∧ i ∈ ((cfg0.win 2).blk t).view.set := by
  have hi0 : (i 0).val < 100096 := (i 0).isLt
  have hi1 : (i 1).val < 64 := (i 1).isLt
  have hN : cfg0.N = 34 := N_0
  refine ⟨⟨(i 0).val / 2944, by rw [hN]; omega⟩, flush0_2 _, ?_⟩
  obtain ⟨e0, e1, e2, e3, e4, e5⟩ := tileIndex0 ⟨(i 0).val / 2944, by rw [hN]; omega⟩
  rw [mem_tile0]
  intro a
  match a with
  | ⟨0, _⟩ => show win0_2.index _ (0 : Fin 2) * 2944 ≤ (i 0).val ∧ (i 0).val < win0_2.index _ (0 : Fin 2) * 2944 + 2944; rw [e4]; show (i 0).val / 2944 * 2944 ≤ (i 0).val ∧ (i 0).val < (i 0).val / 2944 * 2944 + 2944; omega
  | ⟨1, _⟩ => show win0_2.index _ (1 : Fin 2) * 64 ≤ (i 1).val ∧ (i 1).val < win0_2.index _ (1 : Fin 2) * 64 + 64; rw [e5]; omega

/-- Launch 0 (the first linear layer) leaves in its output array the row-by-row product of the padded features and W1. -/
theorem final0 (c : Dev nD) :
    (dat0 (F := Ideal) V c).arrAt 2 cfg0.N = Stage.lin1 (V c main_v4) (V c main_arg2) :=
  (dat0 (F := Ideal) V c).arrAt_eq_of_cover 2 (Stage.lin1 (V c main_v4) (V c main_arg2)) (fun t _ => flushed0_eq V c t) cover0

end Cert.KernelIdeal.RegVal

end
-- ==== Proof.KReg1.lean ====
/-
  Launch 1 leaves relu (agg + h·dinv² + b1) in its output array.
  Each grid point handles one tile of 2944 rows at full width; the 34 tiles cover the 100096 rows, so the array after
  the launch is one function of the arrays the launch finds, index by index.
-/
import proofs.«413348_j30863634989386_3_alg».proof.Proof.Gen.KernelIdeal.Frame
import proofs.«413348_j30863634989386_3_alg».proof.Proof.KStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

private theorem zeros2 : (![0, 0] : Fin 2 → Nat) = fun _ => 0 := funext fun a => by fin_cases a <;> rfl

/-- A column [2944,1] broadcast along the width reads the column at the row. -/
private theorem bcast_col (x : S2944x1.Idx → EReal) (p : Fin 2944) (q : Fin 64) :
    broadcastTo S2944x64 x broadcasts_S2944x1_S2944x64 (ix2 p q) = x (ix2 p (0 : Fin 1)) :=
  broadcastTo_apply x broadcasts_S2944x1_S2944x64 (ix2 p q) (ix2 p (0 : Fin 1)) fun a =>
    match a with | ⟨0, _⟩ => rfl | ⟨1, _⟩ => rfl

/-- A row [1,64] broadcast down the rows reads the row at the column. -/
private theorem bcast_row (x : S1x64.Idx → EReal) (p : Fin 2944) (q : Fin 64) :
    broadcastTo S2944x64 x broadcasts_S1x64_S2944x64 (ix2 p q) = x (ix2 (0 : Fin 1) q) :=
  broadcastTo_apply x broadcasts_S1x64_S2944x64 (ix2 p q) (ix2 (0 : Fin 1) q) fun a =>
    match a with | ⟨0, _⟩ => rfl | ⟨1, _⟩ => rfl

/-- The payload at one element of a tile: max (a + h·d + b) 0, the column d read at the row and the bias row b at the
    column. -/
private theorem pay1_apply (xa xh : Vec Ideal S2944x64 .f32) (xd : Vec Ideal S2944x1 .f32) (xb : Vec Ideal S1x64 .f32)
    (p : Fin 2944) (q : Fin 64) :
    k1_pay1 xh xd xa xb (ix2 p q)
      = max ((xa (ix2 p q) + xh (ix2 p q) * xd (ix2 p (0 : Fin 1))) + xb (ix2 (0 : Fin 1) q)) 0 := by
  unfold k1_pay1
  simp only [shapeCast_self]
  rw [maximumf_apply, addf_apply, addf_apply, mulf_apply, broadcast_apply, bcast_col, bcast_row]
  exact congrArg (max _) Ideal.ofBits_zero_f32

/-- Reads of the four arrays at indices with the right coordinates assemble to the whole-array function at `i`. -/
private theorem fin1_at (A H : S100096x64.Idx → EReal) (D : S100096x1.Idx → EReal) (B : S1x64.Idx → EReal)
    (i ia ih : S100096x64.Idx) (id : S100096x1.Idx) (ib : S1x64.Idx)
    (ea0 : (ia 0).val = (i 0).val) (ea1 : (ia 1).val = (i 1).val)
    (eh0 : (ih 0).val = (i 0).val) (eh1 : (ih 1).val = (i 1).val)
    (ed : (id 0).val = (i 0).val) (eb : (ib 1).val = (i 1).val) :
    max ((A ia + H ih * D id) + B ib) 0 = Stage.fin1 A H D B i := by
  have ha : ia = i := Shape.idx_ext₂ ea0 ea1
  have hh : ih = i := Shape.idx_ext₂ eh0 eh1
  have hd : id = ix2 (⟨(i 0).val, (i 0).isLt⟩ : Fin 100096) (0 : Fin 1) :=
    Shape.idx_ext₂ ed (by have := idx2_lt1 id; show (id 1).val = 0; omega)
  have hb : ib = ix2 (0 : Fin 1) (⟨(i 1).val, (i 1).isLt⟩ : Fin 64) :=
    Shape.idx_ext₂ (by have := idx2_lt0 ib; show (ib 0).val = 0; omega) eb
  rw [ha, hh, hd, hb]
  rfl

/-- The printed index maps, decided over the 34 grid points: the three row-tiled inputs and the output sit at block
    (t, 0); the bias row is always block (0, 0). -/
private theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What grid point `t` writes back is tile `t` of the whole-array function: each of the four inputs is read where the
    output tile's rectangle says. -/
private theorem flushed1_eq (c : Dev nD) (t : Fin cfg1.N) :
    (dat1 (F := Ideal) V c).flushed 4 t
      = ((cfg1.win 4).blk t).view.read (Elt Ideal) (Stage.fin1 (V c main_v42) (V c main_v29) (V c main_v13) (V c main_v43)) := by
  show (cfg1.win 4).cut (grid1.coords t) ((dat1 V c).after 4 t) = _
  rw [after1_4]
  unfold out1_4
  rw [View.canon_unit_zero zeros2]
  simp only [View.ld_unit_zero (S := S2944x64) zeros2, View.ld_unit_zero (S := S2944x1) zeros2, View.ld_unit_zero (S := S1x64) zeros2]
  obtain ⟨a0, a1, h0, h1, d0, d1, b0, b1, o0, o1⟩ := idx_facts1 t
  funext j
  have hp : (j 0).val < 2944 := (j 0).isLt
  have hq : (j 1).val < 64 := (j 1).isLt
  show k1_pay1 (iblk1 V c 1 t) (iblk1 V c 2 t) (iblk1 V c 0 t) (iblk1 V c 3 t) (ix2 ⟨(j 0).val, hp⟩ ⟨(j 1).val, hq⟩) = _
  refine (pay1_apply (iblk1 V c 0 t) (iblk1 V c 1 t) (iblk1 V c 2 t) (iblk1 V c 3 t) ⟨(j 0).val, hp⟩ ⟨(j 1).val, hq⟩).trans ?_
  refine fin1_at (V c main_v42) (V c main_v29) (V c main_v13) (V c main_v43)
    (((cfg1.win 4).blk t).view.emb j)
    (((cfg1.win 0).blk t).view.emb (ix2 ⟨(j 0).val, hp⟩ ⟨(j 1).val, hq⟩))
    (((cfg1.win 1).blk t).view.emb (ix2 ⟨(j 0).val, hp⟩ ⟨(j 1).val, hq⟩))
    (((cfg1.win 2).blk t).view.emb (ix2 ⟨(j 0).val, hp⟩ (0 : Fin 1)))
    (((cfg1.win 3).blk t).view.emb (ix2 (0 : Fin 1) ⟨(j 1).val, hq⟩)) ?_ ?_ ?_ ?_ ?_ ?_
  · show win1_0.index t (0 : Fin 2) * 2944 + 1 * (j 0).val = win1_4.index t (0 : Fin 2) * 2944 + 1 * (j 0).val; omega
  · show win1_0.index t (1 : Fin 2) * 64 + 1 * (j 1).val = win1_4.index t (1 : Fin 2) * 64 + 1 * (j 1).val; omega
  · show win1_1.index t (0 : Fin 2) * 2944 + 1 * (j 0).val = win1_4.index t (0 : Fin 2) * 2944 + 1 * (j 0).val; omega
  · show win1_1.index t (1 : Fin 2) * 64 + 1 * (j 1).val = win1_4.index t (1 : Fin 2) * 64 + 1 * (j 1).val; omega
  · show win1_2.index t (0 : Fin 2) * 2944 + 1 * (j 0).val = win1_4.index t (0 : Fin 2) * 2944 + 1 * (j 0).val; omega
  · show win1_3.index t (1 : Fin 2) * 64 + 1 * (j 1).val = win1_4.index t (1 : Fin 2) * 64 + 1 * (j 1).val; omega

/-- An index of the array is in point `t`'s block iff each coordinate is in the block's range on its axis. -/
private theorem mem_blk1 (t : Fin cfg1.N) (i : S100096x64.Idx) :
    i ∈ ((cfg1.win 4).blk t).view.set ↔ ∀ a : Fin 2, win1_4.index t a * S2944x64.size a ≤ (i a).val
      ∧ (i a).val < win1_4.index t a * S2944x64.size a + S2944x64.size a := by
  show i ∈ ((View.whole main_v44).slice (win1_4.rect t)).set ↔ _
  rw [View.set_slice_whole, Rect.mem_set_unit]
  exact Iff.rfl

/-- Row r lies in the tile of point r / 2944: the 34 tiles of 2944 rows cover the 100096 rows. -/
private theorem cover1 (i : S100096x64.Idx) :
    ∃ t : Fin cfg1.N, (cfg1.win 4).flush t = true ∧ i ∈ ((cfg1.win 4).blk t).view.set := by
  have hi0 : (i 0).val < 100096 := idx2_lt0 i
  have hi1 : (i 1).val < 64 := idx2_lt1 i
  have hN : cfg1.N = 34 := N_1
  let t : Fin cfg1.N := ⟨(i 0).val / 2944, by rw [hN]; omega⟩
  have htv : t.val = (i 0).val / 2944 := rfl
  obtain ⟨-, -, -, -, -, -, -, -, o0, o1⟩ := idx_facts1 t
  refine ⟨t, flush1_4 t, ?_⟩
  rw [mem_blk1]
  intro a
  match a with
  | ⟨0, _⟩ =>
    show win1_4.index t (0 : Fin 2) * 2944 ≤ (i 0).val ∧ (i 0).val < win1_4.index t (0 : Fin 2) * 2944 + 2944
    omega
  | ⟨1, _⟩ =>
    show win1_4.index t (1 : Fin 2) * 64 ≤ (i 1).val ∧ (i 1).val < win1_4.index t (1 : Fin 2) * 64 + 64
    omega

/-- Launch 1 leaves relu (agg + h·dinv² + b1) in its output array. -/
theorem final1 (c : Dev nD) :
    (dat1 (F := Ideal) V c).arrAt 4 cfg1.N = Stage.fin1 (V c main_v42) (V c main_v29) (V c main_v13) (V c main_v43) :=
  (dat1 (F := Ideal) V c).arrAt_eq_of_cover 4 (Stage.fin1 (V c main_v42) (V c main_v29) (V c main_v13) (V c main_v43))
    (fun t _ => flushed1_eq V c t) cover1

end Cert.KernelIdeal.RegVal

end
-- ==== Proof.KReg2.lean ====
/-
  Launch 2 (the second linear layer) leaves the row-by-row product of layer 1's output and W2.
  Each grid point handles one tile of 2944 rows at full width; the 34 tiles cover the 100096 rows, so the array after
  the launch is one function of the arrays the launch finds, index by index.
-/
import proofs.«413348_j30863634989386_3_alg».proof.Proof.Gen.KernelIdeal.Frame
import proofs.«413348_j30863634989386_3_alg».proof.Proof.KStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## The tile's product at an index -/

private theorem zero_offsets : (![0, 0] : Fin 2 → Nat) = fun _ => 0 :=
  funext fun a => by match a with | ⟨0, _⟩ => rfl | ⟨1, _⟩ => rfl

/-- The left operand's row is the output's row. -/
private theorem lhs_row (i : S2944x16.Idx) (q : dot_S2944x64_S64x16_S2944x16_1_0_0_1_n_n.contr.Idx) :
    (dot_S2944x64_S64x16_S2944x16_1_0_0_1_n_n.lhsIdx i q 0).val = (i 0).val := by
  unfold DotDims.lhsIdx
  rw [dif_neg (show ¬(0 : Fin S2944x64.rank) ∈ dot_S2944x64_S64x16_S2944x16_1_0_0_1_n_n.lhsBatch by decide), dif_pos (show (0 : Fin S2944x64.rank) ∈ dot_S2944x64_S64x16_S2944x16_1_0_0_1_n_n.lhsNonContracting by decide)]
  rfl
/-- The left operand's column is the contraction index. -/
private theorem lhs_col (i : S2944x16.Idx) (q : dot_S2944x64_S64x16_S2944x16_1_0_0_1_n_n.contr.Idx) :
    (dot_S2944x64_S64x16_S2944x16_1_0_0_1_n_n.lhsIdx i q 1).val = (q ⟨0, by decide⟩).val :=
  dot_S2944x64_S64x16_S2944x16_1_0_0_1_n_n.lhsIdx_val_of_single rfl i q
/-- The right operand's row is the contraction index. -/
private theorem rhs_row (i : S2944x16.Idx) (q : dot_S2944x64_S64x16_S2944x16_1_0_0_1_n_n.contr.Idx) :
    (dot_S2944x64_S64x16_S2944x16_1_0_0_1_n_n.rhsIdx i q 0).val = (q ⟨0, by decide⟩).val :=
  dot_S2944x64_S64x16_S2944x16_1_0_0_1_n_n.rhsIdx_val_of_single rfl i q
/-- The right operand's column is the output's column. -/
private theorem rhs_col (i : S2944x16.Idx) (q : dot_S2944x64_S64x16_S2944x16_1_0_0_1_n_n.contr.Idx) :
    (dot_S2944x64_S64x16_S2944x16_1_0_0_1_n_n.rhsIdx i q 1).val = (i 1).val := by
  unfold DotDims.rhsIdx
  rw [dif_neg (show ¬(1 : Fin S64x16.rank) ∈ dot_S2944x64_S64x16_S2944x16_1_0_0_1_n_n.rhsBatch by decide), dif_pos (show (1 : Fin S64x16.rank) ∈ dot_S2944x64_S64x16_S2944x16_1_0_0_1_n_n.rhsNonContracting by decide)]
  rfl

/-- One tile's matrix product at an entry: the sum over the 64 contraction indices of row times column. -/
private theorem tile_product_apply (x0 : Vec Ideal S2944x64 .f32) (x1 : Vec Ideal S64x16 .f32) (i : S2944x16.Idx) :
    k2_pay1 (F := Ideal) x0 x1 i
      = ∑ k : Fin 64, x0 (ix2 (⟨(i 0).val, (i 0).isLt⟩ : Fin 2944) k) * x1 (ix2 k (⟨(i 1).val, (i 1).isLt⟩ : Fin 16)) := by
  unfold k2_pay1
  rw [shapeCast_self]
  simp only [matmul]
  rw [Ideal.matmul_constant_zero_apply, ← Equiv.sum_comp (ValueIdx.contrEquiv1 dot_S2944x64_S64x16_S2944x16_1_0_0_1_n_n 64 rfl rfl).symm]
  refine Finset.sum_congr rfl fun k _ => ?_
  have hk := ValueIdx.contrEquiv1_symm_val dot_S2944x64_S64x16_S2944x16_1_0_0_1_n_n 64 rfl rfl k
  have el : dot_S2944x64_S64x16_S2944x16_1_0_0_1_n_n.lhsIdx i ((ValueIdx.contrEquiv1 dot_S2944x64_S64x16_S2944x16_1_0_0_1_n_n 64 rfl rfl).symm k)
      = ix2 (⟨(i 0).val, (i 0).isLt⟩ : Fin 2944) k := funext fun a => Fin.ext (by
    match a with
    | ⟨0, _⟩ => exact lhs_row _ _
    | ⟨1, _⟩ => exact (lhs_col _ _).trans hk)
  have er : dot_S2944x64_S64x16_S2944x16_1_0_0_1_n_n.rhsIdx i ((ValueIdx.contrEquiv1 dot_S2944x64_S64x16_S2944x16_1_0_0_1_n_n 64 rfl rfl).symm k)
      = ix2 k (⟨(i 1).val, (i 1).isLt⟩ : Fin 16) := funext fun a => Fin.ext (by
    match a with
    | ⟨0, _⟩ => exact (rhs_row _ _).trans hk
    | ⟨1, _⟩ => exact rhs_col _ _)
  rw [el, er]

/-! ## From tiles to the array -/

/-- One tile of the product is the tile's rows of the whole product: the left operand's tile holds rows
    n·2944 … n·2944 + 2943 of X, the right operand is all of W. -/
private theorem tile_eq (X : S100096x64.Idx → EReal) (W : S64x16.Idx → EReal)
    (x0 : Vec Ideal S2944x64 .f32) (x1 : Vec Ideal S64x16 .f32) (n : Nat)
    (h0 : ∀ (y : S2944x64.Idx) (k : S100096x64.Idx), (k 0).val = n * 2944 + (y 0).val → (k 1).val = (y 1).val → x0 y = X k)
    (h1 : ∀ y : S64x16.Idx, x1 y = W y)
    (j : S2944x16.Idx) (i : S100096x16.Idx) (hi0 : (i 0).val = n * 2944 + (j 0).val) (hi1 : (i 1).val = (j 1).val) :
    k2_pay1 (F := Ideal) x0 x1 j = Stage.lin2 X W i := by
  rw [tile_product_apply]
  unfold Stage.lin2
  refine Finset.sum_congr rfl fun k _ => ?_
  rw [h0 (ix2 (⟨(j 0).val, (j 0).isLt⟩ : Fin 2944) k) (ix2 (⟨(i 0).val, (i 0).isLt⟩ : Fin 100096) k) hi0 rfl, h1]
  have e : (⟨(j 1).val, (j 1).isLt⟩ : Fin 16) = ⟨(i 1).val, (i 1).isLt⟩ := Fin.ext hi1.symm
  rw [e]

/-- The printed index maps over the 34 grid points: the input rows and the output rows move with the point,
    the columns and the weights stay. -/
private theorem tile_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point t writes back is tile t of the whole product. -/
private theorem flushed_eq (c : Dev nD) (t : Fin cfg2.N) :
    (dat2 (F := Ideal) V c).flushed 2 t
      = ((cfg2.win 2).blk t).view.read (Elt Ideal) (Stage.lin2 (V c main_v44) (V c main_arg4)) := by
  show (cfg2.win 2).cut (grid2.coords t) ((dat2 V c).after 2 t) = _
  rw [after2_2]
  unfold out2_2
  rw [View.canon_unit_zero zero_offsets]
  simp only [View.ld_unit_zero (S := S2944x64) zero_offsets, View.ld_unit_zero (S := S64x16) zero_offsets]
  obtain ⟨e00, e01, e10, e11, e20, e21⟩ := tile_indices t
  funext j
  show k2_pay1 (F := Ideal) (iblk2 V c 0 t) (iblk2 V c 1 t) j
    = Stage.lin2 (V c main_v44) (V c main_arg4) (((cfg2.win 2).blk t).view.emb j)
  refine tile_eq (V c main_v44) (V c main_arg4) (iblk2 V c 0 t) (iblk2 V c 1 t) t.val ?_ ?_ j _ ?_ ?_
  · -- the left operand's tile: rows t·2944 … of layer 1's output, all 64 columns
    intro y k hk0 hk1
    unfold iblk2
    rw [View.read_apply]
    show V c main_v44 _ = V c main_v44 _
    congr 1
    funext a
    apply Fin.ext
    match a with
    | ⟨0, _⟩ => show win2_0.index t (0 : Fin 2) * 2944 + 1 * (y 0).val = (k 0).val; rw [e00, hk0]; omega
    | ⟨1, _⟩ => show win2_0.index t (1 : Fin 2) * 64 + 1 * (y 1).val = (k 1).val; rw [e01, hk1]; omega
  · -- the right operand's tile: all of the weights
    intro y
    unfold iblk2
    rw [View.read_apply]
    show V c main_arg4 _ = V c main_arg4 _
    congr 1
    funext a
    apply Fin.ext
    match a with
    | ⟨0, _⟩ => show win2_1.index t (0 : Fin 2) * 64 + 1 * (y 0).val = (y 0).val; rw [e10]; omega
    | ⟨1, _⟩ => show win2_1.index t (1 : Fin 2) * 16 + 1 * (y 1).val = (y 1).val; rw [e11]; omega
  · show win2_2.index t (0 : Fin 2) * 2944 + 1 * (j 0).val = t.val * 2944 + (j 0).val
    rw [e20]; omega
  · show win2_2.index t (1 : Fin 2) * 16 + 1 * (j 1).val = (j 1).val
    rw [e21]; omega

/-- An index of the array is in point t's tile iff each coordinate is in the tile's range on its axis. -/
private theorem mem_tile (t : Fin cfg2.N) (i : S100096x16.Idx) :
    i ∈ ((cfg2.win 2).blk t).view.set ↔ ∀ a : Fin 2, win2_2.index t a * S2944x16.size a ≤ (i a).val
      ∧ (i a).val < win2_2.index t a * S2944x16.size a + S2944x16.size a := by
  show i ∈ ((View.whole main_v45).slice (win2_2.rect t)).set ↔ _
  rw [View.set_slice_whole, Rect.mem_set_unit]
  exact Iff.rfl

/-- The 34 tiles cover the array: row r, any column, lies in the tile of point r / 2944. -/
private theorem tiles_cover (i : S100096x16.Idx) :
    ∃ t : Fin cfg2.N, (cfg2.win 2).flush t = true ∧ i ∈ ((cfg2.win 2).blk t).view.set := by
  have hi0 : (i 0).val < 100096 := (i 0).isLt
  have hi1 : (i 1).val < 16 := (i 1).isLt
  have hN : cfg2.N = 34 := N_2
  have ht : (i 0).val / 2944 < cfg2.N := by rw [hN]; omega
  obtain ⟨-, -, -, -, e0, e1⟩ := tile_indices ⟨(i 0).val / 2944, ht⟩
  refine ⟨⟨(i 0).val / 2944, ht⟩, flush2_2 _, ?_⟩
  rw [mem_tile]
  intro a
  match a with
  | ⟨0, _⟩ =>
    show win2_2.index ⟨(i 0).val / 2944, ht⟩ (0 : Fin 2) * 2944 ≤ (i 0).val
      ∧ (i 0).val < win2_2.index ⟨(i 0).val / 2944, ht⟩ (0 : Fin 2) * 2944 + 2944
    rw [e0]
    show (i 0).val / 2944 * 2944 ≤ (i 0).val ∧ (i 0).val < (i 0).val / 2944 * 2944 + 2944
    omega
  | ⟨1, _⟩ =>
    show win2_2.index ⟨(i 0).val / 2944, ht⟩ (1 : Fin 2) * 16 ≤ (i 1).val
      ∧ (i 1).val < win2_2.index ⟨(i 0).val / 2944, ht⟩ (1 : Fin 2) * 16 + 16
    rw [e1]
    omega

/-- Launch 2 (the second linear layer) leaves the row-by-row product of layer 1's output and W2. -/
theorem final2 (c : Dev nD) :
    (dat2 (F := Ideal) V c).arrAt 2 cfg2.N = Stage.lin2 (V c main_v44) (V c main_arg4) := by
  exact (dat2 (F := Ideal) V c).arrAt_eq_of_cover 2 (Stage.lin2 (V c main_v44) (V c main_arg4))
    (fun t _ => flushed_eq V c t) tiles_cover

end Cert.KernelIdeal.RegVal

end
-- ==== Proof.KReg3.lean ====
/-
  Launch 3 leaves agg + h·dinv² + b2 in its output array.
  Each grid point handles one tile of 2944 rows at full width; the 34 tiles cover the 100096 rows, so the array after
  the launch is one function of the arrays the launch finds, index by index.
-/
import proofs.«413348_j30863634989386_3_alg».proof.Proof.Gen.KernelIdeal.Frame
import proofs.«413348_j30863634989386_3_alg».proof.Proof.KStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A whole-tile access starts at offset zero on both axes. -/
private theorem zero_off3 : (![0, 0] : Fin 2 → Nat) = fun _ => 0 := funext fun a => by fin_cases a <;> rfl

/-- The body's arithmetic at one index (r, k) of a tile: the aggregate plus the features times the row's
    dinv², plus the bias of column k. -/
private theorem pay3_apply (h a : S2944x16.Idx → EReal) (d : S2944x1.Idx → EReal) (b : S1x16.Idx → EReal) (j : S2944x16.Idx) :
    k3_pay1 (F := Ideal) h d a b j
      = (a j + h j * d (ix2 (⟨(j 0).val, (j 0).isLt⟩ : Fin 2944) (0 : Fin 1)))
        + b (ix2 (0 : Fin 1) (⟨(j 1).val, (j 1).isLt⟩ : Fin 16)) := by
  unfold k3_pay1
  show (shapeCast S2944x16 a _ j + shapeCast S2944x16 h _ j
        * broadcastTo S2944x16 (shapeCast S2944x1 d _) _ j)
      + broadcastTo S2944x16 (shapeCast S1x16 b _) _ j = _
  rw [shapeCast_self, shapeCast_self, shapeCast_self, shapeCast_self]
  rw [broadcastTo_apply d _ j (ix2 (⟨(j 0).val, (j 0).isLt⟩ : Fin 2944) (0 : Fin 1)) (fun x => match x with
        | ⟨0, _⟩ => by show (j 0).val = if (2944 : Nat) = 1 then 0 else (j 0).val; rw [if_neg (by decide)]
        | ⟨1, _⟩ => by show 0 = if (1 : Nat) = 1 then 0 else (j 1).val; rw [if_pos rfl]),
    broadcastTo_apply b _ j (ix2 (0 : Fin 1) (⟨(j 1).val, (j 1).isLt⟩ : Fin 16)) (fun x => match x with
        | ⟨0, _⟩ => by show 0 = if (1 : Nat) = 1 then 0 else (j 0).val; rw [if_pos rfl]
        | ⟨1, _⟩ => by show (j 1).val = if (16 : Nat) = 1 then 0 else (j 1).val; rw [if_neg (by decide)])]

/-- The printed index maps, decided over the 34 points: every row-tiled window sits at row block t and column
    block 0, the bias row at block (0, 0). -/
private theorem idx_facts3 : ∀ t : Fin cfg3.N, win3_0.index t (0 : Fin 2) = win3_4.index t (0 : Fin 2)
    ∧ win3_0.index t (1 : Fin 2) = win3_4.index t (1 : Fin 2)
    ∧ win3_1.index t (0 : Fin 2) = win3_4.index t (0 : Fin 2)
    ∧ win3_1.index t (1 : Fin 2) = win3_4.index t (1 : Fin 2)
    ∧ win3_2.index t (0 : Fin 2) = win3_4.index t (0 : Fin 2)
    ∧ win3_2.index t (1 : Fin 2) = 0
    ∧ win3_3.index t (0 : Fin 2) = 0
    ∧ win3_3.index t (1 : Fin 2) = 0
    ∧ win3_4.index t (0 : Fin 2) ≤ 33
    ∧ win3_4.index t (1 : Fin 2) = 0 :=
  (by decide +kernel : ∀ t : Fin grid3.N, _)

/-- Every row block is some point's. -/
private theorem idx_onto3 : ∀ q : Fin 34, ∃ t : Fin cfg3.N, win3_4.index t = ![q.val, 0] :=
  (by decide +kernel : ∀ q : Fin 34, ∃ t : Fin grid3.N, win3_4.index t = ![q.val, 0])

/-- The four arrays the launch reads, as it finds them: the aggregate, the features, the column dinv², the bias row. -/
private abbrev arrA (c : Dev nD) : S100096x16.Idx → EReal := V c main_v58
private abbrev arrH (c : Dev nD) : S100096x16.Idx → EReal := V c main_v45
private abbrev arrD (c : Dev nD) : S100096x1.Idx → EReal := V c main_v13
private abbrev arrB (c : Dev nD) : S1x16.Idx → EReal := V c main_v59

/-- Their blocks at point t: tiles of 2944 rows of the first three, the whole bias row. -/
private abbrev blkA (c : Dev nD) (t : Fin cfg3.N) : S2944x16.Idx → EReal := iblk3 V c 0 t
private abbrev blkH (c : Dev nD) (t : Fin cfg3.N) : S2944x16.Idx → EReal := iblk3 V c 1 t
private abbrev blkD (c : Dev nD) (t : Fin cfg3.N) : S2944x1.Idx → EReal := iblk3 V c 2 t
private abbrev blkB (c : Dev nD) (t : Fin cfg3.N) : S1x16.Idx → EReal := iblk3 V c 3 t

/-- WHAT POINT t WRITES BACK is tile t of agg + h·dinv² + b2 of the arrays as the launch finds them: entry (r, k) of
    the tile is row t·2944 + r of the arrays, and the column and the bias row are read at that row and that column. -/
private theorem flushed3_eq (c : Dev nD) (t : Fin cfg3.N) :
    (dat3 (F := Ideal) V c).flushed 4 t
      = ((cfg3.win 4).blk t).view.read (Elt Ideal) (Stage.fin2 (V c main_v58) (V c main_v45) (V c main_v13) (V c main_v59)) := by
  show (cfg3.win 4).cut (grid3.coords t) ((dat3 (F := Ideal) V c).after 4 t) = _
  rw [after3_4]
  unfold out3_4
  rw [View.canon_unit_zero zero_off3]
  simp only [View.ld_unit_zero (S := S2944x16) zero_off3, View.ld_unit_zero (S := S2944x1) zero_off3, View.ld_unit_zero (S := S1x16) zero_off3]
  obtain ⟨e0, e1, e2, e3, e4, e5, e6, e7, e8, e9⟩ := idx_facts3 t
  funext j
  show k3_pay1 (F := Ideal) (blkH V c t) (blkD V c t) (blkA V c t) (blkB V c t) j = _
  refine (pay3_apply (blkH V c t) (blkA V c t) (blkD V c t) (blkB V c t) j).trans ?_
  show (arrA V c (((cfg3.win 0).blk t).view.emb j) + arrH V c (((cfg3.win 1).blk t).view.emb j)
        * arrD V c (((cfg3.win 2).blk t).view.emb (ix2 (⟨(j 0).val, (j 0).isLt⟩ : Fin 2944) (0 : Fin 1))))
      + arrB V c (((cfg3.win 3).blk t).view.emb (ix2 (0 : Fin 1) (⟨(j 1).val, (j 1).isLt⟩ : Fin 16)))
    = Stage.fin2 (arrA V c) (arrH V c) (arrD V c) (arrB V c) (((cfg3.win 4).blk t).view.emb j)
  have h0 : ((cfg3.win 0).blk t).view.emb j = ((cfg3.win 4).blk t).view.emb j := by
    funext a; apply Fin.ext
    match a with
    | ⟨0, _⟩ => show win3_0.index t (0 : Fin 2) * 2944 + 1 * (j 0).val = win3_4.index t (0 : Fin 2) * 2944 + 1 * (j 0).val; omega
    | ⟨1, _⟩ => show win3_0.index t (1 : Fin 2) * 16 + 1 * (j 1).val = win3_4.index t (1 : Fin 2) * 16 + 1 * (j 1).val; omega
  have h1 : ((cfg3.win 1).blk t).view.emb j = ((cfg3.win 4).blk t).view.emb j := by
    funext a; apply Fin.ext
    match a with
    | ⟨0, _⟩ => show win3_1.index t (0 : Fin 2) * 2944 + 1 * (j 0).val = win3_4.index t (0 : Fin 2) * 2944 + 1 * (j 0).val; omega
    | ⟨1, _⟩ => show win3_1.index t (1 : Fin 2) * 16 + 1 * (j 1).val = win3_4.index t (1 : Fin 2) * 16 + 1 * (j 1).val; omega
  have h2 : ((cfg3.win 2).blk t).view.emb (ix2 (⟨(j 0).val, (j 0).isLt⟩ : Fin 2944) (0 : Fin 1))
      = ix2 (⟨((((cfg3.win 4).blk t).view.emb j) 0).val, ((((cfg3.win 4).blk t).view.emb j) 0).isLt⟩ : Fin 100096) (0 : Fin 1) := by
    funext a; apply Fin.ext
    match a with
    | ⟨0, _⟩ => show win3_2.index t (0 : Fin 2) * 2944 + 1 * (j 0).val = win3_4.index t (0 : Fin 2) * 2944 + 1 * (j 0).val; omega
    | ⟨1, _⟩ => show win3_2.index t (1 : Fin 2) * 1 + 1 * 0 = 0; omega
  have h3 : ((cfg3.win 3).blk t).view.emb (ix2 (0 : Fin 1) (⟨(j 1).val, (j 1).isLt⟩ : Fin 16))
      = ix2 (0 : Fin 1) (⟨((((cfg3.win 4).blk t).view.emb j) 1).val, ((((cfg3.win 4).blk t).view.emb j) 1).isLt⟩ : Fin 16) := by
    funext a; apply Fin.ext
    match a with
    | ⟨0, _⟩ => show win3_3.index t (0 : Fin 2) * 1 + 1 * 0 = 0; omega
    | ⟨1, _⟩ => show win3_3.index t (1 : Fin 2) * 16 + 1 * (j 1).val = win3_4.index t (1 : Fin 2) * 16 + 1 * (j 1).val; omega
  rw [h0, h1, h2, h3]
  rfl

/-- An index of the output array is in point t's tile iff each coordinate is in the tile's range on its axis. -/
private theorem mem_blk3 (t : Fin cfg3.N) (i : S100096x16.Idx) :
    i ∈ ((cfg3.win 4).blk t).view.set ↔ ∀ a : Fin 2, win3_4.index t a * S2944x16.size a ≤ (i a).val ∧ (i a).val < win3_4.index t a * S2944x16.size a + S2944x16.size a := by
  show i ∈ ((View.whole main_v60).slice (win3_4.rect t)).set ↔ _
  rw [View.set_slice_whole, Rect.mem_set_unit]
  exact Iff.rfl

/-- The 34 tiles cover the array: row r lies in the tile of point r / 2944, and every point writes its tile back. -/
private theorem cover3 (i : S100096x16.Idx) : ∃ t : Fin cfg3.N, (cfg3.win 4).flush t = true ∧ i ∈ ((cfg3.win 4).blk t).view.set := by
  have hi0 : (i 0).val < 100096 := (i 0).isLt
  have hi1 : (i 1).val < 16 := (i 1).isLt
  obtain ⟨t, ht⟩ := idx_onto3 ⟨(i 0).val / 2944, by omega⟩
  have q0 : win3_4.index t (0 : Fin 2) = (i 0).val / 2944 := congrFun ht 0
  have q1 : win3_4.index t (1 : Fin 2) = 0 := congrFun ht 1
  refine ⟨t, flush3_4 t, ?_⟩
  rw [mem_blk3]
  intro a
  match a with
  | ⟨0, _⟩ => show win3_4.index t (0 : Fin 2) * 2944 ≤ (i 0).val ∧ (i 0).val < win3_4.index t (0 : Fin 2) * 2944 + 2944; omega
  | ⟨1, _⟩ => show win3_4.index t (1 : Fin 2) * 16 ≤ (i 1).val ∧ (i 1).val < win3_4.index t (1 : Fin 2) * 16 + 16; omega

/-- Launch 3 leaves agg + h·dinv² + b2 in its output array. -/
theorem final3 (c : Dev nD) :
    (dat3 (F := Ideal) V c).arrAt 4 cfg3.N = Stage.fin2 (V c main_v58) (V c main_v45) (V c main_v13) (V c main_v59) := by
  exact (dat3 (F := Ideal) V c).arrAt_eq_of_cover 4 _ (fun t _ => flushed3_eq V c t) (fun i => cover3 i)

end Cert.KernelIdeal.RegVal

end
-- ==== Proof.KReg4.lean ====
/-
  Launch 4 leaves the row-wise log-softmax of its input array.
  Each grid point handles one tile of 2944 rows at full width; the 34 tiles cover the 100096 rows, so the array after
  the launch is one function of the arrays the launch finds, index by index.
-/
import proofs.«413348_j30863634989386_3_alg».proof.Proof.Gen.KernelIdeal.Frame
import proofs.«413348_j30863634989386_3_alg».proof.Proof.KStages
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.RegVal

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ## Layout steps of the tile's arithmetic, read at an index -/

/-- A vector of a entries cast to one column [a, 1] reads, at (i, u), entry i. -/
private theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- One column [a, 1] broadcast along the rows to [a, b] reads, at (p, c), the column's entry p. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The reduced index r with column k put back is (r, k). -/
private theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  fin_cases c <;> rfl

/-- From −∞ the maximum along each row, at row r, is the fold of max over the row's entries. -/
private theorem rowMax_apply {m n : ℕ} (x : FVec Ideal ⟨2, ![m, n]⟩ .f32)
    (h : (⟨2, ![m, n]⟩ : Shape).Reduces [1] (⟨1, ![m]⟩ : Shape)) (hφ : FKind.Formats .f32)
    (hacc : (0xFF800000#32 : BitVec 32) = FKind.maximumf.neutral .f32 hφ) (r : Fin m) :
    multiReduction (F := Ideal) .maximumf [1] ⟨1, ![m]⟩ x 0xFF800000#32 h hφ hacc (ix1 r)
      = (Finset.univ : Finset (Fin n)).fold max (⊥ : EReal) (fun k => x (ix2 r k)) := by
  refine (Ideal.multiReduction_maximumf_single x _ h hφ hacc (ix1 r)).trans ?_
  have hb : (FloatOps.ofBits (F := Ideal) .f32 0xFF800000#32 : Ideal .f32) = (⊥ : EReal) := by
    simp [Ideal.ofBits, Ideal.ieee]
  have hf : (x ∘ h.lift (ix1 r)) = fun k : Fin n => x (ix2 r k) := funext fun k => congrArg x (lift_row h r k)
  refine Eq.trans ?_ (congrArg (fun b => Finset.fold max b (fun k : Fin n => x (ix2 r k)) (Finset.univ : Finset (Fin n))) hb)
  exact congrArg (fun f => Finset.fold max (FloatOps.ofBits (F := Ideal) .f32 0xFF800000#32) f (Finset.univ : Finset (Fin n))) hf

/-- From 0 the sum along each row, at row r, is the sum of the row's entries. -/
private theorem rowSum_apply {m n : ℕ} (x : FVec Ideal ⟨2, ![m, n]⟩ .f32)
    (h : (⟨2, ![m, n]⟩ : Shape).Reduces [1] (⟨1, ![m]⟩ : Shape)) (hφ : FKind.Formats .f32)
    (hacc : (0x00000000#32 : BitVec 32) = FKind.add.neutral .f32 hφ) (r : Fin m) :
    multiReduction (F := Ideal) .add [1] ⟨1, ![m]⟩ x 0x00000000#32 h hφ hacc (ix1 r) = ∑ k : Fin n, x (ix2 r k) := by
  refine (Ideal.multiReduction_add_single x _ h hφ hacc (ix1 r)).trans ?_
  exact Finset.sum_congr rfl fun k _ => congrArg x (lift_row h r k)

/-- A vector minus a per-row value spread along the rows: at (r, j), the entry minus row r's value. -/
private theorem sub_col_apply {a b : ℕ} (y : FVec Ideal ⟨2, ![a, b]⟩ .f32) (z : FVec Ideal ⟨1, ![a]⟩ .f32)
    (hsc : (⟨1, ![a]⟩ : Shape).ShapeCasts ⟨2, ![a, 1]⟩) (hbc : (⟨2, ![a, 1]⟩ : Shape).Broadcasts ⟨2, ![a, b]⟩)
    (r : Fin a) (j : Fin b) :
    subf y (broadcastTo ⟨2, ![a, b]⟩ (shapeCast ⟨2, ![a, 1]⟩ z hsc) hbc) (ix2 r j) = y (ix2 r j) - z (ix1 r) := by
  show y (ix2 r j) - broadcastTo ⟨2, ![a, b]⟩ (shapeCast ⟨2, ![a, 1]⟩ z hsc) hbc (ix2 r j) = _
  rw [broadcastTo_a1_ab_apply, shapeCast_a_a1_apply]

/-- The same with the logarithm taken of the per-row value first. -/
private theorem sub_logcol_apply {a b : ℕ} (y : FVec Ideal ⟨2, ![a, b]⟩ .f32) (z : FVec Ideal ⟨1, ![a]⟩ .f32)
    (hsc : (⟨1, ![a]⟩ : Shape).ShapeCasts ⟨2, ![a, 1]⟩) (hbc : (⟨2, ![a, 1]⟩ : Shape).Broadcasts ⟨2, ![a, b]⟩)
    (r : Fin a) (j : Fin b) :
    subf y (broadcastTo ⟨2, ![a, b]⟩ (log (shapeCast ⟨2, ![a, 1]⟩ z hsc)) hbc) (ix2 r j)
      = y (ix2 r j) - Ideal.log (z (ix1 r)) := by
  show y (ix2 r j) - broadcastTo ⟨2, ![a, b]⟩ (log (shapeCast ⟨2, ![a, 1]⟩ z hsc)) hbc (ix2 r j) = _
  rw [broadcastTo_a1_ab_apply]
  show y (ix2 r j) - Ideal.log (shapeCast ⟨2, ![a, 1]⟩ z hsc (ix2 r (0 : Fin 1))) = _
  rw [shapeCast_a_a1_apply]

/-! ## The tile's arithmetic at an index -/

/-- What the body stores, at row r and column j of its tile: the entry minus the row's maximum, minus the
    logarithm of the row's sum of exponentials of such differences. -/
private theorem pay_apply (x0 : Vec Ideal S2944x16 .f32) (r : Fin 2944) (j : Fin 16) :
    k4_pay1 (F := Ideal) x0 (ix2 r j)
      = (x0 (ix2 r j) - (Finset.univ : Finset (Fin 16)).fold max (⊥ : EReal) (fun k => x0 (ix2 r k)))
        - Ideal.log (∑ k : Fin 16, Ideal.exp (x0 (ix2 r k)
            - (Finset.univ : Finset (Fin 16)).fold max (⊥ : EReal) (fun k => x0 (ix2 r k)))) := by
  unfold k4_pay1
  dsimp only
  rw [shapeCast_self]
  refine (sub_logcol_apply _ _ _ _ r j).trans ?_
  refine congrArg₂ (· - ·) ?_ (congrArg Ideal.log ?_)
  · exact (sub_col_apply _ _ _ _ r j).trans (congrArg (x0 (ix2 r j) - ·) (rowMax_apply x0 _ _ _ r))
  · refine (rowSum_apply _ _ _ _ r).trans (Finset.sum_congr rfl fun k _ => ?_)
    exact congrArg Ideal.exp ((sub_col_apply _ _ _ _ r k).trans (congrArg (x0 (ix2 r k) - ·) (rowMax_apply x0 _ _ _ r)))

/-! ## From the tile to the array -/

/-- A tile whose rows are rows T·2944 … T·2944 + 2943 of an array X ends holding X's log-softmax on those rows:
    the row's maximum and the row's sum read only the row's own sixteen entries. -/
private theorem tile_lsm (X : S100096x16.Idx → EReal) (x0 : Vec Ideal S2944x16 .f32) (T : ℕ) (hT : T < 34)
    (hx : ∀ (r : Fin 2944) (k : Fin 16), x0 (ix2 r k) = X (ix2 (⟨T * 2944 + r.val, by omega⟩ : Fin 100096) k))
    (y : S2944x16.Idx) (i : S100096x16.Idx) (h0 : (i 0).val = T * 2944 + (y 0).val) (h1 : (i 1).val = (y 1).val) :
    k4_pay1 (F := Ideal) x0 y = Stage.lsm X i := by
  obtain ⟨r, j, rfl⟩ : ∃ (r : Fin 2944) (j : Fin 16), y = ix2 r j := ⟨y 0, y 1, eq_ix2 y⟩
  have hb : T * 2944 + r.val < 100096 := by have := r.isLt; omega
  obtain ⟨R, J, rfl⟩ : ∃ (R : Fin 100096) (J : Fin 16), i = ix2 R J := ⟨i 0, i 1, eq_ix2 i⟩
  have hR : R = ⟨T * 2944 + r.val, hb⟩ := Fin.ext h0
  have hJ : J = j := Fin.ext h1
  subst hR hJ
  rw [pay_apply]
  simp only [hx]
  rfl

/-- The whole-tile access starts at (0, 0). -/
private theorem zero_offsets : (![0, 0] : Fin 2 → Nat) = fun _ => 0 := funext fun a => by fin_cases a <;> rfl

/-- The printed index maps, decided over the 34 grid points: point t reads and writes block (t, 0). -/
private theorem idx_facts4 : ∀ t : Fin cfg4.N, win4_0.index t (0 : Fin 2) = t.val ∧ win4_0.index t (1 : Fin 2) = 0
    ∧ win4_1.index t (0 : Fin 2) = t.val ∧ win4_1.index t (1 : Fin 2) = 0 :=
  (by decide +kernel : ∀ t : Fin grid4.N, _)

/-- What point t writes back is block t of the log-softmax of the input array as the launch finds it. -/
private theorem flushed4_eq (c : Dev nD) (t : Fin cfg4.N) :
    (dat4 (F := Ideal) V c).flushed 1 t = ((cfg4.win 1).blk t).view.read (Elt Ideal) (Stage.lsm (V c main_v60)) := by
  show (cfg4.win 1).cut (grid4.coords t) ((dat4 V c).after 1 t) = _
  rw [after4_1]
  unfold out4_1
  rw [View.canon_unit_zero zero_offsets]
  simp only [View.ld_unit_zero (S := S2944x16) zero_offsets]
  obtain ⟨e0, e1, e2, e3⟩ := idx_facts4 t
  have ht : t.val < 34 := lt_of_lt_of_eq t.isLt N_4
  funext j
  show k4_pay1 (F := Ideal) (iblk4 V c 0 t) ((win4 1).xinj (grid4.coords t) j)
    = Stage.lsm (V c main_v60) (((cfg4.win 1).blk t).view.emb j)
  refine tile_lsm (V c main_v60) (iblk4 V c 0 t) t.val ht (fun r k => ?_) _ _ ?_ ?_
  · show V c main_v60 (((cfg4.win 0).blk t).view.emb (ix2 r k)) = V c main_v60 (ix2 (⟨t.val * 2944 + r.val, by omega⟩ : Fin 100096) k)
    refine congrArg (V c main_v60) (funext fun a => Fin.ext ?_)
    match a with
    | ⟨0, _⟩ => show win4_0.index t (0 : Fin 2) * 2944 + 1 * r.val = t.val * 2944 + r.val; omega
    | ⟨1, _⟩ => show win4_0.index t (1 : Fin 2) * 16 + 1 * k.val = k.val; omega
  · show win4_1.index t (0 : Fin 2) * 2944 + 1 * (j 0).val = t.val * 2944 + (j 0).val; omega
  · show win4_1.index t (1 : Fin 2) * 16 + 1 * (j 1).val = (j 1).val; omega

/-- An index of the array is in point t's block iff each coordinate is in the block's range on its axis. -/
private theorem mem_blk4 (t : Fin cfg4.N) (i : S100096x16.Idx) :
    i ∈ ((cfg4.win 1).blk t).view.set ↔ ∀ a : Fin 2, win4_1.index t a * S2944x16.size a ≤ (i a).val ∧ (i a).val < win4_1.index t a * S2944x16.size a + S2944x16.size a := by
  show i ∈ ((View.whole main_v61).slice (win4_1.rect t)).set ↔ _
  rw [View.set_slice_whole, Rect.mem_set_unit]
  exact Iff.rfl

/-- Row r of the array lies in the block of point r / 2944: the 34 tiles of 2944 rows fill the 100096 rows. -/
private theorem cover4 (i : S100096x16.Idx) :
    ∃ t : Fin cfg4.N, (cfg4.win 1).flush t = true ∧ i ∈ ((cfg4.win 1).blk t).view.set := by
  have hi0 : (i 0).val < 100096 := (i 0).isLt
  have hi1 : (i 1).val < 16 := (i 1).isLt
  have hq : (i 0).val / 2944 < cfg4.N := lt_of_lt_of_eq (by omega : (i 0).val / 2944 < 34) N_4.symm
  refine ⟨⟨(i 0).val / 2944, hq⟩, flush4_1 _, ?_⟩
  obtain ⟨e0, e1, e2, e3⟩ := idx_facts4 ⟨(i 0).val / 2944, hq⟩
  rw [mem_blk4]
  intro a
  match a with
  | ⟨0, _⟩ =>
    show win4_1.index ⟨(i 0).val / 2944, hq⟩ (0 : Fin 2) * 2944 ≤ (i 0).val ∧ (i 0).val < win4_1.index ⟨(i 0).val / 2944, hq⟩ (0 : Fin 2) * 2944 + 2944
    have e2' : win4_1.index ⟨(i 0).val / 2944, hq⟩ (0 : Fin 2) = (i 0).val / 2944 := e2
    omega
  | ⟨1, _⟩ =>
    show win4_1.index ⟨(i 0).val / 2944, hq⟩ (1 : Fin 2) * 16 ≤ (i 1).val ∧ (i 1).val < win4_1.index ⟨(i 0).val / 2944, hq⟩ (1 : Fin 2) * 16 + 16
    omega

/-- Launch 4 leaves the row-wise log-softmax of its input array. -/
theorem final4 (c : Dev nD) :
    (dat4 (F := Ideal) V c).arrAt 1 cfg4.N = Stage.lsm (V c main_v60) :=
  (dat4 (F := Ideal) V c).arrAt_eq_of_cover 1 (Stage.lsm (V c main_v60)) (fun t _ => flushed4_eq V c t) cover4

end Cert.KernelIdeal.RegVal

end
-- ==== Proof.KHost.lean ====
/-
  The kernel program's result buffer, read back through @main: the host stretches' operations and the five launches'
  arrays compose to the one function `Stage.out` of the arguments.
-/
import proofs.«413348_j30863634989386_3_alg».proof.Proof.Gen.KernelIdeal.Frame
import proofs.«413348_j30863634989386_3_alg».proof.Proof.KStages
import proofs.«413348_j30863634989386_3_alg».proof.Proof.KReg0
import proofs.«413348_j30863634989386_3_alg».proof.Proof.KReg1
import proofs.«413348_j30863634989386_3_alg».proof.Proof.KReg2
import proofs.«413348_j30863634989386_3_alg».proof.Proof.KReg3
import proofs.«413348_j30863634989386_3_alg».proof.Proof.KReg4
import Idealize.ShloMosaic.Lib.StableHlo.Run

set_option maxRecDepth 16384

noncomputable section

namespace Cert.KernelIdeal.HostVal

open Cert.KernelIdeal Cert.KernelIdeal.Gen Idealize.ShloMosaic Idealize.ShloMosaic.TcCoe Idealize.SL.Sem Idealize.ShloMosaic.StableHlo

/-! ## Each host stretch over an arbitrary valuation, at any float family -/
section Generic
variable {F : FTy → Type} [FloatOps F]
variable (U : Valuation τ sig (Elt F))

/-- The buffers `hostOps0` writes; every other buffer keeps its contents. -/
private theorem h0_writes : (hostOps0 : List (HloOp τ sig (Elt F))).Forall fun op =>
    op.writes ⊆ (([main_v0, main_v1, main_v2, main_v3, main_c] : List (Ref sig .tc)).map (Proc.devRef (τ := τ) .tc)).toFinset := by
  simp only [hostOps0, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact List.mem_toFinset.mpr (List.mem_map_of_mem (by decide))

theorem h0_keep (r : Ref sig .tc) (hr : r ∉ ([main_v0, main_v1, main_v2, main_v3, main_c] : List (Ref sig .tc))) :
    StableHlo.after (hostOps0 (F := F)) U (Proc.devRef .tc r) = U (Proc.devRef .tc r) :=
  StableHlo.after_of_writes_sub _ U h0_writes hr

/-- The buffers `hostOps0_1` writes; every other buffer keeps its contents. -/
private theorem h01_writes : (hostOps0_1 : List (HloOp τ sig (Elt F))).Forall fun op =>
    op.writes ⊆ (([main_call0_v0, main_v4] : List (Ref sig .tc)).map (Proc.devRef (τ := τ) .tc)).toFinset := by
  simp only [hostOps0_1, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact List.mem_toFinset.mpr (List.mem_map_of_mem (by decide))

theorem h01_keep (r : Ref sig .tc) (hr : r ∉ ([main_call0_v0, main_v4] : List (Ref sig .tc))) :
    StableHlo.after (hostOps0_1 (F := F)) U (Proc.devRef .tc r) = U (Proc.devRef .tc r) :=
  StableHlo.after_of_writes_sub _ U h01_writes hr

/-- The buffers `hostOps0_2` writes; every other buffer keeps its contents. -/
private theorem h02_writes : (hostOps0_2 : List (HloOp τ sig (Elt F))).Forall fun op =>
    op.writes ⊆ (([main_cst, main_v5, main_cst_0, main_v6, main_v7, main_v8, main_cst_1, main_v9, main_v10, main_v11, main_v12, main_v13, main_c_2, main_v14, main_v15, main_c_3, main_v16, main_v17, main_v18, main_v19, main_v20, main_c_4, main_v21, main_v22, main_c_5, main_v23, main_v24, main_v25, main_v26, main_v27, main_v28] : List (Ref sig .tc)).map (Proc.devRef (τ := τ) .tc)).toFinset := by
  simp only [hostOps0_2, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact List.mem_toFinset.mpr (List.mem_map_of_mem (by decide))

theorem h02_keep (r : Ref sig .tc) (hr : r ∉ ([main_cst, main_v5, main_cst_0, main_v6, main_v7, main_v8, main_cst_1, main_v9, main_v10, main_v11, main_v12, main_v13, main_c_2, main_v14, main_v15, main_c_3, main_v16, main_v17, main_v18, main_v19, main_v20, main_c_4, main_v21, main_v22, main_c_5, main_v23, main_v24, main_v25, main_v26, main_v27, main_v28] : List (Ref sig .tc))) :
    StableHlo.after (hostOps0_2 (F := F)) U (Proc.devRef .tc r) = U (Proc.devRef .tc r) :=
  StableHlo.after_of_writes_sub _ U h02_writes hr

/-- The buffers `hostOps1` writes; every other buffer keeps its contents. -/
private theorem h1_writes : (hostOps1 : List (HloOp τ sig (Elt F))).Forall fun op =>
    op.writes ⊆ (([main_c_6, main_v30, main_v31, main_c_7, main_v32, main_v33, main_v34, main_v35, main_v36, main_v37, main_v38, main_v39, main_cst_8, main_v40, main_v41, main_v42, main_v43] : List (Ref sig .tc)).map (Proc.devRef (τ := τ) .tc)).toFinset := by
  simp only [hostOps1, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact List.mem_toFinset.mpr (List.mem_map_of_mem (by decide))

theorem h1_keep (r : Ref sig .tc) (hr : r ∉ ([main_c_6, main_v30, main_v31, main_c_7, main_v32, main_v33, main_v34, main_v35, main_v36, main_v37, main_v38, main_v39, main_cst_8, main_v40, main_v41, main_v42, main_v43] : List (Ref sig .tc))) :
    StableHlo.after (hostOps1 (F := F)) U (Proc.devRef .tc r) = U (Proc.devRef .tc r) :=
  StableHlo.after_of_writes_sub _ U h1_writes hr

/-- The buffers `hostOps3` writes; every other buffer keeps its contents. -/
private theorem h3_writes : (hostOps3 : List (HloOp τ sig (Elt F))).Forall fun op =>
    op.writes ⊆ (([main_c_9, main_v46, main_v47, main_c_10, main_v48, main_v49, main_v50, main_v51, main_v52, main_v53, main_v54, main_v55, main_cst_11, main_v56, main_v57, main_v58, main_v59] : List (Ref sig .tc)).map (Proc.devRef (τ := τ) .tc)).toFinset := by
  simp only [hostOps3, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact List.mem_toFinset.mpr (List.mem_map_of_mem (by decide))

theorem h3_keep (r : Ref sig .tc) (hr : r ∉ ([main_c_9, main_v46, main_v47, main_c_10, main_v48, main_v49, main_v50, main_v51, main_v52, main_v53, main_v54, main_v55, main_cst_11, main_v56, main_v57, main_v58, main_v59] : List (Ref sig .tc))) :
    StableHlo.after (hostOps3 (F := F)) U (Proc.devRef .tc r) = U (Proc.devRef .tc r) :=
  StableHlo.after_of_writes_sub _ U h3_writes hr

/-- The buffers `hostOps5` writes; every other buffer keeps its contents. -/
private theorem h5_writes : (hostOps5 : List (HloOp τ sig (Elt F))).Forall fun op =>
    op.writes ⊆ (([main_v62] : List (Ref sig .tc)).map (Proc.devRef (τ := τ) .tc)).toFinset := by
  simp only [hostOps5, List.Forall, StableHlo.nullary_writes, StableHlo.unary_writes, StableHlo.binary_writes, StableHlo.ternary_writes, StableHlo.quaternary_writes, StableHlo.reshape_writes, StableHlo.binaryIndexed_writes, Finset.singleton_subset_iff]
  repeat' apply And.intro
  all_goals exact List.mem_toFinset.mpr (List.mem_map_of_mem (by decide))

theorem h5_keep (r : Ref sig .tc) (hr : r ∉ ([main_v62] : List (Ref sig .tc))) :
    StableHlo.after (hostOps5 (F := F)) U (Proc.devRef .tc r) = U (Proc.devRef .tc r) :=
  StableHlo.after_of_writes_sub _ U h5_writes hr

/-- The first stretch splits the edge list into its two rows and writes the integer zero. -/
theorem h0_v1 : StableHlo.after (hostOps0 (F := F)) U (Proc.devRef .tc main_v1)
    = Stage.src (F := F) (U (Proc.devRef .tc main_arg1)) := by
  after_results; rfl

theorem h0_v3 : StableHlo.after (hostOps0 (F := F)) U (Proc.devRef .tc main_v3)
    = Stage.dst (F := F) (U (Proc.devRef .tc main_arg1)) := by
  after_results; rfl

theorem h0_c : StableHlo.after (hostOps0 (F := F)) U (Proc.devRef .tc main_c)
    = (constantI S_ 32 0#32 : (⟨S_, .i32⟩ : BufTy).Contents (Elt F)) := by
  after_results

/-- The pad function appends the zero rows. -/
theorem h01_v4 (x : (⟨S100000x128, .f32⟩ : BufTy).Contents (Elt F))
    (h0 : U (Proc.devRef .tc main_arg0) = x)
    (hc : U (Proc.devRef .tc main_c) = (constantI S_ 32 0#32 : (⟨S_, .i32⟩ : BufTy).Contents (Elt F))) :
    StableHlo.after (hostOps0_1 (F := F)) U (Proc.devRef .tc main_v4) = Stage.xpad (F := F) x := by
  after_results
  simp only [TRef.ofBuf, TRef.toBuf, cast_eq]
  rw [h0, hc]; rfl

/-- The third stretch computes the self-loop weight from the destinations … -/
theorem h02_v13 (ei : (⟨S2x1600000, .i32⟩ : BufTy).Contents (Elt F))
    (h3 : U (Proc.devRef .tc main_v3) = Stage.dst (F := F) ei) :
    StableHlo.after (hostOps0_2 (F := F)) U (Proc.devRef .tc main_v13) = Stage.dinv2 (F := F) ei := by
  after_results
  rw [h3]; rfl

/-- … and every edge's weight from the sources and the destinations. -/
theorem h02_v28 (ei : (⟨S2x1600000, .i32⟩ : BufTy).Contents (Elt F))
    (h1 : U (Proc.devRef .tc main_v1) = Stage.src (F := F) ei)
    (h3 : U (Proc.devRef .tc main_v3) = Stage.dst (F := F) ei) :
    StableHlo.after (hostOps0_2 (F := F)) U (Proc.devRef .tc main_v28) = Stage.norm (F := F) ei := by
  after_results_simp
  rw [h1, h3]; rfl

/-- The stretch before the first combine step aggregates the first layer's messages and lays the bias out as a row. -/
theorem h1_v42 (ei : (⟨S2x1600000, .i32⟩ : BufTy).Contents (Elt F))
    (H : (⟨S100096x64, .f32⟩ : BufTy).Contents (Elt F))
    (h29 : U (Proc.devRef .tc main_v29) = H)
    (h1 : U (Proc.devRef .tc main_v1) = Stage.src (F := F) ei)
    (h3 : U (Proc.devRef .tc main_v3) = Stage.dst (F := F) ei)
    (h28 : U (Proc.devRef .tc main_v28) = Stage.norm (F := F) ei) :
    StableHlo.after (hostOps1 (F := F)) U (Proc.devRef .tc main_v42) = Stage.agg1 (F := F) H ei := by
  after_results_simp
  rw [h29, h1, h3, h28]; rfl

theorem h1_v43 (b1 : (⟨S64, .f32⟩ : BufTy).Contents (Elt F))
    (h : U (Proc.devRef .tc main_arg3) = b1) :
    StableHlo.after (hostOps1 (F := F)) U (Proc.devRef .tc main_v43) = Stage.b1row (F := F) b1 := by
  after_results
  rw [h]; rfl

/-- The stretch before the second combine step does the same for the second layer. -/
theorem h3_v58 (ei : (⟨S2x1600000, .i32⟩ : BufTy).Contents (Elt F))
    (H : (⟨S100096x16, .f32⟩ : BufTy).Contents (Elt F))
    (h45 : U (Proc.devRef .tc main_v45) = H)
    (h1 : U (Proc.devRef .tc main_v1) = Stage.src (F := F) ei)
    (h3 : U (Proc.devRef .tc main_v3) = Stage.dst (F := F) ei)
    (h28 : U (Proc.devRef .tc main_v28) = Stage.norm (F := F) ei) :
    StableHlo.after (hostOps3 (F := F)) U (Proc.devRef .tc main_v58) = Stage.agg2 (F := F) H ei := by
  after_results_simp
  rw [h45, h1, h3, h28]; rfl

theorem h3_v59 (b2 : (⟨S16, .f32⟩ : BufTy).Contents (Elt F))
    (h : U (Proc.devRef .tc main_arg5) = b2) :
    StableHlo.after (hostOps3 (F := F)) U (Proc.devRef .tc main_v59) = Stage.b2row (F := F) b2 := by
  after_results
  rw [h]; rfl

/-- The last stretch drops the padding rows. -/
theorem h5_v62 (L : (⟨S100096x16, .f32⟩ : BufTy).Contents (Elt F))
    (h : U (Proc.devRef .tc main_v61) = L) :
    StableHlo.after (hostOps5 (F := F)) U (Proc.devRef .tc main_v62) = Stage.keep (F := F) L := by
  after_results
  rw [h]; rfl

end Generic

/-! ## The walk through @main at the extended reals: each boundary's live buffers as functions of the arguments -/
variable (m : (ℓ : Loc nD τ sig) → Buf (Elt Ideal) ℓ) (ρ : Dev nD → PrngReg)

/-- The first layer's linear output as a function of the arguments. -/
def lin1v (c : Dev nD) : S100096x64.Idx → EReal := Stage.lin1 (Stage.xpad (F := Ideal) (m ((c : Thread nD τ).loc main_arg0))) (m ((c : Thread nD τ).loc main_arg2))
/-- The first layer's combined output (after the maximum with zero). -/
def fin1v (c : Dev nD) : S100096x64.Idx → EReal :=
  Stage.fin1 (Stage.agg1 (F := Ideal) (lin1v m c) (m ((c : Thread nD τ).loc main_arg1))) (lin1v m c) (Stage.dinv2 (F := Ideal) (m ((c : Thread nD τ).loc main_arg1))) (Stage.b1row (F := Ideal) (m ((c : Thread nD τ).loc main_arg3)))
/-- The second layer's linear output. -/
def lin2v (c : Dev nD) : S100096x16.Idx → EReal := Stage.lin2 (fin1v m c) (m ((c : Thread nD τ).loc main_arg4))
/-- The second layer's combined output, of which the result is the row-wise log-softmax. -/
def fin2v (c : Dev nD) : S100096x16.Idx → EReal :=
  Stage.fin2 (Stage.agg2 (F := Ideal) (lin2v m c) (m ((c : Thread nD τ).loc main_arg1))) (lin2v m c) (Stage.dinv2 (F := Ideal) (m ((c : Thread nD τ).loc main_arg1))) (Stage.b2row (F := Ideal) (m ((c : Thread nD τ).loc main_arg5)))

/-! ### After the first stretch -/
theorem W1_v1 (c : Dev nD) : W1 (F := Ideal) m ρ c (Proc.devRef .tc main_v1) = Stage.src (F := Ideal) (m ((c : Thread nD τ).loc main_arg1)) :=
  h0_v1 _
theorem W1_v3 (c : Dev nD) : W1 (F := Ideal) m ρ c (Proc.devRef .tc main_v3) = Stage.dst (F := Ideal) (m ((c : Thread nD τ).loc main_arg1)) :=
  h0_v3 _
theorem W1_c (c : Dev nD) : W1 (F := Ideal) m ρ c (Proc.devRef .tc main_c) = (constantI S_ 32 0#32 : (⟨S_, .i32⟩ : BufTy).Contents (Elt Ideal)) :=
  h0_c _
theorem W1_arg0 (c : Dev nD) : W1 (F := Ideal) m ρ c (Proc.devRef .tc main_arg0) = (m ((c : Thread nD τ).loc main_arg0)) :=
  h0_keep _ main_arg0 (by decide)
theorem W1_arg2 (c : Dev nD) : W1 (F := Ideal) m ρ c (Proc.devRef .tc main_arg2) = (m ((c : Thread nD τ).loc main_arg2)) :=
  h0_keep _ main_arg2 (by decide)
theorem W1_arg3 (c : Dev nD) : W1 (F := Ideal) m ρ c (Proc.devRef .tc main_arg3) = (m ((c : Thread nD τ).loc main_arg3)) :=
  h0_keep _ main_arg3 (by decide)
theorem W1_arg4 (c : Dev nD) : W1 (F := Ideal) m ρ c (Proc.devRef .tc main_arg4) = (m ((c : Thread nD τ).loc main_arg4)) :=
  h0_keep _ main_arg4 (by decide)
theorem W1_arg5 (c : Dev nD) : W1 (F := Ideal) m ρ c (Proc.devRef .tc main_arg5) = (m ((c : Thread nD τ).loc main_arg5)) :=
  h0_keep _ main_arg5 (by decide)

/-! ### After the pad function -/
theorem W2_v4 (c : Dev nD) : W2 (F := Ideal) m ρ c (Proc.devRef .tc main_v4) = Stage.xpad (F := Ideal) (m ((c : Thread nD τ).loc main_arg0)) :=
  h01_v4 _ _ (W1_arg0 m ρ c) (W1_c m ρ c)
theorem W2_v1 (c : Dev nD) : W2 (F := Ideal) m ρ c (Proc.devRef .tc main_v1) = Stage.src (F := Ideal) (m ((c : Thread nD τ).loc main_arg1)) :=
  (h01_keep _ main_v1 (by decide)).trans (W1_v1 m ρ c)
theorem W2_v3 (c : Dev nD) : W2 (F := Ideal) m ρ c (Proc.devRef .tc main_v3) = Stage.dst (F := Ideal) (m ((c : Thread nD τ).loc main_arg1)) :=
  (h01_keep _ main_v3 (by decide)).trans (W1_v3 m ρ c)
theorem W2_arg2 (c : Dev nD) : W2 (F := Ideal) m ρ c (Proc.devRef .tc main_arg2) = (m ((c : Thread nD τ).loc main_arg2)) :=
  (h01_keep _ main_arg2 (by decide)).trans (W1_arg2 m ρ c)
theorem W2_arg3 (c : Dev nD) : W2 (F := Ideal) m ρ c (Proc.devRef .tc main_arg3) = (m ((c : Thread nD τ).loc main_arg3)) :=
  (h01_keep _ main_arg3 (by decide)).trans (W1_arg3 m ρ c)
theorem W2_arg4 (c : Dev nD) : W2 (F := Ideal) m ρ c (Proc.devRef .tc main_arg4) = (m ((c : Thread nD τ).loc main_arg4)) :=
  (h01_keep _ main_arg4 (by decide)).trans (W1_arg4 m ρ c)
theorem W2_arg5 (c : Dev nD) : W2 (F := Ideal) m ρ c (Proc.devRef .tc main_arg5) = (m ((c : Thread nD τ).loc main_arg5)) :=
  (h01_keep _ main_arg5 (by decide)).trans (W1_arg5 m ρ c)

/-! ### After the third stretch: the first launch's entry -/
theorem W3_v13 (c : Dev nD) : W3 (F := Ideal) m ρ c (Proc.devRef .tc main_v13) = Stage.dinv2 (F := Ideal) (m ((c : Thread nD τ).loc main_arg1)) :=
  h02_v13 _ _ (W2_v3 m ρ c)
theorem W3_v28 (c : Dev nD) : W3 (F := Ideal) m ρ c (Proc.devRef .tc main_v28) = Stage.norm (F := Ideal) (m ((c : Thread nD τ).loc main_arg1)) :=
  h02_v28 _ _ (W2_v1 m ρ c) (W2_v3 m ρ c)
theorem W3_v1 (c : Dev nD) : W3 (F := Ideal) m ρ c (Proc.devRef .tc main_v1) = Stage.src (F := Ideal) (m ((c : Thread nD τ).loc main_arg1)) :=
  (h02_keep _ main_v1 (by decide)).trans (W2_v1 m ρ c)
theorem W3_v3 (c : Dev nD) : W3 (F := Ideal) m ρ c (Proc.devRef .tc main_v3) = Stage.dst (F := Ideal) (m ((c : Thread nD τ).loc main_arg1)) :=
  (h02_keep _ main_v3 (by decide)).trans (W2_v3 m ρ c)
theorem W3_v4 (c : Dev nD) : W3 (F := Ideal) m ρ c (Proc.devRef .tc main_v4) = Stage.xpad (F := Ideal) (m ((c : Thread nD τ).loc main_arg0)) :=
  (h02_keep _ main_v4 (by decide)).trans (W2_v4 m ρ c)
theorem W3_arg2 (c : Dev nD) : W3 (F := Ideal) m ρ c (Proc.devRef .tc main_arg2) = (m ((c : Thread nD τ).loc main_arg2)) :=
  (h02_keep _ main_arg2 (by decide)).trans (W2_arg2 m ρ c)
theorem W3_arg3 (c : Dev nD) : W3 (F := Ideal) m ρ c (Proc.devRef .tc main_arg3) = (m ((c : Thread nD τ).loc main_arg3)) :=
  (h02_keep _ main_arg3 (by decide)).trans (W2_arg3 m ρ c)
theorem W3_arg4 (c : Dev nD) : W3 (F := Ideal) m ρ c (Proc.devRef .tc main_arg4) = (m ((c : Thread nD τ).loc main_arg4)) :=
  (h02_keep _ main_arg4 (by decide)).trans (W2_arg4 m ρ c)
theorem W3_arg5 (c : Dev nD) : W3 (F := Ideal) m ρ c (Proc.devRef .tc main_arg5) = (m ((c : Thread nD τ).loc main_arg5)) :=
  (h02_keep _ main_arg5 (by decide)).trans (W2_arg5 m ρ c)

/-! ### After the first launch (x·W1) -/
theorem W4_v29 (c : Dev nD) : W4 (F := Ideal) m ρ c (Proc.devRef .tc main_v29) = lin1v m c :=
  (W4_arr m ρ c 2).trans ((RegVal.final0 (V3 m ρ) c).trans (congrArg₂ Stage.lin1 (W3_v4 m ρ c) (W3_arg2 m ρ c)))
theorem W4_v1 (c : Dev nD) : W4 (F := Ideal) m ρ c (Proc.devRef .tc main_v1) = Stage.src (F := Ideal) (m ((c : Thread nD τ).loc main_arg1)) :=
  (W4_of_ne m ρ c main_v1 (by decide)).trans (W3_v1 m ρ c)
theorem W4_v3 (c : Dev nD) : W4 (F := Ideal) m ρ c (Proc.devRef .tc main_v3) = Stage.dst (F := Ideal) (m ((c : Thread nD τ).loc main_arg1)) :=
  (W4_of_ne m ρ c main_v3 (by decide)).trans (W3_v3 m ρ c)
theorem W4_v13 (c : Dev nD) : W4 (F := Ideal) m ρ c (Proc.devRef .tc main_v13) = Stage.dinv2 (F := Ideal) (m ((c : Thread nD τ).loc main_arg1)) :=
  (W4_of_ne m ρ c main_v13 (by decide)).trans (W3_v13 m ρ c)
theorem W4_v28 (c : Dev nD) : W4 (F := Ideal) m ρ c (Proc.devRef .tc main_v28) = Stage.norm (F := Ideal) (m ((c : Thread nD τ).loc main_arg1)) :=
  (W4_of_ne m ρ c main_v28 (by decide)).trans (W3_v28 m ρ c)
theorem W4_arg3 (c : Dev nD) : W4 (F := Ideal) m ρ c (Proc.devRef .tc main_arg3) = (m ((c : Thread nD τ).loc main_arg3)) :=
  (W4_of_ne m ρ c main_arg3 (by decide)).trans (W3_arg3 m ρ c)
theorem W4_arg4 (c : Dev nD) : W4 (F := Ideal) m ρ c (Proc.devRef .tc main_arg4) = (m ((c : Thread nD τ).loc main_arg4)) :=
  (W4_of_ne m ρ c main_arg4 (by decide)).trans (W3_arg4 m ρ c)
theorem W4_arg5 (c : Dev nD) : W4 (F := Ideal) m ρ c (Proc.devRef .tc main_arg5) = (m ((c : Thread nD τ).loc main_arg5)) :=
  (W4_of_ne m ρ c main_arg5 (by decide)).trans (W3_arg5 m ρ c)

/-! ### After the stretch before the first combine step -/
theorem W5_v42 (c : Dev nD) : W5 (F := Ideal) m ρ c (Proc.devRef .tc main_v42) = Stage.agg1 (F := Ideal) (lin1v m c) (m ((c : Thread nD τ).loc main_arg1)) :=
  h1_v42 _ _ _ (W4_v29 m ρ c) (W4_v1 m ρ c) (W4_v3 m ρ c) (W4_v28 m ρ c)
theorem W5_v43 (c : Dev nD) : W5 (F := Ideal) m ρ c (Proc.devRef .tc main_v43) = Stage.b1row (F := Ideal) (m ((c : Thread nD τ).loc main_arg3)) :=
  h1_v43 _ _ (W4_arg3 m ρ c)
theorem W5_v1 (c : Dev nD) : W5 (F := Ideal) m ρ c (Proc.devRef .tc main_v1) = Stage.src (F := Ideal) (m ((c : Thread nD τ).loc main_arg1)) :=
  (h1_keep _ main_v1 (by decide)).trans (W4_v1 m ρ c)
theorem W5_v3 (c : Dev nD) : W5 (F := Ideal) m ρ c (Proc.devRef .tc main_v3) = Stage.dst (F := Ideal) (m ((c : Thread nD τ).loc main_arg1)) :=
  (h1_keep _ main_v3 (by decide)).trans (W4_v3 m ρ c)
theorem W5_v13 (c : Dev nD) : W5 (F := Ideal) m ρ c (Proc.devRef .tc main_v13) = Stage.dinv2 (F := Ideal) (m ((c : Thread nD τ).loc main_arg1)) :=
  (h1_keep _ main_v13 (by decide)).trans (W4_v13 m ρ c)
theorem W5_v28 (c : Dev nD) : W5 (F := Ideal) m ρ c (Proc.devRef .tc main_v28) = Stage.norm (F := Ideal) (m ((c : Thread nD τ).loc main_arg1)) :=
  (h1_keep _ main_v28 (by decide)).trans (W4_v28 m ρ c)
theorem W5_v29 (c : Dev nD) : W5 (F := Ideal) m ρ c (Proc.devRef .tc main_v29) = lin1v m c :=
  (h1_keep _ main_v29 (by decide)).trans (W4_v29 m ρ c)
theorem W5_arg4 (c : Dev nD) : W5 (F := Ideal) m ρ c (Proc.devRef .tc main_arg4) = (m ((c : Thread nD τ).loc main_arg4)) :=
  (h1_keep _ main_arg4 (by decide)).trans (W4_arg4 m ρ c)
theorem W5_arg5 (c : Dev nD) : W5 (F := Ideal) m ρ c (Proc.devRef .tc main_arg5) = (m ((c : Thread nD τ).loc main_arg5)) :=
  (h1_keep _ main_arg5 (by decide)).trans (W4_arg5 m ρ c)

/-! ### After the second launch (the first combine step) -/
theorem W6_v44 (c : Dev nD) : W6 (F := Ideal) m ρ c (Proc.devRef .tc main_v44) = fin1v m c :=
  (W6_arr m ρ c 4).trans ((RegVal.final1 (V5 m ρ) c).trans
    (by rw [show V5 m ρ c main_v42 = _ from W5_v42 m ρ c, show V5 m ρ c main_v29 = _ from W5_v29 m ρ c,
          show V5 m ρ c main_v13 = _ from W5_v13 m ρ c, show V5 m ρ c main_v43 = _ from W5_v43 m ρ c]; rfl))
theorem W6_v1 (c : Dev nD) : W6 (F := Ideal) m ρ c (Proc.devRef .tc main_v1) = Stage.src (F := Ideal) (m ((c : Thread nD τ).loc main_arg1)) :=
  (W6_of_ne m ρ c main_v1 (by decide)).trans (W5_v1 m ρ c)
theorem W6_v3 (c : Dev nD) : W6 (F := Ideal) m ρ c (Proc.devRef .tc main_v3) = Stage.dst (F := Ideal) (m ((c : Thread nD τ).loc main_arg1)) :=
  (W6_of_ne m ρ c main_v3 (by decide)).trans (W5_v3 m ρ c)
theorem W6_v13 (c : Dev nD) : W6 (F := Ideal) m ρ c (Proc.devRef .tc main_v13) = Stage.dinv2 (F := Ideal) (m ((c : Thread nD τ).loc main_arg1)) :=
  (W6_arr m ρ c 2).trans ((((dat1 (V5 m ρ) c).arrAt_in 2 rfl _).trans (A_eq1 (V5 m ρ) c 2)).trans (W5_v13 m ρ c))
theorem W6_v28 (c : Dev nD) : W6 (F := Ideal) m ρ c (Proc.devRef .tc main_v28) = Stage.norm (F := Ideal) (m ((c : Thread nD τ).loc main_arg1)) :=
  (W6_of_ne m ρ c main_v28 (by decide)).trans (W5_v28 m ρ c)
theorem W6_arg4 (c : Dev nD) : W6 (F := Ideal) m ρ c (Proc.devRef .tc main_arg4) = (m ((c : Thread nD τ).loc main_arg4)) :=
  (W6_of_ne m ρ c main_arg4 (by decide)).trans (W5_arg4 m ρ c)
theorem W6_arg5 (c : Dev nD) : W6 (F := Ideal) m ρ c (Proc.devRef .tc main_arg5) = (m ((c : Thread nD τ).loc main_arg5)) :=
  (W6_of_ne m ρ c main_arg5 (by decide)).trans (W5_arg5 m ρ c)

/-! ### After the third launch (h·W2) -/
theorem W7_v45 (c : Dev nD) : W7 (F := Ideal) m ρ c (Proc.devRef .tc main_v45) = lin2v m c :=
  (W7_arr m ρ c 2).trans ((RegVal.final2 (V6 m ρ) c).trans (congrArg₂ Stage.lin2 (W6_v44 m ρ c) (W6_arg4 m ρ c)))
theorem W7_v1 (c : Dev nD) : W7 (F := Ideal) m ρ c (Proc.devRef .tc main_v1) = Stage.src (F := Ideal) (m ((c : Thread nD τ).loc main_arg1)) :=
  (W7_of_ne m ρ c main_v1 (by decide)).trans (W6_v1 m ρ c)
theorem W7_v3 (c : Dev nD) : W7 (F := Ideal) m ρ c (Proc.devRef .tc main_v3) = Stage.dst (F := Ideal) (m ((c : Thread nD τ).loc main_arg1)) :=
  (W7_of_ne m ρ c main_v3 (by decide)).trans (W6_v3 m ρ c)
theorem W7_v13 (c : Dev nD) : W7 (F := Ideal) m ρ c (Proc.devRef .tc main_v13) = Stage.dinv2 (F := Ideal) (m ((c : Thread nD τ).loc main_arg1)) :=
  (W7_of_ne m ρ c main_v13 (by decide)).trans (W6_v13 m ρ c)
theorem W7_v28 (c : Dev nD) : W7 (F := Ideal) m ρ c (Proc.devRef .tc main_v28) = Stage.norm (F := Ideal) (m ((c : Thread nD τ).loc main_arg1)) :=
  (W7_of_ne m ρ c main_v28 (by decide)).trans (W6_v28 m ρ c)
theorem W7_arg5 (c : Dev nD) : W7 (F := Ideal) m ρ c (Proc.devRef .tc main_arg5) = (m ((c : Thread nD τ).loc main_arg5)) :=
  (W7_of_ne m ρ c main_arg5 (by decide)).trans (W6_arg5 m ρ c)

/-! ### After the stretch before the second combine step -/
theorem W8_v58 (c : Dev nD) : W8 (F := Ideal) m ρ c (Proc.devRef .tc main_v58) = Stage.agg2 (F := Ideal) (lin2v m c) (m ((c : Thread nD τ).loc main_arg1)) :=
  h3_v58 _ _ _ (W7_v45 m ρ c) (W7_v1 m ρ c) (W7_v3 m ρ c) (W7_v28 m ρ c)
theorem W8_v59 (c : Dev nD) : W8 (F := Ideal) m ρ c (Proc.devRef .tc main_v59) = Stage.b2row (F := Ideal) (m ((c : Thread nD τ).loc main_arg5)) :=
  h3_v59 _ _ (W7_arg5 m ρ c)
theorem W8_v13 (c : Dev nD) : W8 (F := Ideal) m ρ c (Proc.devRef .tc main_v13) = Stage.dinv2 (F := Ideal) (m ((c : Thread nD τ).loc main_arg1)) :=
  (h3_keep _ main_v13 (by decide)).trans (W7_v13 m ρ c)
theorem W8_v45 (c : Dev nD) : W8 (F := Ideal) m ρ c (Proc.devRef .tc main_v45) = lin2v m c :=
  (h3_keep _ main_v45 (by decide)).trans (W7_v45 m ρ c)

/-! ### After the fourth launch (the second combine step) -/
theorem W9_v60 (c : Dev nD) : W9 (F := Ideal) m ρ c (Proc.devRef .tc main_v60) = fin2v m c :=
  (W9_arr m ρ c 4).trans ((RegVal.final3 (V8 m ρ) c).trans
    (by rw [show V8 m ρ c main_v58 = _ from W8_v58 m ρ c, show V8 m ρ c main_v45 = _ from W8_v45 m ρ c,
          show V8 m ρ c main_v13 = _ from W8_v13 m ρ c, show V8 m ρ c main_v59 = _ from W8_v59 m ρ c]; rfl))

/-! ### After the fifth launch (log-softmax) -/
theorem W10_v61 (c : Dev nD) : W10 (F := Ideal) m ρ c (Proc.devRef .tc main_v61) = Stage.lsm (fin2v m c) :=
  (W10_arr m ρ c 1).trans ((RegVal.final4 (V9 m ρ) c).trans (congrArg Stage.lsm (W9_v60 m ρ c)))

/-- What @main's fold leaves in the result buffer is `Stage.out` of the arguments as launched. -/
theorem result (c : Dev nD) :
    W11 (F := Ideal) m ρ c (Proc.devRef .tc main_v62)
      = Stage.out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) :=
  h5_v62 _ _ (W10_v61 m ρ c)

end Cert.KernelIdeal.HostVal

end
-- ==== Proof.RefFold.lean ====
/-
  The reference program's result buffer, read back through its 130 host operations: the fold of the operation list
  over the launch contents is the composed stage function `val_main_v93` of the arguments.

  The list is cut where the program's stages end (the degree normalisation, the edge weights, the aggregation of
  layer 1, its output and the second product, then the same four for layer 2, and the row-wise log-softmax). For
  each cut a record says what the buffers still read later hold there, as the stage functions of the six
  arguments; a stretch of operations run from contents that satisfy one record ends in contents that satisfy
  the next, whatever those contents are elsewhere. The fold of the whole list is the fold of the stretches in
  order, so the last record, read at the result buffer, is the statement.
-/
import proofs.«413348_j30863634989386_3_alg».proof.Proof.RefRun
import proofs.«413348_j30863634989386_3_alg».proof.Proof.RefRead
import Idealize.ShloMosaic.Lib.Pipeline.Frame

set_option maxRecDepth 16384

noncomputable section

namespace Cert.ReferenceIdeal.Fold

open Cert.ReferenceIdeal Cert.ReferenceIdeal.Gen Idealize.ShloMosaic Idealize.ShloMosaic.TcCoe Idealize.SL.Sem Idealize.ShloMosaic.StableHlo

variable {F : FTy → Type} [FloatOps F]

section Stretches

open Cert.ReferenceIdeal.ReadP

/-! ## The nine stretches of the operation list -/

/-- Source and destination rows of the edges, the first product `x · W1`, and the degree normalisation
    `rsqrt (deg + 1)` (up to `main_v11`). -/
private abbrev ops1 : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    binary main_arg0 main_arg2 main_v4 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_cst (constant S_ .f32 0x3F800000#32),
    unary main_cst main_v5 (broadcastInDim S1600000 ![] bcast_S_S1600000 : (⟨S_, .f32⟩ : BufTy).Contents (Elt F) → (⟨S1600000, .f32⟩ : BufTy).Contents (Elt F)),
    nullary main_cst_0 (constant S_ .f32 0x00000000#32),
    unary main_cst_0 main_v6 (broadcastInDim S100000 ![] bcast_S_S100000 : (⟨S_, .f32⟩ : BufTy).Contents (Elt F) → (⟨S100000, .f32⟩ : BufTy).Contents (Elt F)),
    unary main_v3 main_v7 (broadcastInDim S1600000x1 ![0] bcast_S1600000_S1600000x1_0 : (⟨S1600000, .i32⟩ : BufTy).Contents (Elt F) → (⟨S1600000x1, .i32⟩ : BufTy).Contents (Elt F)),
    ternary main_v6 main_v7 main_v5 main_v8 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_1 (constant S_ .f32 0x3F800000#32),
    unary main_cst_1 main_v9 (broadcastInDim S100000 ![] bcast_S_S100000 : (⟨S_, .f32⟩ : BufTy).Contents (Elt F) → (⟨S100000, .f32⟩ : BufTy).Contents (Elt F)),
    binary main_v8 main_v9 main_v10 (addf : (⟨S100000, .f32⟩ : BufTy).Contents (Elt F) → (⟨S100000, .f32⟩ : BufTy).Contents (Elt F) → (⟨S100000, .f32⟩ : BufTy).Contents (Elt F)),
    unary main_v10 main_v11 (Host.rsqrt : (⟨S100000, .f32⟩ : BufTy).Contents (Elt F) → (⟨S100000, .f32⟩ : BufTy).Contents (Elt F)) ]

/-- The edge weights of layer 1: the normalisation gathered at both ends of each edge and multiplied (up to `main_v26`). -/
private abbrev ops2 : List (HloOp τ sig (Elt F)) :=
  [ nullary main_c (constantI S_ 32 0#32),
    unary main_c main_v12 (broadcastInDim S1600000 ![] bcast_S_S1600000 : (⟨S_, .i32⟩ : BufTy).Contents (Elt F) → (⟨S1600000, .i32⟩ : BufTy).Contents (Elt F)),
    binary main_v1 main_v12 main_v13 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v14 (broadcastInDim S1600000 ![] bcast_S_S1600000 : (⟨S_, .i32⟩ : BufTy).Contents (Elt F) → (⟨S1600000, .i32⟩ : BufTy).Contents (Elt F)),
    binary main_v1 main_v14 main_v15 (addi : (⟨S1600000, .i32⟩ : BufTy).Contents (Elt F) → (⟨S1600000, .i32⟩ : BufTy).Contents (Elt F) → (⟨S1600000, .i32⟩ : BufTy).Contents (Elt F)),
    ternary main_v13 main_v15 main_v1 main_v16 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v16 main_v17 (broadcastInDim S1600000x1 ![0] bcast_S1600000_S1600000x1_0 : (⟨S1600000, .i32⟩ : BufTy).Contents (Elt F) → (⟨S1600000x1, .i32⟩ : BufTy).Contents (Elt F)),
    binary main_v11 main_v17 main_v18 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_3 (constantI S_ 32 0#32),
    unary main_c_3 main_v19 (broadcastInDim S1600000 ![] bcast_S_S1600000 : (⟨S_, .i32⟩ : BufTy).Contents (Elt F) → (⟨S1600000, .i32⟩ : BufTy).Contents (Elt F)),
    binary main_v3 main_v19 main_v20 (cmpi .slt : (⟨S1600000, .i32⟩ : BufTy).Contents (Elt F) → (⟨S1600000, .i32⟩ : BufTy).Contents (Elt F) → (⟨S1600000, .i1⟩ : BufTy).Contents (Elt F)),
    nullary main_c_4 (constantI S_ 32 100000#32),
    unary main_c_4 main_v21 (broadcastInDim S1600000 ![] bcast_S_S1600000 : (⟨S_, .i32⟩ : BufTy).Contents (Elt F) → (⟨S1600000, .i32⟩ : BufTy).Contents (Elt F)),
    binary main_v3 main_v21 main_v22 (addi : (⟨S1600000, .i32⟩ : BufTy).Contents (Elt F) → (⟨S1600000, .i32⟩ : BufTy).Contents (Elt F) → (⟨S1600000, .i32⟩ : BufTy).Contents (Elt F)),
    ternary main_v20 main_v22 main_v3 main_v23 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v23 main_v24 (broadcastInDim S1600000x1 ![0] bcast_S1600000_S1600000x1_0 : (⟨S1600000, .i32⟩ : BufTy).Contents (Elt F) → (⟨S1600000x1, .i32⟩ : BufTy).Contents (Elt F)),
    binary main_v11 main_v24 main_v25 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v18 main_v25 main_v26 (mulf : (⟨S1600000, .f32⟩ : BufTy).Contents (Elt F) → (⟨S1600000, .f32⟩ : BufTy).Contents (Elt F) → (⟨S1600000, .f32⟩ : BufTy).Contents (Elt F)) ]

/-- Layer 1's messages (the product's rows gathered at the sources, times the edge weights) and their sum at the
    destinations (up to `main_v39`). -/
private abbrev ops3 : List (HloOp τ sig (Elt F)) :=
  [ nullary main_c_5 (constantI S_ 32 0#32),
    unary main_c_5 main_v27 (broadcastInDim S1600000 ![] bcast_S_S1600000 : (⟨S_, .i32⟩ : BufTy).Contents (Elt F) → (⟨S1600000, .i32⟩ : BufTy).Contents (Elt F)),
    binary main_v1 main_v27 main_v28 (cmpi .slt : (⟨S1600000, .i32⟩ : BufTy).Contents (Elt F) → (⟨S1600000, .i32⟩ : BufTy).Contents (Elt F) → (⟨S1600000, .i1⟩ : BufTy).Contents (Elt F)),
    nullary main_c_6 (constantI S_ 32 100000#32),
    unary main_c_6 main_v29 (broadcastInDim S1600000 ![] bcast_S_S1600000 : (⟨S_, .i32⟩ : BufTy).Contents (Elt F) → (⟨S1600000, .i32⟩ : BufTy).Contents (Elt F)),
    binary main_v1 main_v29 main_v30 (addi : (⟨S1600000, .i32⟩ : BufTy).Contents (Elt F) → (⟨S1600000, .i32⟩ : BufTy).Contents (Elt F) → (⟨S1600000, .i32⟩ : BufTy).Contents (Elt F)),
    ternary main_v28 main_v30 main_v1 main_v31 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v31 main_v32 (broadcastInDim S1600000x1 ![0] bcast_S1600000_S1600000x1_0 : (⟨S1600000, .i32⟩ : BufTy).Contents (Elt F) → (⟨S1600000x1, .i32⟩ : BufTy).Contents (Elt F)),
    binary main_v4 main_v32 main_v33 ((fun x i => Host.gather gather_S100000x64_S1600000x1_S1600000x64_1_0_n_n_0_1_164 x i) : (⟨S100000x64, .f32⟩ : BufTy).Contents (Elt F) → (⟨S1600000x1, .i32⟩ : BufTy).Contents (Elt F) → (⟨S1600000x64, .f32⟩ : BufTy).Contents (Elt F)),
    unary main_v26 main_v34 (broadcastInDim S1600000x1 ![0] bcast_S1600000_S1600000x1_0 : (⟨S1600000, .f32⟩ : BufTy).Contents (Elt F) → (⟨S1600000x1, .f32⟩ : BufTy).Contents (Elt F)),
    unary main_v34 main_v35 (broadcastInDim S1600000x64 ![0, 1] bcast_S1600000x1_S1600000x64_0_1 : (⟨S1600000x1, .f32⟩ : BufTy).Contents (Elt F) → (⟨S1600000x64, .f32⟩ : BufTy).Contents (Elt F)),
    binary main_v33 main_v35 main_v36 (mulf : (⟨S1600000x64, .f32⟩ : BufTy).Contents (Elt F) → (⟨S1600000x64, .f32⟩ : BufTy).Contents (Elt F) → (⟨S1600000x64, .f32⟩ : BufTy).Contents (Elt F)),
    nullary main_cst_7 (constant S_ .f32 0x00000000#32),
    unary main_cst_7 main_v37 (broadcastInDim S100000x64 ![] bcast_S_S100000x64 : (⟨S_, .f32⟩ : BufTy).Contents (Elt F) → (⟨S100000x64, .f32⟩ : BufTy).Contents (Elt F)),
    unary main_v3 main_v38 (broadcastInDim S1600000x1 ![0] bcast_S1600000_S1600000x1_0 : (⟨S1600000, .i32⟩ : BufTy).Contents (Elt F) → (⟨S1600000x1, .i32⟩ : BufTy).Contents (Elt F)),
    ternary main_v37 main_v38 main_v36 main_v39 ((fun x i u => Host.scatterAdd scatter_S100000x64_S1600000x1_S1600000x64_1_0_0_1 x i u) : (⟨S100000x64, .f32⟩ : BufTy).Contents (Elt F) → (⟨S1600000x1, .i32⟩ : BufTy).Contents (Elt F) → (⟨S1600000x64, .f32⟩ : BufTy).Contents (Elt F) → (⟨S100000x64, .f32⟩ : BufTy).Contents (Elt F)) ]

/-- Layer 1's self term, bias and relu, and the second product `h · W2` (up to `main_v49`). -/
private abbrev ops4 : List (HloOp τ sig (Elt F)) :=
  [ binary main_v11 main_v11 main_v40 (mulf : (⟨S100000, .f32⟩ : BufTy).Contents (Elt F) → (⟨S100000, .f32⟩ : BufTy).Contents (Elt F) → (⟨S100000, .f32⟩ : BufTy).Contents (Elt F)),
    unary main_v40 main_v41 (broadcastInDim S100000x1 ![0] bcast_S100000_S100000x1_0 : (⟨S100000, .f32⟩ : BufTy).Contents (Elt F) → (⟨S100000x1, .f32⟩ : BufTy).Contents (Elt F)),
    unary main_v41 main_v42 (broadcastInDim S100000x64 ![0, 1] bcast_S100000x1_S100000x64_0_1 : (⟨S100000x1, .f32⟩ : BufTy).Contents (Elt F) → (⟨S100000x64, .f32⟩ : BufTy).Contents (Elt F)),
    binary main_v4 main_v42 main_v43 (mulf : (⟨S100000x64, .f32⟩ : BufTy).Contents (Elt F) → (⟨S100000x64, .f32⟩ : BufTy).Contents (Elt F) → (⟨S100000x64, .f32⟩ : BufTy).Contents (Elt F)),
    binary main_v39 main_v43 main_v44 (addf : (⟨S100000x64, .f32⟩ : BufTy).Contents (Elt F) → (⟨S100000x64, .f32⟩ : BufTy).Contents (Elt F) → (⟨S100000x64, .f32⟩ : BufTy).Contents (Elt F)),
    unary main_arg3 main_v45 (broadcastInDim S1x64 ![1] bcast_S64_S1x64_1 : (⟨S64, .f32⟩ : BufTy).Contents (Elt F) → (⟨S1x64, .f32⟩ : BufTy).Contents (Elt F)),
    unary main_v45 main_v46 (broadcastInDim S100000x64 ![0, 1] bcast_S1x64_S100000x64_0_1 : (⟨S1x64, .f32⟩ : BufTy).Contents (Elt F) → (⟨S100000x64, .f32⟩ : BufTy).Contents (Elt F)),
    binary main_v44 main_v46 main_v47 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S100000x64, .f32⟩) main_call0_v0) (broadcastInDim S100000x64 ![] bcast_S_S100000x64),
    TRef.binary (TRef.of (T := ⟨S100000x64, .f32⟩) main_v47) (TRef.of (T := ⟨S100000x64, .f32⟩) main_call0_v0) (TRef.of (T := ⟨S100000x64, .f32⟩) main_v48) maximumf,
    binary main_v48 main_arg4 main_v49 ((fun l r => Host.dotGeneral dot_S100000x64_S64x16_S100000x16_1_0_0_1_n_n none l r) : (⟨S100000x64, .f32⟩ : BufTy).Contents (Elt F) → (⟨S64x16, .f32⟩ : BufTy).Contents (Elt F) → (⟨S100000x16, .f32⟩ : BufTy).Contents (Elt F)) ]

/-- The degree normalisation once more (up to `main_v56`). -/
private abbrev ops5 : List (HloOp τ sig (Elt F)) :=
  [ nullary main_cst_8 (constant S_ .f32 0x3F800000#32),
    unary main_cst_8 main_v50 (broadcastInDim S1600000 ![] bcast_S_S1600000 : (⟨S_, .f32⟩ : BufTy).Contents (Elt F) → (⟨S1600000, .f32⟩ : BufTy).Contents (Elt F)),
    nullary main_cst_9 (constant S_ .f32 0x00000000#32),
    unary main_cst_9 main_v51 (broadcastInDim S100000 ![] bcast_S_S100000 : (⟨S_, .f32⟩ : BufTy).Contents (Elt F) → (⟨S100000, .f32⟩ : BufTy).Contents (Elt F)),
    unary main_v3 main_v52 (broadcastInDim S1600000x1 ![0] bcast_S1600000_S1600000x1_0 : (⟨S1600000, .i32⟩ : BufTy).Contents (Elt F) → (⟨S1600000x1, .i32⟩ : BufTy).Contents (Elt F)),
    ternary main_v51 main_v52 main_v50 main_v53 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_10 (constant S_ .f32 0x3F800000#32),
    unary main_cst_10 main_v54 (broadcastInDim S100000 ![] bcast_S_S100000 : (⟨S_, .f32⟩ : BufTy).Contents (Elt F) → (⟨S100000, .f32⟩ : BufTy).Contents (Elt F)),
    binary main_v53 main_v54 main_v55 (addf : (⟨S100000, .f32⟩ : BufTy).Contents (Elt F) → (⟨S100000, .f32⟩ : BufTy).Contents (Elt F) → (⟨S100000, .f32⟩ : BufTy).Contents (Elt F)),
    unary main_v55 main_v56 (Host.rsqrt : (⟨S100000, .f32⟩ : BufTy).Contents (Elt F) → (⟨S100000, .f32⟩ : BufTy).Contents (Elt F)) ]

/-- The edge weights of layer 2 (up to `main_v71`). -/
private abbrev ops6 : List (HloOp τ sig (Elt F)) :=
  [ nullary main_c_11 (constantI S_ 32 0#32),
    unary main_c_11 main_v57 (broadcastInDim S1600000 ![] bcast_S_S1600000 : (⟨S_, .i32⟩ : BufTy).Contents (Elt F) → (⟨S1600000, .i32⟩ : BufTy).Contents (Elt F)),
    binary main_v1 main_v57 main_v58 (cmpi .slt : (⟨S1600000, .i32⟩ : BufTy).Contents (Elt F) → (⟨S1600000, .i32⟩ : BufTy).Contents (Elt F) → (⟨S1600000, .i1⟩ : BufTy).Contents (Elt F)),
    nullary main_c_12 (constantI S_ 32 100000#32),
    unary main_c_12 main_v59 (broadcastInDim S1600000 ![] bcast_S_S1600000 : (⟨S_, .i32⟩ : BufTy).Contents (Elt F) → (⟨S1600000, .i32⟩ : BufTy).Contents (Elt F)),
    binary main_v1 main_v59 main_v60 (addi : (⟨S1600000, .i32⟩ : BufTy).Contents (Elt F) → (⟨S1600000, .i32⟩ : BufTy).Contents (Elt F) → (⟨S1600000, .i32⟩ : BufTy).Contents (Elt F)),
    ternary main_v58 main_v60 main_v1 main_v61 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v61 main_v62 (broadcastInDim S1600000x1 ![0] bcast_S1600000_S1600000x1_0 : (⟨S1600000, .i32⟩ : BufTy).Contents (Elt F) → (⟨S1600000x1, .i32⟩ : BufTy).Contents (Elt F)),
    binary main_v56 main_v62 main_v63 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_13 (constantI S_ 32 0#32),
    unary main_c_13 main_v64 (broadcastInDim S1600000 ![] bcast_S_S1600000 : (⟨S_, .i32⟩ : BufTy).Contents (Elt F) → (⟨S1600000, .i32⟩ : BufTy).Contents (Elt F)),
    binary main_v3 main_v64 main_v65 (cmpi .slt : (⟨S1600000, .i32⟩ : BufTy).Contents (Elt F) → (⟨S1600000, .i32⟩ : BufTy).Contents (Elt F) → (⟨S1600000, .i1⟩ : BufTy).Contents (Elt F)),
    nullary main_c_14 (constantI S_ 32 100000#32),
    unary main_c_14 main_v66 (broadcastInDim S1600000 ![] bcast_S_S1600000 : (⟨S_, .i32⟩ : BufTy).Contents (Elt F) → (⟨S1600000, .i32⟩ : BufTy).Contents (Elt F)),
    binary main_v3 main_v66 main_v67 (addi : (⟨S1600000, .i32⟩ : BufTy).Contents (Elt F) → (⟨S1600000, .i32⟩ : BufTy).Contents (Elt F) → (⟨S1600000, .i32⟩ : BufTy).Contents (Elt F)),
    ternary main_v65 main_v67 main_v3 main_v68 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v68 main_v69 (broadcastInDim S1600000x1 ![0] bcast_S1600000_S1600000x1_0 : (⟨S1600000, .i32⟩ : BufTy).Contents (Elt F) → (⟨S1600000x1, .i32⟩ : BufTy).Contents (Elt F)),
    binary main_v56 main_v69 main_v70 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v63 main_v70 main_v71 (mulf : (⟨S1600000, .f32⟩ : BufTy).Contents (Elt F) → (⟨S1600000, .f32⟩ : BufTy).Contents (Elt F) → (⟨S1600000, .f32⟩ : BufTy).Contents (Elt F)) ]

/-- Layer 2's messages and their sum at the destinations (up to `main_v84`). -/
private abbrev ops7 : List (HloOp τ sig (Elt F)) :=
  [ nullary main_c_15 (constantI S_ 32 0#32),
    unary main_c_15 main_v72 (broadcastInDim S1600000 ![] bcast_S_S1600000 : (⟨S_, .i32⟩ : BufTy).Contents (Elt F) → (⟨S1600000, .i32⟩ : BufTy).Contents (Elt F)),
    binary main_v1 main_v72 main_v73 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v74 (broadcastInDim S1600000 ![] bcast_S_S1600000 : (⟨S_, .i32⟩ : BufTy).Contents (Elt F) → (⟨S1600000, .i32⟩ : BufTy).Contents (Elt F)),
    binary main_v1 main_v74 main_v75 (addi : (⟨S1600000, .i32⟩ : BufTy).Contents (Elt F) → (⟨S1600000, .i32⟩ : BufTy).Contents (Elt F) → (⟨S1600000, .i32⟩ : BufTy).Contents (Elt F)),
    ternary main_v73 main_v75 main_v1 main_v76 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v76 main_v77 (broadcastInDim S1600000x1 ![0] bcast_S1600000_S1600000x1_0 : (⟨S1600000, .i32⟩ : BufTy).Contents (Elt F) → (⟨S1600000x1, .i32⟩ : BufTy).Contents (Elt F)),
    binary main_v49 main_v77 main_v78 ((fun x i => Host.gather gather_S100000x16_S1600000x1_S1600000x16_1_0_n_n_0_1_116 x i) : (⟨S100000x16, .f32⟩ : BufTy).Contents (Elt F) → (⟨S1600000x1, .i32⟩ : BufTy).Contents (Elt F) → (⟨S1600000x16, .f32⟩ : BufTy).Contents (Elt F)),
    unary main_v71 main_v79 (broadcastInDim S1600000x1 ![0] bcast_S1600000_S1600000x1_0 : (⟨S1600000, .f32⟩ : BufTy).Contents (Elt F) → (⟨S1600000x1, .f32⟩ : BufTy).Contents (Elt F)),
    unary main_v79 main_v80 (broadcastInDim S1600000x16 ![0, 1] bcast_S1600000x1_S1600000x16_0_1 : (⟨S1600000x1, .f32⟩ : BufTy).Contents (Elt F) → (⟨S1600000x16, .f32⟩ : BufTy).Contents (Elt F)),
    binary main_v78 main_v80 main_v81 (mulf : (⟨S1600000x16, .f32⟩ : BufTy).Contents (Elt F) → (⟨S1600000x16, .f32⟩ : BufTy).Contents (Elt F) → (⟨S1600000x16, .f32⟩ : BufTy).Contents (Elt F)),
    nullary main_cst_17 (constant S_ .f32 0x00000000#32),
    unary main_cst_17 main_v82 (broadcastInDim S100000x16 ![] bcast_S_S100000x16 : (⟨S_, .f32⟩ : BufTy).Contents (Elt F) → (⟨S100000x16, .f32⟩ : BufTy).Contents (Elt F)),
    unary main_v3 main_v83 (broadcastInDim S1600000x1 ![0] bcast_S1600000_S1600000x1_0 : (⟨S1600000, .i32⟩ : BufTy).Contents (Elt F) → (⟨S1600000x1, .i32⟩ : BufTy).Contents (Elt F)),
    ternary main_v82 main_v83 main_v81 main_v84 ((fun x i u => Host.scatterAdd scatter_S100000x16_S1600000x1_S1600000x16_1_0_0_1 x i u) : (⟨S100000x16, .f32⟩ : BufTy).Contents (Elt F) → (⟨S1600000x1, .i32⟩ : BufTy).Contents (Elt F) → (⟨S1600000x16, .f32⟩ : BufTy).Contents (Elt F) → (⟨S100000x16, .f32⟩ : BufTy).Contents (Elt F)) ]

/-- Layer 2's self term and bias (up to `main_v92`). -/
private abbrev ops8 : List (HloOp τ sig (Elt F)) :=
  [ binary main_v56 main_v56 main_v85 (mulf : (⟨S100000, .f32⟩ : BufTy).Contents (Elt F) → (⟨S100000, .f32⟩ : BufTy).Contents (Elt F) → (⟨S100000, .f32⟩ : BufTy).Contents (Elt F)),
    unary main_v85 main_v86 (broadcastInDim S100000x1 ![0] bcast_S100000_S100000x1_0 : (⟨S100000, .f32⟩ : BufTy).Contents (Elt F) → (⟨S100000x1, .f32⟩ : BufTy).Contents (Elt F)),
    unary main_v86 main_v87 (broadcastInDim S100000x16 ![0, 1] bcast_S100000x1_S100000x16_0_1 : (⟨S100000x1, .f32⟩ : BufTy).Contents (Elt F) → (⟨S100000x16, .f32⟩ : BufTy).Contents (Elt F)),
    binary main_v49 main_v87 main_v88 (mulf : (⟨S100000x16, .f32⟩ : BufTy).Contents (Elt F) → (⟨S100000x16, .f32⟩ : BufTy).Contents (Elt F) → (⟨S100000x16, .f32⟩ : BufTy).Contents (Elt F)),
    binary main_v84 main_v88 main_v89 (addf : (⟨S100000x16, .f32⟩ : BufTy).Contents (Elt F) → (⟨S100000x16, .f32⟩ : BufTy).Contents (Elt F) → (⟨S100000x16, .f32⟩ : BufTy).Contents (Elt F)),
    unary main_arg5 main_v90 (broadcastInDim S1x16 ![1] bcast_S16_S1x16_1 : (⟨S16, .f32⟩ : BufTy).Contents (Elt F) → (⟨S1x16, .f32⟩ : BufTy).Contents (Elt F)),
    unary main_v90 main_v91 (broadcastInDim S100000x16 ![0, 1] bcast_S1x16_S100000x16_0_1 : (⟨S1x16, .f32⟩ : BufTy).Contents (Elt F) → (⟨S100000x16, .f32⟩ : BufTy).Contents (Elt F)),
    binary main_v89 main_v91 main_v92 (addf : (⟨S100000x16, .f32⟩ : BufTy).Contents (Elt F) → (⟨S100000x16, .f32⟩ : BufTy).Contents (Elt F) → (⟨S100000x16, .f32⟩ : BufTy).Contents (Elt F)) ]

/-- The row-wise log-softmax (up to the result `main_v93`). -/
private abbrev ops9 : List (HloOp τ sig (Elt F)) :=
  [ TRef.nullary (TRef.of (T := ⟨S_, .f32⟩) main_call1_cst) (constant S_ .f32 0xFF800000#32),
    TRef.binary (TRef.of (T := ⟨S100000x16, .f32⟩) main_v92) (TRef.of (T := ⟨S_, .f32⟩) main_call1_cst) (TRef.of (T := ⟨S100000, .f32⟩) main_call1_v0) (fun x v => Host.reduce FloatOps.maximumf x v reducesTo_S100000x16_S100000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S100000, .f32⟩) main_call1_v1) (broadcastInDim S100000 ![] bcast_S_S100000),
    TRef.binary (TRef.of (T := ⟨S100000, .f32⟩) main_call1_v1) (TRef.of (T := ⟨S100000, .f32⟩) main_call1_v0) (TRef.of (T := ⟨S100000, .f32⟩) main_call1_v2) maximumf,
    TRef.unary (TRef.of (T := ⟨S100000, .f32⟩) main_call1_v2) (TRef.of (T := ⟨S100000x1, .f32⟩) main_call1_v3) (broadcastInDim S100000x1 ![0] bcast_S100000_S100000x1_0),
    TRef.unary (TRef.of (T := ⟨S100000x1, .f32⟩) main_call1_v3) (TRef.of (T := ⟨S100000x16, .f32⟩) main_call1_v4) (broadcastInDim S100000x16 ![0, 1] bcast_S100000x1_S100000x16_0_1),
    TRef.binary (TRef.of (T := ⟨S100000x16, .f32⟩) main_v92) (TRef.of (T := ⟨S100000x16, .f32⟩) main_call1_v4) (TRef.of (T := ⟨S100000x16, .f32⟩) main_call1_v5) subf,
    TRef.unary (TRef.of (T := ⟨S100000x16, .f32⟩) main_call1_v5) (TRef.of (T := ⟨S100000x16, .f32⟩) main_call1_v6) Host.exp,
    TRef.nullary (TRef.of (T := ⟨S_, .f32⟩) main_call1_cst_1) (constant S_ .f32 0x00000000#32),
    TRef.binary (TRef.of (T := ⟨S100000x16, .f32⟩) main_call1_v6) (TRef.of (T := ⟨S_, .f32⟩) main_call1_cst_1) (TRef.of (T := ⟨S100000, .f32⟩) main_call1_v7) (fun x v => Host.reduceAdd x v reducesTo_S100000x16_S100000_d1 h_S_),
    TRef.unary (TRef.of (T := ⟨S100000, .f32⟩) main_call1_v7) (TRef.of (T := ⟨S100000x1, .f32⟩) main_call1_v8) (broadcastInDim S100000x1 ![0] bcast_S100000_S100000x1_0),
    TRef.unary (TRef.of (T := ⟨S100000x1, .f32⟩) main_call1_v8) (TRef.of (T := ⟨S100000x1, .f32⟩) main_call1_v9) Host.log,
    TRef.unary (TRef.of (T := ⟨S100000x1, .f32⟩) main_call1_v9) (TRef.of (T := ⟨S100000x16, .f32⟩) main_call1_v10) (broadcastInDim S100000x16 ![0, 1] bcast_S100000x1_S100000x16_0_1),
    TRef.binary (TRef.of (T := ⟨S100000x16, .f32⟩) main_call1_v5) (TRef.of (T := ⟨S100000x16, .f32⟩) main_call1_v10) (TRef.of (T := ⟨S100000x16, .f32⟩) main_v93) subf ]

/-- The operation list is its nine stretches in order. -/
private theorem ops_eq : Cert.ReferenceIdeal.ValueP.ops (F := F)
    = ops1 ++ (ops2 ++ (ops3 ++ (ops4 ++ (ops5 ++ (ops6 ++ (ops7 ++ (ops8 ++ ops9))))))) := rfl

/-! ## What the buffers read later hold at each cut -/

variable (U : Valuation τ sig (Elt F))
  (x0 : (⟨S100000x128, .f32⟩ : BufTy).Contents (Elt F)) (x1 : (⟨S2x1600000, .i32⟩ : BufTy).Contents (Elt F))
  (x2 : (⟨S128x64, .f32⟩ : BufTy).Contents (Elt F)) (x3 : (⟨S64, .f32⟩ : BufTy).Contents (Elt F))
  (x4 : (⟨S64x16, .f32⟩ : BufTy).Contents (Elt F)) (x5 : (⟨S16, .f32⟩ : BufTy).Contents (Elt F))

/-- After `main_v11`: the edges' rows, the first product, the normalisation; the arguments still to be read. -/
private structure At1 : Prop where
  v1 : U (Proc.devRef .tc main_v1) = val_main_v1 (F := F) x1
  v3 : U (Proc.devRef .tc main_v3) = val_main_v3 (F := F) x1
  v4 : U (Proc.devRef .tc main_v4) = val_main_v4 (F := F) x0 x2
  v11 : U (Proc.devRef .tc main_v11) = val_main_v11 (F := F) x1
  a3 : U (Proc.devRef .tc main_arg3) = x3
  a4 : U (Proc.devRef .tc main_arg4) = x4
  a5 : U (Proc.devRef .tc main_arg5) = x5

/-- After `main_v26`: also layer 1's edge weights. -/
private structure At2 : Prop where
  v1 : U (Proc.devRef .tc main_v1) = val_main_v1 (F := F) x1
  v3 : U (Proc.devRef .tc main_v3) = val_main_v3 (F := F) x1
  v4 : U (Proc.devRef .tc main_v4) = val_main_v4 (F := F) x0 x2
  v11 : U (Proc.devRef .tc main_v11) = val_main_v11 (F := F) x1
  v26 : U (Proc.devRef .tc main_v26) = val_main_v26 (F := F) x1
  a3 : U (Proc.devRef .tc main_arg3) = x3
  a4 : U (Proc.devRef .tc main_arg4) = x4
  a5 : U (Proc.devRef .tc main_arg5) = x5

/-- After `main_v39`: layer 1's aggregate in place of the edge weights. -/
private structure At3 : Prop where
  v1 : U (Proc.devRef .tc main_v1) = val_main_v1 (F := F) x1
  v3 : U (Proc.devRef .tc main_v3) = val_main_v3 (F := F) x1
  v4 : U (Proc.devRef .tc main_v4) = val_main_v4 (F := F) x0 x2
  v11 : U (Proc.devRef .tc main_v11) = val_main_v11 (F := F) x1
  v39 : U (Proc.devRef .tc main_v39) = val_main_v39 (F := F) x0 x1 x2
  a3 : U (Proc.devRef .tc main_arg3) = x3
  a4 : U (Proc.devRef .tc main_arg4) = x4
  a5 : U (Proc.devRef .tc main_arg5) = x5

/-- After `main_v49`: the edges' rows and the second product. -/
private structure At4 : Prop where
  v1 : U (Proc.devRef .tc main_v1) = val_main_v1 (F := F) x1
  v3 : U (Proc.devRef .tc main_v3) = val_main_v3 (F := F) x1
  v49 : U (Proc.devRef .tc main_v49) = val_main_v49 (F := F) x0 x1 x2 x3 x4
  a5 : U (Proc.devRef .tc main_arg5) = x5

/-- After `main_v56`: also the normalisation, computed again. -/
private structure At5 : Prop where
  v1 : U (Proc.devRef .tc main_v1) = val_main_v1 (F := F) x1
  v3 : U (Proc.devRef .tc main_v3) = val_main_v3 (F := F) x1
  v49 : U (Proc.devRef .tc main_v49) = val_main_v49 (F := F) x0 x1 x2 x3 x4
  v56 : U (Proc.devRef .tc main_v56) = val_main_v56 (F := F) x1
  a5 : U (Proc.devRef .tc main_arg5) = x5

/-- After `main_v71`: also layer 2's edge weights. -/
private structure At6 : Prop where
  v1 : U (Proc.devRef .tc main_v1) = val_main_v1 (F := F) x1
  v3 : U (Proc.devRef .tc main_v3) = val_main_v3 (F := F) x1
  v49 : U (Proc.devRef .tc main_v49) = val_main_v49 (F := F) x0 x1 x2 x3 x4
  v56 : U (Proc.devRef .tc main_v56) = val_main_v56 (F := F) x1
  v71 : U (Proc.devRef .tc main_v71) = val_main_v71 (F := F) x1
  a5 : U (Proc.devRef .tc main_arg5) = x5

/-- After `main_v84`: the second product, the normalisation and layer 2's aggregate. -/
private structure At7 : Prop where
  v49 : U (Proc.devRef .tc main_v49) = val_main_v49 (F := F) x0 x1 x2 x3 x4
  v56 : U (Proc.devRef .tc main_v56) = val_main_v56 (F := F) x1
  v84 : U (Proc.devRef .tc main_v84) = val_main_v84 (F := F) x0 x1 x2 x3 x4
  a5 : U (Proc.devRef .tc main_arg5) = x5

variable {U x0 x1 x2 x3 x4 x5}

/-! ## Each stretch carries one record to the next -/

/-- From any contents, with the six arguments named by what the contents hold at their buffers. -/
private theorem step1 (U : Valuation τ sig (Elt F)) :
    At1 (after ops1 U) (U (Proc.devRef .tc main_arg0)) (U (Proc.devRef .tc main_arg1)) (U (Proc.devRef .tc main_arg2))
      (U (Proc.devRef .tc main_arg3)) (U (Proc.devRef .tc main_arg4)) (U (Proc.devRef .tc main_arg5)) where
  v1 := by after_results; rfl
  v3 := by after_results; rfl
  v4 := by after_results; rfl
  v11 := by after_results; rfl
  a3 := by after_results
  a4 := by after_results
  a5 := by after_results

set_option maxHeartbeats 1000000 in
private theorem step2 (h : At1 U x0 x1 x2 x3 x4 x5) : At2 (after ops2 U) x0 x1 x2 x3 x4 x5 where
  v1 := by after_results; exact h.v1
  v3 := by after_results; exact h.v3
  v4 := by after_results; exact h.v4
  v11 := by after_results; exact h.v11
  v26 := by after_results_simp; rw [h.v1, h.v3, h.v11]; rfl
  a3 := by after_results; exact h.a3
  a4 := by after_results; exact h.a4
  a5 := by after_results; exact h.a5

set_option maxHeartbeats 1000000 in
private theorem step3 (h : At2 U x0 x1 x2 x3 x4 x5) : At3 (after ops3 U) x0 x1 x2 x3 x4 x5 where
  v1 := by after_results; exact h.v1
  v3 := by after_results; exact h.v3
  v4 := by after_results; exact h.v4
  v11 := by after_results; exact h.v11
  v39 := by after_results_simp; rw [h.v1, h.v3, h.v4, h.v26]; rfl
  a3 := by after_results; exact h.a3
  a4 := by after_results; exact h.a4
  a5 := by after_results; exact h.a5

private theorem step4 (h : At3 U x0 x1 x2 x3 x4 x5) : At4 (after ops4 U) x0 x1 x2 x3 x4 x5 where
  v1 := by after_results; exact h.v1
  v3 := by after_results; exact h.v3
  v49 := by after_results; rw [h.v4, h.v11, h.v39, h.a3, h.a4]; rfl
  a5 := by after_results; exact h.a5

private theorem step5 (h : At4 U x0 x1 x2 x3 x4 x5) : At5 (after ops5 U) x0 x1 x2 x3 x4 x5 where
  v1 := by after_results; exact h.v1
  v3 := by after_results; exact h.v3
  v49 := by after_results; exact h.v49
  v56 := by after_results; rw [h.v3]; rfl
  a5 := by after_results; exact h.a5

set_option maxHeartbeats 1000000 in
private theorem step6 (h : At5 U x0 x1 x2 x3 x4 x5) : At6 (after ops6 U) x0 x1 x2 x3 x4 x5 where
  v1 := by after_results; exact h.v1
  v3 := by after_results; exact h.v3
  v49 := by after_results; exact h.v49
  v56 := by after_results; exact h.v56
  v71 := by after_results_simp; rw [h.v1, h.v3, h.v56]; rfl
  a5 := by after_results; exact h.a5

set_option maxHeartbeats 1000000 in
private theorem step7 (h : At6 U x0 x1 x2 x3 x4 x5) : At7 (after ops7 U) x0 x1 x2 x3 x4 x5 where
  v49 := by after_results; exact h.v49
  v56 := by after_results; exact h.v56
  v84 := by after_results_simp; rw [h.v1, h.v3, h.v49, h.v71]; rfl
  a5 := by after_results; exact h.a5

private theorem step8 (h : At7 U x0 x1 x2 x3 x4 x5) :
    after ops8 U (Proc.devRef .tc main_v92) = val_main_v92 (F := F) x0 x1 x2 x3 x4 x5 := by
  after_results; rw [h.v49, h.v56, h.v84, h.a5]; rfl

/-- Moving a value to an equal type and back is the identity. -/
private theorem cast_cast_cancel {α β : Sort _} (p : α = β) (q : β = α) (a : α) : cast q (cast p a) = a := by
  cases p; rfl

/-- The log-softmax is a called function: its operations name their buffers with the type of the tensor they hold,
    and move contents between that type and the buffer's own, which for these literal buffers is the same type. -/
private theorem ofBuf_v92 (v : (⟨S100000x16, .f32⟩ : BufTy).Contents (Elt F)) :
    (TRef.of (T := ⟨S100000x16, .f32⟩) main_v92).ofBuf (Val := Elt F) v = v := rfl
private theorem toBuf_v93 (v : (⟨S100000x16, .f32⟩ : BufTy).Contents (Elt F)) :
    (TRef.of (T := ⟨S100000x16, .f32⟩) main_v93).toBuf (Val := Elt F) v = v := rfl

set_option maxHeartbeats 1000000 in
private theorem step9 (h : U (Proc.devRef .tc main_v92) = val_main_v92 (F := F) x0 x1 x2 x3 x4 x5) :
    after ops9 U (Proc.devRef .tc main_v93) = val_main_v93 (F := F) x0 x1 x2 x3 x4 x5 := by
  after_results
  rw [h]
  simp only [cast_cast_cancel, ofBuf_v92, toBuf_v93]
  rfl

end Stretches

/-- The fold of @main's operations at the result buffer is the composed stage function of the arguments. -/
theorem result (V : Valuation τ sig (Elt F)) :
    after (Cert.ReferenceIdeal.ValueP.ops (F := F)) V (Proc.devRef .tc main_v93)
      = Cert.ReferenceIdeal.ReadP.val_main_v93 (F := F) (V (Proc.devRef .tc main_arg0)) (V (Proc.devRef .tc main_arg1))
          (V (Proc.devRef .tc main_arg2)) (V (Proc.devRef .tc main_arg3)) (V (Proc.devRef .tc main_arg4)) (V (Proc.devRef .tc main_arg5)) := by
  rw [ops_eq, after_append, after_append, after_append, after_append, after_append, after_append, after_append, after_append]
  exact step9 (step8 (step7 (step6 (step5 (step4 (step3 (step2 (step1 V))))))))

end Cert.ReferenceIdeal.Fold

end
-- ==== Proof.LibRowOps.lean ====
/-
  Row scatter-add and row gather, read at an index and compared across two operand heights.

  A scatter-add of rows into an array of N rows (scatter indices [E, 1], one node index per update row; jax's
  segment_sum and x.at[idx].add(u)) adds update row e to operand row idx[e] when 0 ≤ idx[e] < N, read as a signed
  integer, and drops it otherwise; a gather of rows (x[idx]) reads operand row idx[e] clamped into [0, N − 1].
  Hence, when every index lies in [0, N') with N' ≤ N, both operations on an N-row array and on an N'-row array
  whose rows are the first N' rows of the former agree: the gathers everywhere, the scatters on the first N' rows.
-/
import Idealize.ShloMosaic.PureOps.Ideal
import Idealize.ShloMosaic.Lib.ValueIdx

noncomputable section

namespace Cert.Lib.RowOps

open Idealize.ShloMosaic Idealize.ShloMosaic.ValueIdx

/-- Scatter rows of a vector: operand [N], scatter indices [E, 1], updates [E]. -/
abbrev scat1 (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- Scatter rows of a matrix: operand [N, D], scatter indices [E, 1], updates [E, D]. -/
abbrev scat2 (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- Gather entries of a vector: operand [N], start indices [E, 1], result [E]. -/
abbrev gath1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Gather rows of a matrix: operand [N, D], start indices [E, 1], result [E, D]. -/
abbrev gath2 (N D E : Nat) (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Every index of the column lies in [0, M). -/
def InRange {E w : Nat} (idx : IVec ⟨2, ![E, 1]⟩ w) (M : Nat) : Prop :=
  ∀ e : Fin E, 0 ≤ (idx (ix2 e (0 : Fin 1))).toInt ∧ (idx (ix2 e (0 : Fin 1))).toInt < (M : Int)

/-- The first N' entries of a agree with b. -/
def Agree1 {α : Type} {N N' : Nat} (h : N' ≤ N) (a : (⟨1, ![N]⟩ : Shape).Idx → α) (b : (⟨1, ![N']⟩ : Shape).Idx → α) : Prop :=
  ∀ n : Fin N', a (ix1 ⟨n.val, lt_of_lt_of_le n.isLt h⟩) = b (ix1 n)

/-- The first N' rows of A agree with B. -/
def Agree2 {α : Type} {N N' D : Nat} (h : N' ≤ N) (A : (⟨2, ![N, D]⟩ : Shape).Idx → α) (B : (⟨2, ![N', D]⟩ : Shape).Idx → α) : Prop :=
  ∀ (n : Fin N') (c : Fin D), A (ix2 ⟨n.val, lt_of_lt_of_le n.isLt h⟩ c) = B (ix2 n c)

/-! ## Read at an index -/

/-- Where an update lands: the operand index whose every coordinate is the start plus the window coordinate. -/
private theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split_ifs with h
  · rw [Option.some.injEq]
    constructor
    · rintro rfl a
      have := (h a).1
      simp only [Int.toNat_of_nonneg this]
    · intro hh
      funext a
      refine Fin.ext ?_
      simp only [hh a, Int.toNat_natCast]
  · constructor
    · intro hh; cases hh
    · intro hh
      exfalso
      apply h
      intro a
      rw [hh a]
      exact ⟨Int.natCast_nonneg _, by exact_mod_cast (i a).isLt⟩

section Scat2
variable {N D E w : Nat} (wf : ScatterDims.WF ⟨2, ![N, D]⟩ ⟨2, ![E, 1]⟩ ⟨2, ![E, D]⟩ [1] [0] [0] 1)

/-- The scattered axis reads the index column, signed. -/
private theorem scat2_start0 (j : (⟨2, ![E, D]⟩ : Shape).Idx) (idx : IVec ⟨2, ![E, 1]⟩ w) :
    (scat2 N D E wf).start j idx 0 = (idx (ix2 (j 0) (0 : Fin 1))).toInt := by
  unfold ScatterDims.start
  rw [dif_pos (show (0 : Fin 2) ∈ (scat2 N D E wf).scatterDimsToOperandDims from List.mem_singleton.mpr rfl)]
  have hsi : (scat2 N D E wf).siIdx j ⟨List.idxOf (0 : Fin 2) (scat2 N D E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The column axis is not scattered: its start is 0. -/
private theorem scat2_start1 (j : (⟨2, ![E, D]⟩ : Shape).Idx) (idx : IVec ⟨2, ![E, 1]⟩ w) :
    (scat2 N D E wf).start j idx 1 = 0 := by
  unfold ScatterDims.start
  rw [dif_neg (show ¬ (1 : Fin 2) ∈ (scat2 N D E wf).scatterDimsToOperandDims by simp)]

/-- The row axis is inserted: no window coordinate. -/
private theorem scat2_window0 (j : (⟨2, ![E, D]⟩ : Shape).Idx) :
    (scat2 N D E wf).window j 0 = 0 := by
  unfold ScatterDims.window
  rw [dif_neg (show ¬ (0 : Fin 2) ∈ (scat2 N D E wf).sKept by simp [ScatterDims.sKept, Shape.kept])]

/-- The column axis is the window axis: its coordinate is the update's column. -/
private theorem scat2_window1 (j : (⟨2, ![E, D]⟩ : Shape).Idx) :
    (scat2 N D E wf).window j 1 = (j 1).val := by
  unfold ScatterDims.window
  rw [dif_pos (show (1 : Fin 2) ∈ (scat2 N D E wf).sKept by simp [ScatterDims.sKept, Shape.kept])]
  rfl

/-- Update (e, c') lands on (n, c) exactly when its index, read signed, is n and the columns agree. -/
private theorem scat2_lands (e : Fin E) (c' : Fin D) (n : Fin N) (c : Fin D) (idx : IVec ⟨2, ![E, 1]⟩ w) :
    (scat2 N D E wf).resultIdx? (ix2 e c') idx = some (ix2 n c)
      ↔ (idx (ix2 e (0 : Fin 1))).toInt = (n.val : Int) ∧ c' = c := by
  rw [resultIdx?_eq_some_iff]
  constructor
  · intro hh
    have h0 := hh 0
    have h1 := hh 1
    rw [scat2_start0, scat2_window0] at h0
    rw [scat2_start1, scat2_window1] at h1
    have h0' : (idx (ix2 e (0 : Fin 1))).toInt + ((0 : Nat) : Int) = (n.val : Int) := h0
    have h1' : (0 : Int) + ((c'.val : Nat) : Int) = (c.val : Int) := h1
    refine ⟨by simpa using h0', Fin.ext ?_⟩
    omega
  · rintro ⟨e0, rfl⟩ a
    match a with
    | ⟨0, _⟩ =>
      show (scat2 N D E wf).start (ix2 e c') idx 0 + ((scat2 N D E wf).window (ix2 e c') 0 : Int) = (n.val : Int)
      rw [scat2_start0, scat2_window0]
      show (idx (ix2 e (0 : Fin 1))).toInt + ((0 : Nat) : Int) = (n.val : Int)
      simpa using e0
    | ⟨1, _⟩ =>
      show (scat2 N D E wf).start (ix2 e c') idx 1 + ((scat2 N D E wf).window (ix2 e c') 1 : Int) = (c'.val : Int)
      rw [scat2_start1, scat2_window1]
      show (0 : Int) + ((c'.val : Nat) : Int) = (c'.val : Int)
      simp

end Scat2

/-- A sum over a rank-1 index set is the sum over its coordinate. -/
private theorem sum_idx1 {M : Type*} [AddCommMonoid M] {n : Nat} (f : (⟨1, ![n]⟩ : Shape).Idx → M) :
    ∑ i, f i = ∑ a : Fin n, f (ix1 a) :=
  Fintype.sum_equiv ⟨fun i => i 0, fun a => ix1 a, fun i => (eq_ix1 i).symm, fun _ => rfl⟩ _ _
    (fun i => congrArg f (eq_ix1 i))

section Scat1
variable {N E w : Nat} (wf : ScatterDims.WF ⟨1, ![N]⟩ ⟨2, ![E, 1]⟩ ⟨1, ![E]⟩ [] [0] [0] 1)

/-- The scattered axis reads the index column, signed. -/
private theorem scat1_start0 (j : (⟨1, ![E]⟩ : Shape).Idx) (idx : IVec ⟨2, ![E, 1]⟩ w) :
    (scat1 N E wf).start j idx 0 = (idx (ix2 (j 0) (0 : Fin 1))).toInt := by
  unfold ScatterDims.start
  rw [dif_pos (show (0 : Fin 1) ∈ (scat1 N E wf).scatterDimsToOperandDims from List.mem_singleton.mpr rfl)]
  have hsi : (scat1 N E wf).siIdx j ⟨List.idxOf (0 : Fin 1) (scat1 N E wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The one operand axis is inserted: no window coordinate. -/
private theorem scat1_window0 (j : (⟨1, ![E]⟩ : Shape).Idx) :
    (scat1 N E wf).window j 0 = 0 := by
  unfold ScatterDims.window
  rw [dif_neg (show ¬ (0 : Fin 1) ∈ (scat1 N E wf).sKept by simp [ScatterDims.sKept, Shape.kept])]

/-- Update e lands on entry n exactly when its index, read signed, is n. -/
private theorem scat1_lands (e : Fin E) (n : Fin N) (idx : IVec ⟨2, ![E, 1]⟩ w) :
    (scat1 N E wf).resultIdx? (ix1 e) idx = some (ix1 n) ↔ (idx (ix2 e (0 : Fin 1))).toInt = (n.val : Int) := by
  rw [resultIdx?_eq_some_iff]
  constructor
  · intro hh
    have h0 := hh 0
    rw [scat1_start0, scat1_window0] at h0
    have h0' : (idx (ix2 e (0 : Fin 1))).toInt + ((0 : Nat) : Int) = (n.val : Int) := h0
    simpa using h0'
  · intro e0 a
    obtain rfl : a = 0 := Subsingleton.elim _ _
    rw [scat1_start0, scat1_window0]
    show (idx (ix2 e (0 : Fin 1))).toInt + ((0 : Nat) : Int) = (n.val : Int)
    simpa using e0

end Scat1

theorem scat1_apply {N E w : Nat} (wf) (x : (⟨1, ![N]⟩ : Shape).Idx → EReal) (idx : IVec ⟨2, ![E, 1]⟩ w)
    (upd : (⟨1, ![E]⟩ : Shape).Idx → EReal) (n : Fin N) :
    Ideal.hostScatterAdd (scat1 N E wf) x idx upd (ix1 n)
      = x (ix1 n) + ∑ e ∈ Finset.univ.filter (fun e : Fin E => (idx (ix2 e (0 : Fin 1))).toInt = (n.val : Int)), upd (ix1 e) := by
  unfold Ideal.hostScatterAdd
  congr 1
  rw [Finset.sum_filter, Finset.sum_filter, sum_idx1]
  refine Finset.sum_congr rfl fun e _ => ?_
  simp only [scat1_lands]

theorem scat2_apply {N D E w : Nat} (wf) (x : (⟨2, ![N, D]⟩ : Shape).Idx → EReal) (idx : IVec ⟨2, ![E, 1]⟩ w)
    (upd : (⟨2, ![E, D]⟩ : Shape).Idx → EReal) (n : Fin N) (c : Fin D) :
    Ideal.hostScatterAdd (scat2 N D E wf) x idx upd (ix2 n c)
      = x (ix2 n c) + ∑ e ∈ Finset.univ.filter (fun e : Fin E => (idx (ix2 e (0 : Fin 1))).toInt = (n.val : Int)), upd (ix2 e c) := by
  unfold Ideal.hostScatterAdd
  congr 1
  rw [Finset.sum_filter, Finset.sum_filter, sum_idx2]
  refine Finset.sum_congr rfl fun e _ => ?_
  simp only [scat2_lands]
  by_cases hq : (idx (ix2 e (0 : Fin 1))).toInt = (n.val : Int)
  · simp only [hq, true_and, if_true]
    rw [Finset.sum_ite_eq']
    simp
  · simp only [hq, false_and, if_false]
    simp

theorem gath1_apply {α : Type} {N E w : Nat} (hN : 0 < N) (wf) (x : (⟨1, ![N]⟩ : Shape).Idx → α) (idx : IVec ⟨2, ![E, 1]⟩ w) (e : Fin E) :
    Host.gather (gath1 N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (gath1 N E wf).start (ix1 e) idx 0 + (gath1 N E wf).batchCoord (ix1 e) 0 + (gath1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gath1 N E wf).startIndexMap from List.mem_singleton.mpr rfl)]
  have hsi : (gath1 N E wf).siIdx (ix1 e) ⟨List.idxOf (0 : Fin 1) (gath1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

theorem gath2_apply {α : Type} {N D E w : Nat} (hN : 0 < N) (wf) (x : (⟨2, ![N, D]⟩ : Shape).Idx → α) (idx : IVec ⟨2, ![E, 1]⟩ w)
    (e : Fin E) (c : Fin D) :
    Host.gather (gath2 N D E wf) x idx (ix2 e c)
      = x (ix2 ⟨min (idx (ix2 e (0 : Fin 1))).toInt.toNat (N - 1), by omega⟩ c) := by
  unfold Host.gather
  congr 1
  funext a
  refine Fin.ext ?_
  match a with
  | ⟨0, _⟩ =>
    show (gath2 N D E wf).start (ix2 e c) idx 0 + (gath2 N D E wf).batchCoord (ix2 e c) 0 + (gath2 N D E wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gath2 N D E wf).startIndexMap from List.mem_singleton.mpr rfl)]
    have hsi : (gath2 N D E wf).siIdx (ix2 e c) ⟨List.idxOf (0 : Fin 2) (gath2 N D E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (gath2 N D E wf).start (ix2 e c) idx 1 + (gath2 N D E wf).batchCoord (ix2 e c) 1 + (gath2 N D E wf).offCoord (ix2 e c) 1 = _
    rw [GatherDims.batchCoord_eq_zero _ _ _ List.not_mem_nil]
    unfold GatherDims.start
    rw [dif_neg (show ¬ (1 : Fin 2) ∈ (gath2 N D E wf).startIndexMap by simp)]
    unfold GatherDims.offCoord
    rw [dif_pos (show (1 : Fin 2) ∈ (gath2 N D E wf).sKept from (GatherDims.mem_sKept _ _).mpr ⟨by simp, List.not_mem_nil⟩)]
    simp only [Nat.zero_add]
    rfl

/-! ## Two operand heights, every index below the smaller -/

/-- An index in [0, M) with M at most K is its own clamp into [0, K − 1]. -/
private theorem clamp_eq {t : Int} {M K : Nat} (h0 : 0 ≤ t) (h1 : t < (M : Int)) (hMK : M ≤ K) :
    min t.toNat (K - 1) = t.toNat := by
  omega

theorem gath1_agree {α : Type} {N N' E w : Nat} (h : N' ≤ N) (hN' : 0 < N') (wf) (wf')
    (a : (⟨1, ![N]⟩ : Shape).Idx → α) (b : (⟨1, ![N']⟩ : Shape).Idx → α) (hab : Agree1 h a b)
    (idx : IVec ⟨2, ![E, 1]⟩ w) (hr : InRange idx N') :
    Host.gather (gath1 N E wf) a idx = Host.gather (gath1 N' E wf') b idx := by
  funext j
  obtain ⟨e, rfl⟩ : ∃ e, j = ix1 e := ⟨j 0, eq_ix1 j⟩
  rw [gath1_apply (lt_of_lt_of_le hN' h), gath1_apply hN']
  obtain ⟨h0, h1⟩ := hr e
  have key : ∀ (p q : Nat) (hp : p < N) (hq : q < N'), p = q → a (ix1 ⟨p, hp⟩) = b (ix1 ⟨q, hq⟩) := by
    intro p q hp hq hpq
    subst hpq
    exact hab ⟨p, hq⟩
  exact key _ _ _ _ ((clamp_eq h0 h1 h).trans (clamp_eq h0 h1 le_rfl).symm)

theorem gath2_agree {α : Type} {N N' D E w : Nat} (h : N' ≤ N) (hN' : 0 < N') (wf) (wf')
    (A : (⟨2, ![N, D]⟩ : Shape).Idx → α) (B : (⟨2, ![N', D]⟩ : Shape).Idx → α) (hAB : Agree2 h A B)
    (idx : IVec ⟨2, ![E, 1]⟩ w) (hr : InRange idx N') :
    Host.gather (gath2 N D E wf) A idx = Host.gather (gath2 N' D E wf') B idx := by
  funext j
  obtain ⟨e, c, rfl⟩ : ∃ e c, j = ix2 e c := ⟨j 0, j 1, eq_ix2 j⟩
  rw [gath2_apply (lt_of_lt_of_le hN' h), gath2_apply hN']
  obtain ⟨h0, h1⟩ := hr e
  have key : ∀ (p q : Nat) (hp : p < N) (hq : q < N'), p = q → A (ix2 ⟨p, hp⟩ c) = B (ix2 ⟨q, hq⟩ c) := by
    intro p q hp hq hpq
    subst hpq
    exact hAB ⟨p, hq⟩ c
  exact key _ _ _ _ ((clamp_eq h0 h1 h).trans (clamp_eq h0 h1 le_rfl).symm)

theorem scat1_agree {N N' E w : Nat} (h : N' ≤ N) (wf) (wf')
    (x : (⟨1, ![N]⟩ : Shape).Idx → EReal) (x' : (⟨1, ![N']⟩ : Shape).Idx → EReal) (hx : Agree1 h x x')
    (idx : IVec ⟨2, ![E, 1]⟩ w) (upd : (⟨1, ![E]⟩ : Shape).Idx → EReal) :
    Agree1 h (Ideal.hostScatterAdd (scat1 N E wf) x idx upd) (Ideal.hostScatterAdd (scat1 N' E wf') x' idx upd) := by
  intro n
  rw [scat1_apply, scat1_apply, hx n]

theorem scat2_agree {N N' D E w : Nat} (h : N' ≤ N) (wf) (wf')
    (x : (⟨2, ![N, D]⟩ : Shape).Idx → EReal) (x' : (⟨2, ![N', D]⟩ : Shape).Idx → EReal) (hx : Agree2 h x x')
    (idx : IVec ⟨2, ![E, 1]⟩ w) (upd : (⟨2, ![E, D]⟩ : Shape).Idx → EReal) :
    Agree2 h (Ideal.hostScatterAdd (scat2 N D E wf) x idx upd) (Ideal.hostScatterAdd (scat2 N' D E wf') x' idx upd) := by
  intro n c
  rw [scat2_apply, scat2_apply, hx n c]

end Cert.Lib.RowOps

end
-- ==== Proof.BridgeDefs.lean ====
/-
  Shared vocabulary for comparing the kernel program's 100096-row arrays with the reference's 100000-row ones.
-/
import proofs.«413348_j30863634989386_3_alg».proof.Proof.KStages
import proofs.«413348_j30863634989386_3_alg».proof.Proof.RefRead
import proofs.«413348_j30863634989386_3_alg».proof.Proof.LibRowOps
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Bridge

open Idealize.ShloMosaic Idealize.ShloMosaic.ValueIdx Cert.Lib.RowOps
open Cert.ReferenceIdeal.ReadP

variable [Cert.KernelIdeal.Facts] [Cert.ReferenceIdeal.Facts]

/-- Every node index of the edge list lies in [0, 100000). -/
def EdgesInRange (ei : IVec ⟨2, ![2, 1600000]⟩ 32) : Prop :=
  ∀ (r : Fin 2) (e : Fin 1600000), 0 ≤ (ei (ix2 r e)).toInt ∧ (ei (ix2 r e)).toInt < 100000

/-- The first 100000 rows of a 100096-row array (the kernel program's) agree with a 100000-row one (the reference's). -/
abbrev Rows {D : Nat} (A : (⟨2, ![100096, D]⟩ : Shape).Idx → EReal) (B : (⟨2, ![100000, D]⟩ : Shape).Idx → EReal) : Prop :=
  Agree2 (by decide : 100000 ≤ 100096) A B

end Cert.Bridge

end
-- ==== Proof.BridgeNorm.lean ====
/-
  The degree normalisation agrees: deg^(-1/2) on the first 100000 nodes, and every edge's weight dinv[src]·dinv[dst], when all node indices lie in [0, 100000). The reference recomputes both for its second layer; the recomputed terms are the first layer's.
-/
import proofs.«413348_j30863634989386_3_alg».proof.Proof.BridgeDefs

set_option maxRecDepth 16384

noncomputable section

namespace Cert.Bridge

open Idealize.ShloMosaic Idealize.ShloMosaic.ValueIdx Cert.Lib.RowOps
open Cert.ReferenceIdeal.ReadP
open Cert.KernelIdeal (Stage.src Stage.dst Stage.xpad Stage.wrapIdx Stage.dstCol Stage.dinv Stage.dinv2 Stage.norm Stage.agg1 Stage.agg2 Stage.b1row Stage.b2row Stage.keep Stage.lin1 Stage.fin1 Stage.lin2 Stage.fin2 Stage.rowMax Stage.lsm Stage.out)

variable [Cert.KernelIdeal.Facts] [Cert.ReferenceIdeal.Facts]

/-! ## Words: a nonnegative index is kept by the normalisation -/

/-- The signed compare "a < 0" of a word whose signed value is nonnegative is the zero bit. -/
private theorem slt_zero_of_nonneg (a : BitVec 32) (h : 0 ≤ a.toInt) : IntOp.cmpi .slt a 0#32 = 0#1 := by
  unfold IntOp.cmpi
  have hs : a.slt 0#32 = false := by
    unfold BitVec.slt
    rw [BitVec.toInt_zero]
    exact decide_eq_false (not_lt.mpr h)
  rw [hs]
  rfl

/-- select (v < 0) a v = v for a vector of nonnegative words, whatever the other branch a is. -/
private theorem select_slt_zero_keep (h0 : (⟨0, ![]⟩ : Shape).BroadcastsInDim ⟨1, ![1600000]⟩ ![]) (v a : IVec ⟨1, ![1600000]⟩ 32)
    (hv : ∀ e : Fin 1600000, 0 ≤ (v (ix1 e)).toInt) :
    select (cmpi .slt v (broadcastInDim ⟨1, ![1600000]⟩ ![] h0 (constantI ⟨0, ![]⟩ 32 0#32))) a v = v := by
  funext i
  obtain ⟨e, rfl⟩ : ∃ e : Fin 1600000, i = ix1 e := ⟨i 0, eq_ix1 i⟩
  show Scalar.select (IntOp.cmpi .slt (v (ix1 e)) 0#32) (a (ix1 e)) (v (ix1 e)) = v (ix1 e)
  rw [slt_zero_of_nonneg _ (hv e), select_zero]

/-! ## The two rows of the edge list, read at an edge -/

/-- Row 0 of the edge list at edge e. -/
private theorem src_apply (ei : IVec ⟨2, ![2, 1600000]⟩ 32) (e : Fin 1600000) :
    Cert.KernelIdeal.Stage.src (F := Ideal) ei (ix1 e) = ei (ix2 (0 : Fin 2) e) := by
  show val_main_v1 (F := Ideal) ei (ix1 e) = _
  rw [val_main_v1_apply, val_main_v0_apply]
  refine congrArg ei (funext fun a => ?_)
  match a with
  | ⟨0, _⟩ => rfl
  | ⟨1, _⟩ => exact Fin.ext (Nat.mod_eq_of_lt e.isLt)

/-- Row 1 of the edge list at edge e. -/
private theorem dst_apply (ei : IVec ⟨2, ![2, 1600000]⟩ 32) (e : Fin 1600000) :
    Cert.KernelIdeal.Stage.dst (F := Ideal) ei (ix1 e) = ei (ix2 (1 : Fin 2) e) := by
  show val_main_v3 (F := Ideal) ei (ix1 e) = _
  rw [val_main_v3_apply, val_main_v2_apply]
  refine congrArg ei (funext fun a => ?_)
  match a with
  | ⟨0, _⟩ => rfl
  | ⟨1, _⟩ => exact Fin.ext (Nat.mod_eq_of_lt e.isLt)

/-! ## The normalised index columns -/

/-- A column of indices read at an edge is the vector's entry. -/
private theorem col_apply {α : Type} (h : (⟨1, ![1600000]⟩ : Shape).BroadcastsInDim ⟨2, ![1600000, 1]⟩ ![0])
    (v : (⟨1, ![1600000]⟩ : Shape).Idx → α) (e : Fin 1600000) :
    broadcastInDim ⟨2, ![1600000, 1]⟩ ![0] h v (ix2 e (0 : Fin 1)) = v (ix1 e) :=
  broadcastInDim_apply _ h v (ix2 e (0 : Fin 1)) (ix1 e) (fun a => match a with
    | ⟨0, _⟩ => by show e.val = if (1600000 : Nat) = 1 then 0 else e.val; rw [if_neg (by decide)])

/-- The kernel program's normalisation keeps a vector of nonnegative indices. -/
private theorem wrap_keep (v : IVec ⟨1, ![1600000]⟩ 32) (hv : ∀ e : Fin 1600000, 0 ≤ (v (ix1 e)).toInt) :
    Cert.KernelIdeal.Stage.wrapIdx (F := Ideal) v
      = broadcastInDim ⟨2, ![1600000, 1]⟩ ![0] Cert.KernelIdeal.Facts₀.bcast_S1600000_S1600000x1_0 v := by
  unfold Cert.KernelIdeal.Stage.wrapIdx
  rw [select_slt_zero_keep _ v _ hv]

private theorem src_nonneg (ei : IVec ⟨2, ![2, 1600000]⟩ 32) (hr : EdgesInRange ei) (e : Fin 1600000) :
    0 ≤ (Cert.KernelIdeal.Stage.src (F := Ideal) ei (ix1 e)).toInt := by
  rw [src_apply]; exact (hr 0 e).1

private theorem dst_nonneg (ei : IVec ⟨2, ![2, 1600000]⟩ 32) (hr : EdgesInRange ei) (e : Fin 1600000) :
    0 ≤ (Cert.KernelIdeal.Stage.dst (F := Ideal) ei (ix1 e)).toInt := by
  rw [dst_apply]; exact (hr 1 e).1

/-- The reference's normalised source column (any of its three copies) is the kernel program's. -/
private theorem wrap_src_eq17 (ei : IVec ⟨2, ![2, 1600000]⟩ 32) (hr : EdgesInRange ei) :
    Cert.KernelIdeal.Stage.wrapIdx (F := Ideal) (Cert.KernelIdeal.Stage.src (F := Ideal) ei) = val_main_v17 (F := Ideal) ei := by
  rw [wrap_keep _ (src_nonneg ei hr)]
  unfold val_main_v17 val_main_v16 val_main_v13 val_main_v15 val_main_v12 val_main_c
  rw [select_slt_zero_keep _ (val_main_v1 (F := Ideal) ei) _ (src_nonneg ei hr)]
  rfl

/-- The reference's normalised destination column is the kernel program's. -/
private theorem wrap_dst_eq24 (ei : IVec ⟨2, ![2, 1600000]⟩ 32) (hr : EdgesInRange ei) :
    Cert.KernelIdeal.Stage.wrapIdx (F := Ideal) (Cert.KernelIdeal.Stage.dst (F := Ideal) ei) = val_main_v24 (F := Ideal) ei := by
  rw [wrap_keep _ (dst_nonneg ei hr)]
  unfold val_main_v24 val_main_v23 val_main_v20 val_main_v22 val_main_v19 val_main_c_3
  rw [select_slt_zero_keep _ (val_main_v3 (F := Ideal) ei) _ (dst_nonneg ei hr)]
  rfl

private theorem wrap_dst_range (ei : IVec ⟨2, ![2, 1600000]⟩ 32) (hr : EdgesInRange ei) :
    InRange (Cert.KernelIdeal.Stage.wrapIdx (F := Ideal) (Cert.KernelIdeal.Stage.dst (F := Ideal) ei)) 100000 := by
  intro e
  rw [wrap_keep _ (dst_nonneg ei hr), col_apply, dst_apply]
  have := hr 1 e
  omega

private theorem wrap_src_range' (ei : IVec ⟨2, ![2, 1600000]⟩ 32) (hr : EdgesInRange ei) :
    InRange (Cert.KernelIdeal.Stage.wrapIdx (F := Ideal) (Cert.KernelIdeal.Stage.src (F := Ideal) ei)) 100000 := by
  intro e
  rw [wrap_keep _ (src_nonneg ei hr), col_apply, src_apply]
  have := hr 0 e
  omega

/-! ## Two heights: the degree's inverse square root, and a product of two gathers -/

/-- rsqrt (scatter-add + c) on the first N' rows, when the operands and the constants agree there. -/
private theorem rsqrt_deg_agree {N N' E w : Nat} (h : N' ≤ N) (wf) (wf')
    (x c : (⟨1, ![N]⟩ : Shape).Idx → EReal) (x' c' : (⟨1, ![N']⟩ : Shape).Idx → EReal) (hx : Agree1 h x x') (hc : Agree1 h c c')
    (idx : IVec ⟨2, ![E, 1]⟩ w) (upd : (⟨1, ![E]⟩ : Shape).Idx → EReal) :
    Agree1 h (Host.rsqrt (F := Ideal) (φ := .f32) (addf (Host.scatterAdd (F := Ideal) (φ := .f32) (scat1 N E wf) x idx upd) c))
      (Host.rsqrt (F := Ideal) (φ := .f32) (addf (Host.scatterAdd (F := Ideal) (φ := .f32) (scat1 N' E wf') x' idx upd) c')) := by
  intro n
  have hs := scat1_agree h wf wf' x x' hx idx upd n
  have hcn := hc n
  show FloatOps.hostUnary (F := Ideal) (φ := .f32) .rsqrt (FloatOps.hostScatterAdd (F := Ideal) (φ := .f32) (scat1 N E wf) .single x idx upd (ix1 ⟨n.val, lt_of_lt_of_le n.isLt h⟩) + c (ix1 ⟨n.val, lt_of_lt_of_le n.isLt h⟩))
    = FloatOps.hostUnary (F := Ideal) (φ := .f32) .rsqrt (FloatOps.hostScatterAdd (F := Ideal) (φ := .f32) (scat1 N' E wf') .single x' idx upd (ix1 n) + c' (ix1 n))
  rw [Ideal.hostScatterAdd_def, Ideal.hostScatterAdd_def, hs, hcn]

/-- A product of two gathers from arrays that agree on the first N' rows, every index below N'. -/
private theorem mul_gather_agree {N N' E w : Nat} (h : N' ≤ N) (hN' : 0 < N') (wf) (wf')
    (a : (⟨1, ![N]⟩ : Shape).Idx → EReal) (b : (⟨1, ![N']⟩ : Shape).Idx → EReal) (hab : Agree1 h a b)
    (i1 i2 : IVec ⟨2, ![E, 1]⟩ w) (h1 : InRange i1 N') (h2 : InRange i2 N') :
    mulf (F := Ideal) (φ := .f32) (Host.gather (gath1 N E wf) a i1) (Host.gather (gath1 N E wf) a i2)
      = mulf (F := Ideal) (φ := .f32) (Host.gather (gath1 N' E wf') b i1) (Host.gather (gath1 N' E wf') b i2) := by
  rw [gath1_agree h hN' wf wf' a b hab i1 h1, gath1_agree h hN' wf wf' a b hab i2 h2]

/-! ## The second layer's recomputations, for any float family: the same terms -/

private theorem dinv_again' {F : FTy → Type} [FloatOps F] (ei : IVec ⟨2, ![2, 1600000]⟩ 32) :
    val_main_v56 (F := F) ei = val_main_v11 (F := F) ei := rfl
private theorem norm_again' {F : FTy → Type} [FloatOps F] (ei : IVec ⟨2, ![2, 1600000]⟩ 32) :
    val_main_v71 (F := F) ei = val_main_v26 (F := F) ei := rfl

/-! ## The agreement statements -/

/-- deg^(-1/2) of the first 100000 nodes is the reference's. -/
theorem dinv_agree (ei : IVec ⟨2, ![2, 1600000]⟩ 32) (hr : EdgesInRange ei) :
    Agree1 (by decide : 100000 ≤ 100096) (Cert.KernelIdeal.Stage.dinv (F := Ideal) ei) (val_main_v11 (F := Ideal) ei) := by
  unfold Cert.KernelIdeal.Stage.dinv val_main_v11 val_main_v10 val_main_v8
  exact rsqrt_deg_agree (by decide : 100000 ≤ 100096) _ _ _ _ _ _ (fun _ => rfl) (fun _ => rfl) _ _

/-- dinv² as a column, on the first 100000 nodes: the reference's dinv·dinv at the node. -/
theorem dinv2_agree (ei : IVec ⟨2, ![2, 1600000]⟩ 32) (hr : EdgesInRange ei) (n : Fin 100000) :
    Cert.KernelIdeal.Stage.dinv2 (F := Ideal) ei (ix2 (⟨n.val, by omega⟩ : Fin 100096) (0 : Fin 1))
      = val_main_v11 (F := Ideal) ei (ix1 n) * val_main_v11 (F := Ideal) ei (ix1 n) := by
  have hd := dinv_agree ei hr n
  unfold Cert.KernelIdeal.Stage.dinv2
  generalize Cert.KernelIdeal.Stage.dinv (F := Ideal) ei = d at hd ⊢
  generalize val_main_v11 (F := Ideal) ei = d' at hd ⊢
  rw [shapeCast_apply _ _ (ix2 (⟨n.val, by omega⟩ : Fin 100096) (0 : Fin 1)) (ix1 (⟨n.val, by omega⟩ : Fin 100096))
    (by rw [Shape.rowMajor_val_two, Shape.rowMajor_val_one]; show n.val = n.val * 1 + 0; omega)]
  rw [mulf_apply, hd]

/-- Every edge's weight is the reference's. -/
theorem norm_agree (ei : IVec ⟨2, ![2, 1600000]⟩ 32) (hr : EdgesInRange ei) :
    Cert.KernelIdeal.Stage.norm (F := Ideal) ei = val_main_v26 (F := Ideal) ei := by
  unfold Cert.KernelIdeal.Stage.norm val_main_v26 val_main_v18 val_main_v25
  rw [← wrap_src_eq17 ei hr, ← wrap_dst_eq24 ei hr]
  exact mul_gather_agree (by decide : 100000 ≤ 100096) (by decide) _ _ _ _ (dinv_agree ei hr) _ _
    (wrap_src_range' ei hr) (wrap_dst_range ei hr)

/-- The reference's second-layer recomputations are its first-layer terms. -/
theorem dinv_again (ei : IVec ⟨2, ![2, 1600000]⟩ 32) : val_main_v56 (F := Ideal) ei = val_main_v11 (F := Ideal) ei := by
  exact dinv_again' ei
theorem norm_again (ei : IVec ⟨2, ![2, 1600000]⟩ 32) : val_main_v71 (F := Ideal) ei = val_main_v26 (F := Ideal) ei := by
  exact norm_again' ei

/-- Under the range hypothesis the kernel program's normalised index column is the plain column of the indices, and so
    is the reference's (a nonnegative index is kept by both). -/
theorem wrap_src_range (ei : IVec ⟨2, ![2, 1600000]⟩ 32) (hr : EdgesInRange ei) : InRange (Cert.KernelIdeal.Stage.wrapIdx (F := Ideal) (Cert.KernelIdeal.Stage.src (F := Ideal) ei)) 100000 := by
  exact wrap_src_range' ei hr
theorem wrap_src_eq (ei : IVec ⟨2, ![2, 1600000]⟩ 32) (hr : EdgesInRange ei) : Cert.KernelIdeal.Stage.wrapIdx (F := Ideal) (Cert.KernelIdeal.Stage.src (F := Ideal) ei) = val_main_v32 (F := Ideal) ei := by
  exact (wrap_src_eq17 ei hr).trans rfl
theorem wrap_src_eq2 (ei : IVec ⟨2, ![2, 1600000]⟩ 32) (hr : EdgesInRange ei) : Cert.KernelIdeal.Stage.wrapIdx (F := Ideal) (Cert.KernelIdeal.Stage.src (F := Ideal) ei) = val_main_v77 (F := Ideal) ei := by
  exact (wrap_src_eq17 ei hr).trans rfl
theorem dstCol_eq (ei : IVec ⟨2, ![2, 1600000]⟩ 32) : Cert.KernelIdeal.Stage.dstCol (F := Ideal) ei = val_main_v38 (F := Ideal) ei := by
  rfl
theorem dstCol_eq2 (ei : IVec ⟨2, ![2, 1600000]⟩ 32) : Cert.KernelIdeal.Stage.dstCol (F := Ideal) ei = val_main_v83 (F := Ideal) ei := by
  rfl

end Cert.Bridge

end
-- ==== Proof.BridgeL1.lean ====
/-
  Layer 1 agrees on the first 100000 rows: the linear layer (the padding rows are zero and play no part), the aggregation over destinations, and relu (agg + h·dinv² + b1).
-/
import proofs.«413348_j30863634989386_3_alg».proof.Proof.BridgeDefs
import proofs.«413348_j30863634989386_3_alg».proof.Proof.BridgeNorm
import Idealize.ShloMosaic.Lib.KernelVsHost

set_option maxRecDepth 16384

noncomputable section

namespace Cert.Bridge

open Idealize.ShloMosaic Idealize.ShloMosaic.ValueIdx Cert.Lib.RowOps
open Cert.ReferenceIdeal.ReadP
open Cert.KernelIdeal (Stage.src Stage.dst Stage.xpad Stage.wrapIdx Stage.dstCol Stage.dinv Stage.dinv2 Stage.norm Stage.agg1 Stage.agg2 Stage.b1row Stage.b2row Stage.keep Stage.lin1 Stage.fin1 Stage.lin2 Stage.fin2 Stage.rowMax Stage.lsm Stage.out)

variable [Cert.KernelIdeal.Facts] [Cert.ReferenceIdeal.Facts]

/-- x·W1 on the first 100000 rows is the reference's dot_general. -/
theorem h1_agree (x : (⟨2, ![100000, 128]⟩ : Shape).Idx → EReal) (w1 : (⟨2, ![128, 64]⟩ : Shape).Idx → EReal) :
    Rows (Cert.KernelIdeal.Stage.lin1 (Cert.KernelIdeal.Stage.xpad (F := Ideal) x) w1) (val_main_v4 (F := Ideal) x w1) := by
  intro n c
  rw [val_main_v4_apply]
  unfold Cert.KernelIdeal.Stage.lin1
  refine Finset.sum_congr rfl fun k _ => ?_
  congr 1
  · unfold Cert.KernelIdeal.Stage.xpad
    exact pad_apply_of_inside _ _ _ x _ _ _ _ (lidx_main_v4 (ix2 n c) k) (fun a => match a with
      | ⟨0, _⟩ => by show n.val = 0 + n.val * (0 + 1); omega
      | ⟨1, _⟩ => by show k.val = 0 + k.val * (0 + 1); omega)
  · exact congrArg w1 (funext fun a => match a with
      | ⟨0, _⟩ => rfl
      | ⟨1, _⟩ => rfl)

/-- A rank-0 operand broadcast to a matrix has the operand's one value at every index. -/
private theorem bcast0_apply {α : Type} {t : Shape} (h : (⟨0, ![]⟩ : Shape).BroadcastsInDim t (![] : Fin 0 → Fin t.rank))
    (y : (⟨0, ![]⟩ : Shape).Idx → α) (j : t.Idx) (k : (⟨0, ![]⟩ : Shape).Idx) :
    broadcastInDim t ![] h y j = y k :=
  broadcastInDim_apply _ h y j k (fun a => a.elim0)

/-- The aggregated messages of layer 1, for ANY pair of feature arrays agreeing on the first 100000 rows. -/
theorem agg1_agree (x : (⟨2, ![100000, 128]⟩ : Shape).Idx → EReal) (ei : IVec ⟨2, ![2, 1600000]⟩ 32) (w1 : (⟨2, ![128, 64]⟩ : Shape).Idx → EReal) (hr : EdgesInRange ei)
    (H : (⟨2, ![100096, 64]⟩ : Shape).Idx → EReal) (hH : Rows H (val_main_v4 (F := Ideal) x w1)) :
    Rows (Cert.KernelIdeal.Stage.agg1 (F := Ideal) H ei) (val_main_v39 (F := Ideal) x ei w1) := by
  -- the gathered source rows coincide: every source index lies below 100000, where the two feature arrays agree
  have hg : Host.gather Cert.KernelIdeal.gather_S100096x64_S1600000x1_S1600000x64_1_0_n_n_0_1_164 H
        (Cert.KernelIdeal.Stage.wrapIdx (F := Ideal) (Cert.KernelIdeal.Stage.src (F := Ideal) ei))
      = val_main_v33 (F := Ideal) x ei w1 := by
    unfold val_main_v33
    rw [← wrap_src_eq ei hr]
    exact gath2_agree (by decide) (by decide) _ _ H (val_main_v4 (F := Ideal) x w1) hH _ (wrap_src_range ei hr)
  -- both scatters start from zero
  have hz : Rows (broadcastInDim Cert.KernelIdeal.S100096x64 ![] Cert.KernelIdeal.Facts₀.bcast_S_S100096x64
        (constant (F := Ideal) Cert.KernelIdeal.S_ .f32 0x00000000#32)) (val_main_v37 (F := Ideal)) := by
    intro n c
    rw [val_main_v37_apply]
    exact bcast0_apply _ _ _ _
  unfold Cert.KernelIdeal.Stage.agg1 val_main_v39 val_main_v36 val_main_v35 val_main_v34
  rw [hg, norm_agree ei hr, dstCol_eq ei]
  exact scat2_agree (by decide) _ _ _ _ hz _ _

/-- relu (agg + h·dinv² + b1) on the first 100000 rows is the reference's layer-1 output. -/
theorem c1_agree (x : (⟨2, ![100000, 128]⟩ : Shape).Idx → EReal) (ei : IVec ⟨2, ![2, 1600000]⟩ 32) (w1 : (⟨2, ![128, 64]⟩ : Shape).Idx → EReal) (b1 : (⟨1, ![64]⟩ : Shape).Idx → EReal) (hr : EdgesInRange ei) :
    Rows (Cert.KernelIdeal.Stage.fin1
        (Cert.KernelIdeal.Stage.agg1 (F := Ideal) (Cert.KernelIdeal.Stage.lin1 (Cert.KernelIdeal.Stage.xpad (F := Ideal) x) w1) ei)
        (Cert.KernelIdeal.Stage.lin1 (Cert.KernelIdeal.Stage.xpad (F := Ideal) x) w1)
        (Cert.KernelIdeal.Stage.dinv2 (F := Ideal) ei) (Cert.KernelIdeal.Stage.b1row (F := Ideal) b1))
      (val_main_v48 (F := Ideal) x ei w1 b1) := by
  intro n c
  -- the four terms of the sum, each at (n, c)
  have hA := agg1_agree x ei w1 hr _ (h1_agree x w1) n c
  have hH := h1_agree x w1 n c
  have hD := dinv2_agree ei hr n
  have hB : Cert.KernelIdeal.Stage.b1row (F := Ideal) b1 (ix2 (0 : Fin 1) c) = b1 (idx_main_v45 (idx_main_v46 (ix2 n c))) := by
    unfold Cert.KernelIdeal.Stage.b1row
    exact shapeCast_apply b1 _ _ _ (by
      rewrite [Shape.rowMajor_val_one, Shape.rowMajor_val_two]
      show c.val = 0 * 64 + c.val
      omega)
  have hI : idx_main_v41 (idx_main_v42 (ix2 n c)) = ix1 n := funext fun a => match a with
    | ⟨0, _⟩ => rfl
  -- the reference's side, read at (n, c)
  rw [val_main_v48_apply, val_main_v47_apply, val_main_v44_apply, val_main_v43_apply, val_main_v46_apply, val_main_v45_apply,
    val_main_v42_apply, val_main_v41_apply, val_main_v40_apply, val_main_call0_v0_apply, val_main_call0_cst_apply]
  simp only [Ideal.maximumf_def, Ideal.addf_def, Ideal.mulf_def, Ideal.ofBits_def, Ideal.ofBits_zero_f32]
  rw [hI, ← hD, ← hB, ← hA, ← hH]
  rfl

end Cert.Bridge

end
-- ==== Proof.BridgeL2.lean ====
/-
  Layer 2 and the result agree: for any layer-1 outputs agreeing on the first 100000 rows, the second linear layer, its aggregation, agg + h·dinv² + b2 and the row-wise log-softmax agree on those rows; the kernel program keeps exactly those rows.
-/
import proofs.«413348_j30863634989386_3_alg».proof.Proof.BridgeDefs
import proofs.«413348_j30863634989386_3_alg».proof.Proof.BridgeNorm
import Idealize.ShloMosaic.PureOps.Reduce

set_option maxRecDepth 16384

noncomputable section

namespace Cert.Bridge

open Idealize.ShloMosaic Idealize.ShloMosaic.ValueIdx Cert.Lib.RowOps
open Cert.ReferenceIdeal.ReadP
open Cert.KernelIdeal (Stage.src Stage.dst Stage.xpad Stage.wrapIdx Stage.dstCol Stage.dinv Stage.dinv2 Stage.norm Stage.agg1 Stage.agg2 Stage.b1row Stage.b2row Stage.keep Stage.lin1 Stage.fin1 Stage.lin2 Stage.fin2 Stage.rowMax Stage.lsm Stage.out)

variable [Cert.KernelIdeal.Facts] [Cert.ReferenceIdeal.Facts]

/-- c·W2 on the first 100000 rows, for layer-1 outputs agreeing there. -/
theorem h2_agree (x : (⟨2, ![100000, 128]⟩ : Shape).Idx → EReal) (ei : IVec ⟨2, ![2, 1600000]⟩ 32) (w1 : (⟨2, ![128, 64]⟩ : Shape).Idx → EReal) (b1 : (⟨1, ![64]⟩ : Shape).Idx → EReal) (w2 : (⟨2, ![64, 16]⟩ : Shape).Idx → EReal)
    (C : (⟨2, ![100096, 64]⟩ : Shape).Idx → EReal) (hC : Rows C (val_main_v48 (F := Ideal) x ei w1 b1)) :
    Rows (Cert.KernelIdeal.Stage.lin2 C w2) (val_main_v49 (F := Ideal) x ei w1 b1 w2) := by
  intro n c
  rw [val_main_v49_apply]
  show ∑ k : Fin 64, C (ix2 (⟨n.val, _⟩ : Fin 100096) k) * w2 (ix2 k (⟨c.val, _⟩ : Fin 16)) = _
  refine Finset.sum_congr rfl fun k _ => ?_
  rw [hC n k]
  have el : lidx_main_v49 (ix2 n c) k = ix2 n k := funext fun a => Fin.ext (by
    match a with
    | ⟨0, _⟩ => rfl
    | ⟨1, _⟩ => rfl)
  have er : ridx_main_v49 (ix2 n c) k = ix2 k c := funext fun a => Fin.ext (by
    match a with
    | ⟨0, _⟩ => rfl
    | ⟨1, _⟩ => rfl)
  rw [el, er]

/-- The zero array the kernel program's scatter starts from agrees with the reference's: both are 0 everywhere. -/
private theorem zeros16_agree :
    Rows (broadcastInDim Cert.KernelIdeal.S100096x16 ![] Cert.KernelIdeal.Facts₀.bcast_S_S100096x16
        (constant (F := Ideal) Cert.KernelIdeal.S_ .f32 0x00000000#32))
      (val_main_v82 (F := Ideal)) := by
  intro n c
  rw [val_main_v82_apply, broadcastInDim_apply _ Cert.KernelIdeal.Facts₀.bcast_S_S100096x16 _ _ (fun a => a.elim0) (fun a => a.elim0)]
  rfl

/-- The aggregated messages of layer 2. -/
theorem agg2_agree (x : (⟨2, ![100000, 128]⟩ : Shape).Idx → EReal) (ei : IVec ⟨2, ![2, 1600000]⟩ 32) (w1 : (⟨2, ![128, 64]⟩ : Shape).Idx → EReal) (b1 : (⟨1, ![64]⟩ : Shape).Idx → EReal) (w2 : (⟨2, ![64, 16]⟩ : Shape).Idx → EReal) (hr : EdgesInRange ei)
    (H : (⟨2, ![100096, 16]⟩ : Shape).Idx → EReal) (hH : Rows H (val_main_v49 (F := Ideal) x ei w1 b1 w2)) :
    Rows (Cert.KernelIdeal.Stage.agg2 (F := Ideal) H ei) (val_main_v84 (F := Ideal) x ei w1 b1 w2) := by
  -- the gathered rows: every source index lies below 100000, so both gathers read the same rows
  have hg : Host.gather Cert.KernelIdeal.gather_S100096x16_S1600000x1_S1600000x16_1_0_n_n_0_1_116 H (val_main_v77 (F := Ideal) ei)
      = val_main_v78 (F := Ideal) x ei w1 b1 w2 :=
    gath2_agree (by decide) (by decide) _ _ H (val_main_v49 (F := Ideal) x ei w1 b1 w2) hH (val_main_v77 (F := Ideal) ei)
      (wrap_src_eq2 ei hr ▸ wrap_src_range ei hr)
  unfold Cert.KernelIdeal.Stage.agg2
  rw [dstCol_eq2, wrap_src_eq2 ei hr, norm_agree ei hr, ← norm_again ei, hg]
  exact scat2_agree (by decide) _ _ _ _ zeros16_agree (val_main_v83 (F := Ideal) ei) (val_main_v81 (F := Ideal) x ei w1 b1 w2)

/-- The bias as a one-row matrix, read at (0, c), is its entry c. -/
private theorem b2row_apply (b2 : (⟨1, ![16]⟩ : Shape).Idx → EReal) (c : Fin 16) :
    Cert.KernelIdeal.Stage.b2row (F := Ideal) b2 (ix2 (0 : Fin 1) c) = b2 (ix1 c) := by
  unfold Cert.KernelIdeal.Stage.b2row
  exact shapeCast_apply b2 _ (ix2 (0 : Fin 1) c) (ix1 c)
    (by rewrite [Shape.rowMajor_val_two, Shape.rowMajor_val_one]; show c.val = 0 * 16 + c.val; omega)

/-- agg + h·dinv² + b2. -/
theorem c2_agree (x : (⟨2, ![100000, 128]⟩ : Shape).Idx → EReal) (ei : IVec ⟨2, ![2, 1600000]⟩ 32) (w1 : (⟨2, ![128, 64]⟩ : Shape).Idx → EReal) (b1 : (⟨1, ![64]⟩ : Shape).Idx → EReal) (w2 : (⟨2, ![64, 16]⟩ : Shape).Idx → EReal) (b2 : (⟨1, ![16]⟩ : Shape).Idx → EReal) (hr : EdgesInRange ei)
    (H : (⟨2, ![100096, 16]⟩ : Shape).Idx → EReal) (hH : Rows H (val_main_v49 (F := Ideal) x ei w1 b1 w2)) :
    Rows (Cert.KernelIdeal.Stage.fin2 (Cert.KernelIdeal.Stage.agg2 (F := Ideal) H ei) H
        (Cert.KernelIdeal.Stage.dinv2 (F := Ideal) ei) (Cert.KernelIdeal.Stage.b2row (F := Ideal) b2))
      (val_main_v92 (F := Ideal) x ei w1 b1 w2 b2) := by
  intro n c
  have e1 : idx_main_v86 (idx_main_v87 (ix2 n c)) = ix1 n := funext fun a => Fin.ext (by
    match a with
    | ⟨0, _⟩ => rfl)
  have e2 : idx_main_v90 (idx_main_v91 (ix2 n c)) = ix1 c := funext fun a => Fin.ext (by
    match a with
    | ⟨0, _⟩ => rfl)
  rw [val_main_v92_apply, val_main_v89_apply, val_main_v88_apply, val_main_v87_apply, val_main_v86_apply,
    val_main_v85_apply, val_main_v91_apply, val_main_v90_apply, dinv_again, e1, e2]
  simp only [Ideal.addf_def, Ideal.mulf_def]
  rw [← agg2_agree x ei w1 b1 w2 hr H hH n c, ← hH n c, ← dinv2_agree ei hr n, ← b2row_apply b2 c]
  rfl

/-- In the reduction of a [100000, 16] array along its columns, row n with column k put back is (n, k). -/
private theorem lift_col (h : (⟨2, ![100000, 16]⟩ : Shape).Reduces [1] (⟨1, ![100000]⟩ : Shape)) (n : Fin 100000)
    (k : Fin ((⟨2, ![100000, 16]⟩ : Shape).size 1)) : h.lift (ix1 n) k = ix2 n (⟨k.val, k.isLt⟩ : Fin 16) := by
  funext c; apply Fin.ext
  fin_cases c <;> rfl

/-- The word 0xFF800000 is −∞. -/
private theorem ofBits_negInf : Ideal.ofBits .f32 0xFF800000#32 = (⊥ : EReal) := by simp [Ideal.ofBits, Ideal.ieee]

/-- From −∞ the reduce with a maximum body along the rows of a [100000, 16] array is, at row n, the fold of max over
    the row's sixteen entries. -/
private theorem hostRowMax (y : FVec Ideal ⟨2, ![100000, 16]⟩ .f32)
    (h' : (⟨2, ![100000, 16]⟩ : Shape).ReducesTo [1] (⟨1, ![100000]⟩ : Shape))
    (hu : 0 < (⟨0, ![]⟩ : Shape).numel) (n : Fin 100000) :
    Host.reduce FloatOps.maximumf y (constant (⟨0, ![]⟩ : Shape) .f32 0xFF800000#32) h' hu (ix1 n)
      = (Finset.univ : Finset (Fin 16)).fold max (⊥ : EReal) (fun k => y (ix2 n k)) := by
  have h : (⟨2, ![100000, 16]⟩ : Shape).Reduces [1] (⟨1, ![100000]⟩ : Shape) := by decide
  rw [Host.reduce_eq_fold_single FloatOps.maximumf y _ h' h hu]
  have hf : (y ∘ h.lift (ix1 n)) = fun k : Fin 16 => y (ix2 n k) := funext fun k => congrArg y (lift_col h n k)
  refine Eq.trans (congrArg (fun f => Finset.fold max (Ideal.ofBits .f32 0xFF800000#32) f (Finset.univ : Finset (Fin 16))) hf) ?_
  rw [ofBits_negInf]

/-- The reference's row maximum (its reduce along the row from −∞, joined once more with −∞) is the fold of max
    over the row's sixteen entries, from −∞. -/
private theorem ref_rowMax (x : (⟨2, ![100000, 128]⟩ : Shape).Idx → EReal) (ei : IVec ⟨2, ![2, 1600000]⟩ 32) (w1 : (⟨2, ![128, 64]⟩ : Shape).Idx → EReal) (b1 : (⟨1, ![64]⟩ : Shape).Idx → EReal) (w2 : (⟨2, ![64, 16]⟩ : Shape).Idx → EReal) (b2 : (⟨1, ![16]⟩ : Shape).Idx → EReal)
    (n : Fin 100000) :
    val_main_call1_v2 (F := Ideal) x ei w1 b1 w2 b2 (ix1 n)
      = (Finset.univ : Finset (Fin 16)).fold max (⊥ : EReal) (fun k => val_main_v92 (F := Ideal) x ei w1 b1 w2 b2 (ix2 n k)) := by
  rw [val_main_call1_v2_apply, val_main_call1_v1_apply, val_main_call1_cst_0_apply]
  unfold val_main_call1_v0 val_main_call1_cst
  generalize val_main_v92 (F := Ideal) x ei w1 b1 w2 b2 = y
  rw [hostRowMax y _ _ n]
  show max (Ideal.ofBits .f32 0xFF800000#32) _ = _
  rw [ofBits_negInf, max_bot_left]

/-- Row-wise log-softmax. -/
theorem lsm_agree (x : (⟨2, ![100000, 128]⟩ : Shape).Idx → EReal) (ei : IVec ⟨2, ![2, 1600000]⟩ 32) (w1 : (⟨2, ![128, 64]⟩ : Shape).Idx → EReal) (b1 : (⟨1, ![64]⟩ : Shape).Idx → EReal) (w2 : (⟨2, ![64, 16]⟩ : Shape).Idx → EReal) (b2 : (⟨1, ![16]⟩ : Shape).Idx → EReal)
    (C : (⟨2, ![100096, 16]⟩ : Shape).Idx → EReal) (hC : Rows C (val_main_v92 (F := Ideal) x ei w1 b1 w2 b2)) :
    Rows (Cert.KernelIdeal.Stage.lsm C) (val_main_v93 (F := Ideal) x ei w1 b1 w2 b2) := by
  intro n c
  -- the two row maxima: folds of max over equal entries
  have hM : Cert.KernelIdeal.Stage.rowMax C (⟨n.val, by omega⟩ : Fin 100096)
      = val_main_call1_v2 (F := Ideal) x ei w1 b1 w2 b2 (ix1 n) := by
    rw [ref_rowMax]
    unfold Cert.KernelIdeal.Stage.rowMax
    exact congrArg (fun f => Finset.fold max (⊥ : EReal) f (Finset.univ : Finset (Fin 16))) (funext fun k => hC n k)
  -- the reference's x − max at (n, k)
  have h5 : ∀ k : Fin 16, val_main_call1_v5 (F := Ideal) x ei w1 b1 w2 b2 (ix2 n k)
      = C (ix2 (⟨n.val, by omega⟩ : Fin 100096) k) - Cert.KernelIdeal.Stage.rowMax C (⟨n.val, by omega⟩ : Fin 100096) := by
    intro k
    have e : idx_main_call1_v3 (idx_main_call1_v4 (ix2 n k)) = ix1 n := funext fun a => Fin.ext (by
      match a with
      | ⟨0, _⟩ => rfl)
    rw [val_main_call1_v5_apply, val_main_call1_v4_apply, val_main_call1_v3_apply, e, ← hM, ← hC n k]
    exact Ideal.subf_def _ _
  have e7 : ∀ k : Fin 16, idx_main_call1_v7 (ix1 n) k = ix2 n k := fun k => funext fun a => Fin.ext (by
    match a with
    | ⟨0, _⟩ => rfl
    | ⟨1, _⟩ => rfl)
  have e8 : idx_main_call1_v8 (idx_main_call1_v10 (ix2 n c)) = ix1 n := funext fun a => Fin.ext (by
    match a with
    | ⟨0, _⟩ => rfl)
  -- the reference's sum of exponentials over the row
  have hsum : ∑ k : Fin 16, val_main_call1_v6 (F := Ideal) x ei w1 b1 w2 b2 (idx_main_call1_v7 (ix1 n) k)
      = ∑ k : Fin 16, Ideal.exp (C (ix2 (⟨n.val, by omega⟩ : Fin 100096) k)
          - Cert.KernelIdeal.Stage.rowMax C (⟨n.val, by omega⟩ : Fin 100096)) :=
    Finset.sum_congr rfl fun k _ => by
      rw [e7 k, val_main_call1_v6_apply, h5 k]
      exact Ideal.hostUnary_exp_def _
  rw [val_main_v93_apply, val_main_call1_v10_apply, val_main_call1_v9_apply, val_main_call1_v8_apply, e8,
    val_main_call1_v7_apply, h5 c, hsum, val_main_call1_cst_1_apply, Ideal.ofBits_def, Ideal.ofBits_zero_f32, zero_add,
    Ideal.subf_def, Ideal.hostUnary_log_def]
  rfl

/-- Keeping the first 100000 rows of an array that agrees there gives the reference's array. -/
theorem keep_eq (L : (⟨2, ![100096, 16]⟩ : Shape).Idx → EReal) (R : (⟨2, ![100000, 16]⟩ : Shape).Idx → EReal) (h : Rows L R) :
    Cert.KernelIdeal.Stage.keep (F := Ideal) L = R := by
  funext i
  obtain ⟨a, b, rfl⟩ : ∃ a b, i = ix2 a b := ⟨i 0, i 1, eq_ix2 i⟩
  rw [← h a b]
  unfold Cert.KernelIdeal.Stage.keep
  exact extractStridedSlice_apply ![0, 0] L _ (ix2 a b) (ix2 ⟨a.val, by omega⟩ b) (fun x => match x with
    | ⟨0, _⟩ => by show a.val = 0 + a.val; omega
    | ⟨1, _⟩ => by show b.val = 0 + b.val; omega)

end Cert.Bridge

end
-- ==== Proof.BridgeOut.lean ====
/-
  The two programs compute one function of the arguments when every node index lies in [0, 100000).
-/
import proofs.«413348_j30863634989386_3_alg».proof.Proof.BridgeDefs
import proofs.«413348_j30863634989386_3_alg».proof.Proof.BridgeL1
import proofs.«413348_j30863634989386_3_alg».proof.Proof.BridgeL2

set_option maxRecDepth 16384

noncomputable section

namespace Cert.Bridge

open Idealize.ShloMosaic Idealize.ShloMosaic.ValueIdx Cert.Lib.RowOps
open Cert.ReferenceIdeal.ReadP
open Cert.KernelIdeal (Stage.src Stage.dst Stage.xpad Stage.wrapIdx Stage.dstCol Stage.dinv Stage.dinv2 Stage.norm Stage.agg1 Stage.agg2 Stage.b1row Stage.b2row Stage.keep Stage.lin1 Stage.fin1 Stage.lin2 Stage.fin2 Stage.rowMax Stage.lsm Stage.out)

variable [Cert.KernelIdeal.Facts] [Cert.ReferenceIdeal.Facts]

/-- The kernel program's result function is the reference's. -/
theorem out_eq (x : (⟨2, ![100000, 128]⟩ : Shape).Idx → EReal) (ei : IVec ⟨2, ![2, 1600000]⟩ 32) (w1 : (⟨2, ![128, 64]⟩ : Shape).Idx → EReal) (b1 : (⟨1, ![64]⟩ : Shape).Idx → EReal) (w2 : (⟨2, ![64, 16]⟩ : Shape).Idx → EReal) (b2 : (⟨1, ![16]⟩ : Shape).Idx → EReal) (hr : EdgesInRange ei) :
    Cert.KernelIdeal.Stage.out x ei w1 b1 w2 b2 = val_main_v93 (F := Ideal) x ei w1 b1 w2 b2 := by
  unfold Cert.KernelIdeal.Stage.out
  exact keep_eq _ _ (lsm_agree x ei w1 b1 w2 b2 _
    (c2_agree x ei w1 b1 w2 b2 hr _ (h2_agree x ei w1 b1 w2 _ (c1_agree x ei w1 b1 hr))))

end Cert.Bridge

end
-- ==== Proof.PreIdx.lean ====
/-
  The precondition, decoded: every float input is finite and every node index of the edge list lies in [0, 100000).
  Only the index range is used by the proof (the two programs apply the same arithmetic to the same entries; no
  law of the extended reals that needs finiteness is called on).
-/
import proofs.«413348_j30863634989386_3_alg».proof.Pre_finite_inputs
import proofs.«413348_j30863634989386_3_alg».proof.Proof.Gen.Pre_finite_inputs
import Idealize.ShloMosaic.Lib.ReduceAll
import Idealize.ShloMosaic.Lib.StableHlo.Predicate
import Idealize.ShloMosaic.Lib.ValueIdx
import Idealize.ShloMosaic.PureOps.Ideal

set_option maxRecDepth 16384

noncomputable section

namespace Cert.PreIdx

open Idealize.ShloMosaic Idealize.ShloMosaic.ValueIdx Cert.Pre_finite_inputs

variable [Cert.Pre_finite_inputs.Facts]

/-- Where the printed precondition is all ones, every entry of the edge list, read signed, lies in [0, 100000). -/
theorem edge_range {F : FTy → Type} [FloatOps F] (x : FVec F S100000x128 .f32) (ei : IVec S2x1600000 32) (w1 : FVec F S128x64 .f32)
    (b1 : FVec F S64 .f32) (w2 : FVec F S64x16 .f32) (b2 : FVec F S16 .f32)
    (h : Cert.Pre_finite_inputs.fn (F := F) x ei w1 b1 w2 b2 = fun _ => 1#1) :
    ∀ (r : Fin 2) (e : Fin 1600000), 0 ≤ (ei (ix2 r e)).toInt ∧ (ei (ix2 r e)).toInt < 100000 := by
  intro r e
  -- the printed function is a scalar: read it at its one index
  have h0 := congrFun h ValueIdx.ix0
  dsimp only [Cert.Pre_finite_inputs.fn, Cert.Pre_finite_inputs.fn_part1] at h0
  -- the outermost conjunction: the finiteness tests on the left, the conjunction over all edge entries on the right
  obtain ⟨-, hall⟩ := IntOp.andi_eq_one.1 h0
  -- a conjunction over both axes that is 1 had a 1 at every entry
  haveI : Subsingleton S_.Idx := ⟨fun a b => funext fun d => d.elim0⟩
  have hel := Host.reduce_andi_all _ _ _ _ _ hall (ix2 r e)
  -- at the entry (r, e): the two signed comparisons against the broadcast bounds
  obtain ⟨hge, hlt⟩ := IntOp.andi_eq_one.1 hel
  have hge' := IntOp.cmpi_sge.1 hge
  have hlt' := IntOp.cmpi_slt.1 hlt
  -- a broadcast scalar reads the scalar everywhere; the two bounds are the literals 0 and 100000
  rw [StableHlo.Predicate.bcast_scalar _ Facts.h_S_] at hge' hlt'
  have z : (0#32 : BitVec 32).toInt = 0 := by decide
  have c : (100000#32 : BitVec 32).toInt = 100000 := by decide
  change (0#32 : BitVec 32).toInt ≤ _ at hge'
  change _ < (100000#32 : BitVec 32).toInt at hlt'
  rw [z] at hge'
  rw [c] at hlt'
  exact ⟨hge', hlt'⟩

end Cert.PreIdx

end
-- ==== Proof.lean ====
/-
  A two-layer graph convolution (GCN) with a row-wise log-softmax, as five tiled kernel launches over node arrays padded
  from 100000 to 100096 rows with the gather of h[src] and the scatter-add over dst left to host operations, against the
  plain jnp reference over 100000 rows: equal over the extended reals when every node index of the edge list lies in
  [0, 100000) (the added precondition: outside it the reference itself indexes out of range, and the two programs
  clamp and wrap against different heights).

  Both programs apply the same operations to the same entries: per layer a linear map (a sum of products per row),
  messages h[src]·dinv[src]·dinv[dst] summed over each destination, plus the self-loop term h·dinv² and the bias
  (layer 1 followed by max with 0), then (x − m) − log Σ exp (x − m) along each row. The padding rows are zero going in,
  are never gathered (every source is below 100000), receive no message (every destination is below 100000) and are cut
  off at the end; on the first 100000 rows every stage of the kernel program is the reference's stage. No law of the
  extended reals that needs finiteness is used, only that a scatter-add lands update e on row dst[e] and a gather reads
  row src[e], at both heights.

  The modules: KStages (the kernel program's stages as functions), KReg0 … KReg4 (each launch's output array as one
  function of the arrays it finds), KHost (the kernel program's result buffer read back through @main), RefRun / RefRead /
  RefFold (the reference's run and its result read back), LibRowOps (row scatter-add and gather at an index and across two
  heights), BridgeNorm / BridgeL1 / BridgeL2 / BridgeOut (stage by stage agreement), PreIdx (the index range out of the
  precondition), KRun (the kernel program's run with its result named).
-/
import proofs.«413348_j30863634989386_3_alg».proof.Defs
import proofs.«413348_j30863634989386_3_alg».proof.Proof.Gen.Kernel
import proofs.«413348_j30863634989386_3_alg».proof.Proof.Gen.Kernel.Skeleton
import proofs.«413348_j30863634989386_3_alg».proof.Proof.Gen.Kernel.Launch
import proofs.«413348_j30863634989386_3_alg».proof.Proof.Gen.Kernel.Points
import proofs.«413348_j30863634989386_3_alg».proof.Proof.Gen.Kernel.Frame
import proofs.«413348_j30863634989386_3_alg».proof.Proof.Gen.KernelIdeal
import proofs.«413348_j30863634989386_3_alg».proof.Proof.Gen.KernelIdeal.Skeleton
import proofs.«413348_j30863634989386_3_alg».proof.Proof.Gen.KernelIdeal.Launch
import proofs.«413348_j30863634989386_3_alg».proof.Proof.Gen.KernelIdeal.Points
import proofs.«413348_j30863634989386_3_alg».proof.Proof.Gen.KernelIdeal.Frame
import proofs.«413348_j30863634989386_3_alg».proof.Proof.Gen.ReferenceIdeal
import proofs.«413348_j30863634989386_3_alg».proof.Proof.RefRun
import proofs.«413348_j30863634989386_3_alg».proof.Proof.RefRead
import proofs.«413348_j30863634989386_3_alg».proof.Proof.Gen.Pre_finite_inputs
import proofs.«413348_j30863634989386_3_alg».proof.Proof.KRun
import proofs.«413348_j30863634989386_3_alg».proof.Proof.KHost
import proofs.«413348_j30863634989386_3_alg».proof.Proof.RefFold
import proofs.«413348_j30863634989386_3_alg».proof.Proof.BridgeOut
import proofs.«413348_j30863634989386_3_alg».proof.Proof.PreIdx
import Idealize.ShloMosaic.Adequacy
import Idealize.ShloMosaic.Init

noncomputable section

namespace Cert.Proof

open Idealize.ShloMosaic Idealize.SL.Sem

/-- The word-level kernel program runs and leaves its arguments unchanged: the generated frame. -/
theorem frame_kernel : Cert.frame_Kernel := fun m ρ _ => Cert.Kernel.Gen.frame m ρ

/-- The idealized kernel program runs and leaves its arguments unchanged: the generated frame. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories agreeing on the arguments both programs end with one result: the kernel program's result buffer is
    `Stage.out` of the arguments, the reference's is its composed stage function, and the two functions agree where
    every node index lies in [0, 100000). -/
theorem algebraic : Cert.algebraic_KernelIdeal_ReferenceIdeal := by
  intro m ρ m' ρ' hpre hagree
  refine ⟨fun c => Cert.KernelIdeal.Gen.W11 (F := Ideal) m ρ c (Proc.devRef .tc Cert.KernelIdeal.main_v62),
    Cert.KernelIdeal.GenRun.run (F := Ideal) m ρ, ?_⟩
  refine (θ_run Cert.ReferenceIdeal.defs _ _).mono (fun _ h c => ⟨(h c).1.trans ?_, (h c).2⟩)
    (Cert.ReferenceIdeal.ValueP.run (F := Ideal) m' ρ')
  have hr := Cert.PreIdx.edge_range (F := Ideal) _ _ _ _ _ _ (hpre c)
  obtain ⟨e0, e1, e2, e3, e4, e5⟩ := hagree c
  refine (Cert.ReferenceIdeal.Fold.result (F := Ideal) _).trans ?_
  refine Eq.trans ?_ (Cert.KernelIdeal.HostVal.result m ρ c).symm
  show Cert.ReferenceIdeal.ReadP.val_main_v93 (F := Ideal)
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      (m' ((c.tc : Thread Cert.ReferenceIdeal.nD Cert.ReferenceIdeal.τ).loc Cert.ReferenceIdeal.main_arg5)) = _
  rw [e0, e1, e2, e3, e4, e5]
  exact (Cert.Bridge.out_eq _ _ _ _ _ _ hr).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
